-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S32x256x128 : Shape := ⟨3, ![32, 256, 128]⟩
abbrev S4096 : Shape := ⟨1, ![4096]⟩
abbrev S32 : Shape := ⟨1, ![32]⟩
abbrev S32x4096 : Shape := ⟨2, ![32, 4096]⟩
abbrev S32x32 : Shape := ⟨2, ![32, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x256x128 : S_.BroadcastsInDim S32x256x128 (![] : Fin 0 → Fin S32x256x128.rank)
  reducesTo_S32x256x128_S_d0_1_2 : S32x256x128.ReducesTo [0, 1, 2] S_
  bcast_S_S4096 : S_.BroadcastsInDim S4096 (![] : Fin 0 → Fin S4096.rank)
  reducesTo_S4096_S_d0 : S4096.ReducesTo [0] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S4x2048x4096 .f32) (main_arg1 : FVec F S32x256x128 .f32) (main_arg2 : FVec F S4096 .f32) (main_arg3 : FVec F S32 .f32) (main_arg4 : IVec S32x4096 32) (main_arg5 : IVec S32x32 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x256x128 .f32 := Host.absf main_arg1
  let main_cst_0 : FVec F S_ .f32 := constant S_ .f32 0x7F800000#32
  let main_v5 : FVec F S32x256x128 .f32 := broadcastInDim S32x256x128 ![] bcast_S_S32x256x128 main_cst_0
  let main_v6 : IVec S32x256x128 1 := cmpf .olt main_v4 main_v5
  let main_c_1 : IVec S_ 1 := constantI S_ 1 1#1
  let main_v7 : IVec S_ 1 := (fun x v => Host.reduce IntOp.andi x v reducesTo_S32x256x128_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S4x2048x4096 : Shape := ⟨3, ![4, 2048, 4096]⟩
abbrev S32x256x128 : Shape := ⟨3, ![32, 256, 128]⟩
abbrev S4096 : Shape := ⟨1, ![4096]⟩
abbrev S32 : Shape := ⟨1, ![32]⟩
abbrev S32x4096 : Shape := ⟨2, ![32, 4096]⟩
abbrev S32x32 : Shape := ⟨2, ![32, 32]⟩
abbrev S8192x4096 : Shape := ⟨2, ![8192, 4096]⟩
abbrev S32x1 : Shape := ⟨2, ![32, 1]⟩
abbrev S_ : Shape := ⟨0, ![]⟩
abbrev S32x32x1 : Shape := ⟨3, ![32, 32, 1]⟩
abbrev S32x32x2 : Shape := ⟨3, ![32, 32, 2]⟩
abbrev S32x32x128 : Shape := ⟨3, ![32, 32, 128]⟩
abbrev S32x4096x1 : Shape := ⟨3, ![32, 4096, 1]⟩
abbrev S32x4096x2 : Shape := ⟨3, ![32, 4096, 2]⟩
abbrev S32x4096x128 : Shape := ⟨3, ![32, 4096, 128]⟩
abbrev S4096x32x128 : Shape := ⟨3, ![4096, 32, 128]⟩
abbrev S4096x4096 : Shape := ⟨2, ![4096, 4096]⟩
abbrev S4096x32 : Shape := ⟨2, ![4096, 32]⟩
abbrev S1x32 : Shape := ⟨2, ![1, 32]⟩
abbrev S1x4096 : Shape := ⟨2, ![1, 4096]⟩
abbrev S8192x1 : Shape := ⟨2, ![8192, 1]⟩
abbrev S256x4096 : Shape := ⟨2, ![256, 4096]⟩
abbrev S256x1 : Shape := ⟨2, ![256, 1]⟩
abbrev S256x32 : Shape := ⟨2, ![256, 32]⟩
abbrev S256 : Shape := ⟨1, ![256]⟩
abbrev S1x32x128 : Shape := ⟨3, ![1, 32, 128]⟩
abbrev S128x4096 : Shape := ⟨2, ![128, 4096]⟩
abbrev S128x1 : Shape := ⟨2, ![128, 1]⟩

abbrev nBuf : Space → Nat
  | .hbm => 64
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S32x256x128, .f32⟩
  | .hbm, ⟨2, _⟩ => ⟨S4096, .f32⟩
  | .hbm, ⟨3, _⟩ => ⟨S32, .f32⟩
  | .hbm, ⟨4, _⟩ => ⟨S32x4096, .i32⟩
  | .hbm, ⟨5, _⟩ => ⟨S32x32, .i32⟩
  | .hbm, ⟨6, _⟩ => ⟨S8192x4096, .f32⟩
  | .hbm, ⟨7, _⟩ => ⟨S32, .i32⟩
  | .hbm, ⟨8, _⟩ => ⟨S32x1, .i32⟩
  | .hbm, ⟨9, _⟩ => ⟨S_, .i32⟩
  | .hbm, ⟨10, _⟩ => ⟨S32x1, .i32⟩
  | .hbm, ⟨11, _⟩ => ⟨S32x1, .i1⟩
  | .hbm, ⟨12, _⟩ => ⟨S_, .i32⟩
  | .hbm, ⟨13, _⟩ => ⟨S32x1, .i32⟩
  | .hbm, ⟨14, _⟩ => ⟨S32x1, .i32⟩
  | .hbm, ⟨15, _⟩ => ⟨S32x1, .i32⟩
  | .hbm, ⟨16, _⟩ => ⟨S_, .i32⟩
  | .hbm, ⟨17, _⟩ => ⟨S32x32, .i32⟩
  | .hbm, ⟨18, _⟩ => ⟨S32x32, .i1⟩
  | .hbm, ⟨19, _⟩ => ⟨S_, .i32⟩
  | .hbm, ⟨20, _⟩ => ⟨S32x32, .i32⟩
  | .hbm, ⟨21, _⟩ => ⟨S32x32, .i32⟩
  | .hbm, ⟨22, _⟩ => ⟨S32x32, .i32⟩
  | .hbm, ⟨23, _⟩ => ⟨S32x32, .i32⟩
  | .hbm, ⟨24, _⟩ => ⟨S32x32x1, .i32⟩
  | .hbm, ⟨25, _⟩ => ⟨S32x32x1, .i32⟩
  | .hbm, ⟨26, _⟩ => ⟨S32x32x2, .i32⟩
  | .hbm, ⟨27, _⟩ => ⟨S32x32x128, .f32⟩
  | .hbm, ⟨28, _⟩ => ⟨S32x32x128, .f32⟩
  | .hbm, ⟨29, _⟩ => ⟨S32x4096, .f32⟩
  | .hbm, ⟨30, _⟩ => ⟨S32, .i32⟩
  | .hbm, ⟨31, _⟩ => ⟨S32x1, .i32⟩
  | .hbm, ⟨32, _⟩ => ⟨S_, .i32⟩
  | .hbm, ⟨33, _⟩ => ⟨S32x1, .i32⟩
  | .hbm, ⟨34, _⟩ => ⟨S32x1, .i1⟩
  | .hbm, ⟨35, _⟩ => ⟨S_, .i32⟩
  | .hbm, ⟨36, _⟩ => ⟨S32x1, .i32⟩
  | .hbm, ⟨37, _⟩ => ⟨S32x1, .i32⟩
  | .hbm, ⟨38, _⟩ => ⟨S32x1, .i32⟩
  | .hbm, ⟨39, _⟩ => ⟨S_, .i32⟩
  | .hbm, ⟨40, _⟩ => ⟨S32x4096, .i32⟩
  | .hbm, ⟨41, _⟩ => ⟨S32x4096, .i1⟩
  | .hbm, ⟨42, _⟩ => ⟨S_, .i32⟩
  | .hbm, ⟨43, _⟩ => ⟨S32x4096, .i32⟩
  | .hbm, ⟨44, _⟩ => ⟨S32x4096, .i32⟩
  | .hbm, ⟨45, _⟩ => ⟨S32x4096, .i32⟩
  | .hbm, ⟨46, _⟩ => ⟨S32x4096, .i32⟩
  | .hbm, ⟨47, _⟩ => ⟨S32x4096x1, .i32⟩
  | .hbm, ⟨48, _⟩ => ⟨S32x4096x1, .i32⟩
  | .hbm, ⟨49, _⟩ => ⟨S32x4096x2, .i32⟩
  | .hbm, ⟨50, _⟩ => ⟨S32x4096x128, .f32⟩
  | .hbm, ⟨51, _⟩ => ⟨S4096x32x128, .f32⟩
  | .hbm, ⟨52, _⟩ => ⟨S4096x4096, .f32⟩
  | .hbm, ⟨53, _⟩ => ⟨S4096x32, .f32⟩
  | .hbm, ⟨54, _⟩ => ⟨S4096x4096, .f32⟩
  | .hbm, ⟨55, _⟩ => ⟨S4096x4096, .bf16⟩
  | .hbm, ⟨56, _⟩ => ⟨S1x32, .f32⟩
  | .hbm, ⟨57, _⟩ => ⟨S1x4096, .f32⟩
  | .hbm, ⟨58, _⟩ => ⟨S8192x1, .f32⟩
  | .hbm, ⟨59, _⟩ => ⟨S1x32, .f32⟩
  | .hbm, ⟨60, _⟩ => ⟨S1x32x128, .f32⟩
  | .hbm, ⟨61, _⟩ => ⟨S1x4096, .f32⟩
  | .hbm, ⟨62, _⟩ => ⟨S8192x4096, .f32⟩
  | .hbm, ⟨63, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x32, .f32⟩
  | .local _ .vmem, ⟨3, _⟩ => ⟨S1x32, .f32⟩
  | .local _ .vmem, ⟨4, _⟩ => ⟨S256x1, .f32⟩
  | .local _ .vmem, ⟨5, _⟩ => ⟨S256x1, .f32⟩
  | .local _ .vmem, ⟨6, _⟩ => ⟨S1x32, .f32⟩
  | .local _ .vmem, ⟨7, _⟩ => ⟨S1x32, .f32⟩
  | .local _ .vmem, ⟨8, _⟩ => ⟨S128x4096, .f32⟩
  | .local _ .vmem, ⟨9, _⟩ => ⟨S128x4096, .f32⟩
  | .local _ .vmem, ⟨10, _⟩ => ⟨S4096x4096, .bf16⟩
  | .local _ .vmem, ⟨11, _⟩ => ⟨S1x4096, .f32⟩
  | .local _ .vmem, ⟨12, _⟩ => ⟨S128x1, .f32⟩
  | .local _ .vmem, ⟨13, _⟩ => ⟨S128x1, .f32⟩
  | .local _ .vmem, ⟨14, _⟩ => ⟨S1x4096, .f32⟩
  | .local _ .vmem, ⟨15, _⟩ => ⟨S128x4096, .f32⟩
  | .local _ .vmem, ⟨16, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44_0 : Ref sig .tc := ⟨.hbm, 58, rfl⟩
abbrev main_v44_1 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S4x2048x4096_S8192x4096 : S4x2048x4096.ShapeCasts S8192x4096
  bcast_S32_S32x1_0 : S32.BroadcastsInDim S32x1 (![0] : Fin 1 → Fin S32x1.rank)
  bcast_S_S32x1 : S_.BroadcastsInDim S32x1 (![] : Fin 0 → Fin S32x1.rank)
  bcast_S_S32x32 : S_.BroadcastsInDim S32x32 (![] : Fin 0 → Fin S32x32.rank)
  bcast_S32x1_S32x32_0_1 : S32x1.BroadcastsInDim S32x32 (![0, 1] : Fin 2 → Fin S32x32.rank)
  bcast_S32x32_S32x32x1_0_1 : S32x32.BroadcastsInDim S32x32x1 (![0, 1] : Fin 2 → Fin S32x32x1.rank)
  concatenates_S32x32x1_S32x32x1_S32x32x2_d2 : Shape.Concatenates [S32x32x1, S32x32x1] S32x32x2 2
  transposes_S32x32x128_S32x32x128_1_0_2 : S32x32x128.Transposes [1, 0, 2] S32x32x128
  shapeCasts_S32x32x128_S32x4096 : S32x32x128.ShapeCasts S32x4096
  bcast_S_S32x4096 : S_.BroadcastsInDim S32x4096 (![] : Fin 0 → Fin S32x4096.rank)
  bcast_S32x1_S32x4096_0_1 : S32x1.BroadcastsInDim S32x4096 (![0, 1] : Fin 2 → Fin S32x4096.rank)
  bcast_S32x4096_S32x4096x1_0_1 : S32x4096.BroadcastsInDim S32x4096x1 (![0, 1] : Fin 2 → Fin S32x4096x1.rank)
  concatenates_S32x4096x1_S32x4096x1_S32x4096x2_d2 : Shape.Concatenates [S32x4096x1, S32x4096x1] S32x4096x2 2
  transposes_S32x4096x128_S4096x32x128_1_0_2 : S32x4096x128.Transposes [1, 0, 2] S4096x32x128
  shapeCasts_S4096x32x128_S4096x4096 : S4096x32x128.ShapeCasts S4096x4096
  transposes_S32x4096_S4096x32_1_0 : S32x4096.Transposes [1, 0] S4096x32
  transposes_S4096x4096_S4096x4096_1_0 : S4096x4096.Transposes [1, 0] S4096x4096
  bitsLt_bf16_f32 : FTy.bits .bf16 < FTy.bits .f32
  shapeCasts_S32_S1x32 : S32.ShapeCasts S1x32
  shapeCasts_S4096_S1x4096 : S4096.ShapeCasts S1x4096
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  reduces_S256x32_S256 : S256x32.Reduces [1] S256
  shapeCasts_S256_S256x1 : S256.ShapeCasts S256x1
  broadcasts_S256x1_S256x32 : S256x1.Broadcasts S256x32
  broadcasts_S1x32_S256x32 : S1x32.Broadcasts S256x32
  natLt_1_32 : 1 < 32
  inb_S256x1_S256x1_0_0 : ∀ a, (![0, 0] : Fin 2 → Nat) a + S256x1.size a ≤ S256x1.size a
  h_S256x1 : 0 < S256x1.numel
  reduces_S256x32_S32 : S256x32.Reduces [0] S32
  bcast_S1x32_S1x32x128_0_1 : S1x32.BroadcastsInDim S1x32x128 (![0, 1] : Fin 2 → Fin S1x32x128.rank)
  shapeCasts_S1x32x128_S1x4096 : S1x32x128.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  shapeCasts_S8192x4096_S4x2048x4096 : S8192x4096.ShapeCasts S4x2048x4096
  gather_S32x256x128_S32x32x2_S32x32x128_2_01_n_n_01_2_11128_wf : GatherDims.WF S32x256x128 S32x32x2 S32x32x128 [2] [0, 1] [] [0, 1] [] 2 ![1, 1, 128]
  gather_S32x256x128_S32x4096x2_S32x4096x128_2_01_n_n_01_2_11128_wf : GatherDims.WF S32x256x128 S32x4096x2 S32x4096x128 [2] [0, 1] [] [0, 1] [] 2 ![1, 1, 128]
  dot_S256x4096_S4096x32_S256x32_1_0_0_1_n_n_wf : DotDims.WF S256x4096 S4096x32 S256x32 [1] [0] [0] [1] [] []
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S4096x32.size a
  hwx0_1 : ∀ i : grid0.Coords, EltTy.bits .f32 = 32 ∨ (Rect.block (s := S4096x32) S4096x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .f32 = 32 ∨ (Rect.block (s := S8192x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S8192x1.size a
  hwx1_3 : ∀ i : grid1.Coords, EltTy.bits .f32 = 32 ∨ (Rect.block (s := S8192x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x4096.size a ≤ S8192x4096.size a
  hwx1_5 : ∀ i : grid1.Coords, EltTy.bits .f32 = 32 ∨ (Rect.block (s := S8192x4096) S128x4096.size (cc1_transform_5 i) (hinb1_5 i)).WholeWords (EltTy.packing .f32)

variable [Facts₀]

def gather_S32x256x128_S32x32x2_S32x32x128_2_01_n_n_01_2_11128 : GatherDims S32x256x128 S32x32x2 S32x32x128 where
  offsetDims := [2]
  collapsedSliceDims := [0, 1]
  operandBatchingDims := []
  startIndicesBatchingDims := []
  startIndexMap := [0, 1]
  indexVectorDim := 2
  sliceSizes := ![1, 1, 128]
  wf := gather_S32x256x128_S32x32x2_S32x32x128_2_01_n_n_01_2_11128_wf
def gather_S32x256x128_S32x4096x2_S32x4096x128_2_01_n_n_01_2_11128 : GatherDims S32x256x128 S32x4096x2 S32x4096x128 where
  offsetDims := [2]
  collapsedSliceDims := [0, 1]
  operandBatchingDims := []
  startIndicesBatchingDims := []
  startIndexMap := [0, 1]
  indexVectorDim := 2
  sliceSizes := ![1, 1, 128]
  wf := gather_S32x256x128_S32x4096x2_S32x4096x128_2_01_n_n_01_2_11128_wf
def dot_S256x4096_S4096x32_S256x32_1_0_0_1_n_n : DotDims S256x4096 S4096x32 S256x32 where
  lhsContracting := [1]
  rhsContracting := [0]
  lhsNonContracting := [0]
  rhsNonContracting := [1]
  lhsBatch := []
  rhsBatch := []
  wf := dot_S256x4096_S4096x32_S256x32_1_0_0_1_n_n_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S4096x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44_0) S256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v44_1) S1x32.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44_0) S128x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S128x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S32x256x128 : Shape := ⟨3, ![32, 256, 128]⟩
abbrev S4096 : Shape := ⟨1, ![4096]⟩
abbrev S32 : Shape := ⟨1, ![32]⟩
abbrev S32x4096 : Shape := ⟨2, ![32, 4096]⟩
abbrev S32x32 : Shape := ⟨2, ![32, 32]⟩
abbrev S8192x4096 : Shape := ⟨2, ![8192, 4096]⟩
abbrev S32x1 : Shape := ⟨2, ![32, 1]⟩
abbrev S_ : Shape := ⟨0, ![]⟩
abbrev S32x32x1 : Shape := ⟨3, ![32, 32, 1]⟩
abbrev S32x32x2 : Shape := ⟨3, ![32, 32, 2]⟩
abbrev S32x32x128 : Shape := ⟨3, ![32, 32, 128]⟩
abbrev S4096x32 : Shape := ⟨2, ![4096, 32]⟩
abbrev S8192x32 : Shape := ⟨2, ![8192, 32]⟩
abbrev S8192 : Shape := ⟨1, ![8192]⟩
abbrev S8192x1 : Shape := ⟨2, ![8192, 1]⟩
abbrev S1x32 : Shape := ⟨2, ![1, 32]⟩
abbrev S32x128 : Shape := ⟨2, ![32, 128]⟩
abbrev S32x4096x1 : Shape := ⟨3, ![32, 4096, 1]⟩
abbrev S32x4096x2 : Shape := ⟨3, ![32, 4096, 2]⟩
abbrev S32x4096x128 : Shape := ⟨3, ![32, 4096, 128]⟩
abbrev S4096x32x128 : Shape := ⟨3, ![4096, 32, 128]⟩
abbrev S4096x4096 : Shape := ⟨2, ![4096, 4096]⟩
abbrev S1x4096 : Shape := ⟨2, ![1, 4096]⟩

abbrev nBuf : Space → Nat
  | .hbm => 132
  | .vmem => 0
  | .smem => 0
  | _ => 0

abbrev hbmTy0_0 (i : Nat) : BufTy := match i % 128 with
  | 0 => ⟨S4x2048x4096, .f32⟩
  | 1 => ⟨S32x256x128, .f32⟩
  | 2 => ⟨S4096, .f32⟩
  | 3 => ⟨S32, .f32⟩
  | 4 => ⟨S32x4096, .i32⟩
  | 5 => ⟨S32x32, .i32⟩
  | 6 => ⟨S8192x4096, .f32⟩
  | 7 => ⟨S32, .i32⟩
  | 8 => ⟨S32x1, .i32⟩
  | 9 => ⟨S_, .i32⟩
  | 10 => ⟨S32x1, .i32⟩
  | 11 => ⟨S32x1, .i1⟩
  | 12 => ⟨S_, .i32⟩
  | 13 => ⟨S32x1, .i32⟩
  | 14 => ⟨S32x1, .i32⟩
  | 15 => ⟨S32x1, .i32⟩
  | 16 => ⟨S_, .i32⟩
  | 17 => ⟨S32x32, .i32⟩
  | 18 => ⟨S32x32, .i1⟩
  | 19 => ⟨S_, .i32⟩
  | 20 => ⟨S32x32, .i32⟩
  | 21 => ⟨S32x32, .i32⟩
  | 22 => ⟨S32x32, .i32⟩
  | 23 => ⟨S32x32, .i32⟩
  | 24 => ⟨S32x32x1, .i32⟩
  | 25 => ⟨S32x32x1, .i32⟩
  | 26 => ⟨S32x32x2, .i32⟩
  | 27 => ⟨S32x32x128, .f32⟩
  | 28 => ⟨S32x32x128, .f32⟩
  | 29 => ⟨S32x4096, .f32⟩
  | 30 => ⟨S4096x32, .f32⟩
  | 31 => ⟨S8192x32, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .i32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S8192x32, .f32⟩
  | 46 => ⟨S8192x32, .f32⟩
  | 47 => ⟨S8192x32, .f32⟩
  | 48 => ⟨S_, .f32⟩
  | 49 => ⟨S_, .f32⟩
  | 50 => ⟨S_, .f32⟩
  | 51 => ⟨S_, .f32⟩
  | 52 => ⟨S8192, .f32⟩
  | 53 => ⟨S8192x1, .f32⟩
  | 54 => ⟨S8192x1, .f32⟩
  | 55 => ⟨S8192x1, .f32⟩
  | 56 => ⟨S_, .f32⟩
  | 57 => ⟨S_, .i1⟩
  | 58 => ⟨S_, .f32⟩
  | 59 => ⟨S_, .f32⟩
  | 60 => ⟨S8192x1, .f32⟩
  | 61 => ⟨S8192x1, .f32⟩
  | 62 => ⟨S8192x32, .f32⟩
  | 63 => ⟨S8192x32, .f32⟩
  | 64 => ⟨S_, .f32⟩
  | 65 => ⟨S8192x1, .f32⟩
  | 66 => ⟨S8192x1, .f32⟩
  | 67 => ⟨S8192x1, .f32⟩
  | 68 => ⟨S8192x32, .f32⟩
  | 69 => ⟨S8192x32, .f32⟩
  | 70 => ⟨S1x32, .f32⟩
  | 71 => ⟨S8192x32, .f32⟩
  | 72 => ⟨S8192x32, .f32⟩
  | 73 => ⟨S_, .f32⟩
  | 74 => ⟨S8192, .f32⟩
  | 75 => ⟨S_, .f32⟩
  | 76 => ⟨S8192, .f32⟩
  | 77 => ⟨S8192, .f32⟩
  | 78 => ⟨S8192x1, .f32⟩
  | 79 => ⟨S8192x32, .f32⟩
  | 80 => ⟨S8192x32, .f32⟩
  | 81 => ⟨S8192x32, .f32⟩
  | 82 => ⟨S_, .f32⟩
  | 83 => ⟨S8192, .f32⟩
  | 84 => ⟨S8192x1, .f32⟩
  | 85 => ⟨S8192x32, .f32⟩
  | 86 => ⟨S8192x32, .f32⟩
  | 87 => ⟨S_, .f32⟩
  | 88 => ⟨S8192x32, .f32⟩
  | 89 => ⟨S8192x32, .i1⟩
  | 90 => ⟨S_, .i1⟩
  | 91 => ⟨S8192, .i1⟩
  | 92 => ⟨S_, .i1⟩
  | 93 => ⟨S32, .i1⟩
  | 94 => ⟨S32x128, .i1⟩
  | 95 => ⟨S4096, .i1⟩
  | 96 => ⟨S32, .i32⟩
  | 97 => ⟨S32x1, .i32⟩
  | 98 => ⟨S_, .i32⟩
  | 99 => ⟨S32x1, .i32⟩
  | 100 => ⟨S32x1, .i1⟩
  | 101 => ⟨S_, .i32⟩
  | 102 => ⟨S32x1, .i32⟩
  | 103 => ⟨S32x1, .i32⟩
  | 104 => ⟨S32x1, .i32⟩
  | 105 => ⟨S_, .i32⟩
  | 106 => ⟨S32x4096, .i32⟩
  | 107 => ⟨S32x4096, .i1⟩
  | 108 => ⟨S_, .i32⟩
  | 109 => ⟨S32x4096, .i32⟩
  | 110 => ⟨S32x4096, .i32⟩
  | 111 => ⟨S32x4096, .i32⟩
  | 112 => ⟨S32x4096, .i32⟩
  | 113 => ⟨S32x4096x1, .i32⟩
  | 114 => ⟨S32x4096x1, .i32⟩
  | 115 => ⟨S32x4096x2, .i32⟩
  | 116 => ⟨S32x4096x128, .f32⟩
  | 117 => ⟨S4096x32x128, .f32⟩
  | 118 => ⟨S4096x4096, .f32⟩
  | 119 => ⟨S4096x4096, .f32⟩
  | 120 => ⟨S8192x4096, .f32⟩
  | 121 => ⟨S1x4096, .f32⟩
  | 122 => ⟨S8192x4096, .f32⟩
  | 123 => ⟨S8192x4096, .f32⟩
  | 124 => ⟨S8192x1, .i1⟩
  | 125 => ⟨S1x4096, .i1⟩
  | 126 => ⟨S8192x4096, .i1⟩
  | 127 => ⟨S8192x4096, .i1⟩
  | _ => ⟨S4x2048x4096, .f32⟩

abbrev hbmTy0_1 (i : Nat) : BufTy := match i % 128 with
  | 0 => ⟨S8192x4096, .i1⟩
  | 1 => ⟨S8192x4096, .f32⟩
  | 2 => ⟨S8192x4096, .f32⟩
  | 3 => ⟨S4x2048x4096, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_cst_2 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_cst_3 : Ref sig .tc := ⟨.hbm, 56, rfl⟩
abbrev main_call0_v13 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_5 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_6 : Ref sig .tc := ⟨.hbm, 73, rfl⟩
abbrev main_v37 : Ref sig .tc := ⟨.hbm, 74, rfl⟩
abbrev main_cst_7 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_8 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_9 : Ref sig .tc := ⟨.hbm, 87, rfl⟩
abbrev main_v48 : Ref sig .tc := ⟨.hbm, 88, rfl⟩
abbrev main_v49 : Ref sig .tc := ⟨.hbm, 89, rfl⟩
abbrev main_c_10 : Ref sig .tc := ⟨.hbm, 90, rfl⟩
abbrev main_v50 : Ref sig .tc := ⟨.hbm, 91, rfl⟩
abbrev main_c_11 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_c_12 : Ref sig .tc := ⟨.hbm, 98, rfl⟩
abbrev main_v56 : Ref sig .tc := ⟨.hbm, 99, rfl⟩
abbrev main_v57 : Ref sig .tc := ⟨.hbm, 100, rfl⟩
abbrev main_c_13 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_c_14 : Ref sig .tc := ⟨.hbm, 105, rfl⟩
abbrev main_v61 : Ref sig .tc := ⟨.hbm, 106, rfl⟩
abbrev main_v62 : Ref sig .tc := ⟨.hbm, 107, rfl⟩
abbrev main_c_15 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S32_S32x1_0 : S32.BroadcastsInDim S32x1 (![0] : Fin 1 → Fin S32x1.rank)
  bcast_S_S32x1 : S_.BroadcastsInDim S32x1 (![] : Fin 0 → Fin S32x1.rank)
  bcast_S_S32x32 : S_.BroadcastsInDim S32x32 (![] : Fin 0 → Fin S32x32.rank)
  bcast_S32x1_S32x32_0_1 : S32x1.BroadcastsInDim S32x32 (![0, 1] : Fin 2 → Fin S32x32.rank)
  bcast_S32x32_S32x32x1_0_1 : S32x32.BroadcastsInDim S32x32x1 (![0, 1] : Fin 2 → Fin S32x32x1.rank)
  concatenates_S32x32x1_S32x32x1_S32x32x2_d2 : Shape.Concatenates [S32x32x1, S32x32x1] S32x32x2 2
  transposes_S32x32x128_S32x32x128_1_0_2 : S32x32x128.Transposes [1, 0, 2] S32x32x128
  shapeCasts_S32x32x128_S32x4096 : S32x32x128.ShapeCasts S32x4096
  transposes_S32x4096_S4096x32_1_0 : S32x4096.Transposes [1, 0] S4096x32
  reducesTo_S8192x32_S8192_d1 : S8192x32.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x32_0_1 : S8192x1.BroadcastsInDim S8192x32 (![0, 1] : Fin 2 → Fin S8192x32.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192 : S_.BroadcastsInDim S8192 (![] : Fin 0 → Fin S8192.rank)
  bcast_S_S8192x32 : S_.BroadcastsInDim S8192x32 (![] : Fin 0 → Fin S8192x32.rank)
  reducesTo_S8192x32_S32_d0 : S8192x32.ReducesTo [0] S32
  bcast_S32_S32x128_0 : S32.BroadcastsInDim S32x128 (![0] : Fin 1 → Fin S32x128.rank)
  shapeCasts_S32x128_S4096 : S32x128.ShapeCasts S4096
  bcast_S_S32x4096 : S_.BroadcastsInDim S32x4096 (![] : Fin 0 → Fin S32x4096.rank)
  bcast_S32x1_S32x4096_0_1 : S32x1.BroadcastsInDim S32x4096 (![0, 1] : Fin 2 → Fin S32x4096.rank)
  bcast_S32x4096_S32x4096x1_0_1 : S32x4096.BroadcastsInDim S32x4096x1 (![0, 1] : Fin 2 → Fin S32x4096x1.rank)
  concatenates_S32x4096x1_S32x4096x1_S32x4096x2_d2 : Shape.Concatenates [S32x4096x1, S32x4096x1] S32x4096x2 2
  transposes_S32x4096x128_S4096x32x128_1_0_2 : S32x4096x128.Transposes [1, 0, 2] S4096x32x128
  shapeCasts_S4096x32x128_S4096x4096 : S4096x32x128.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S8192x1_S8192x4096_0_1 : S8192x1.BroadcastsInDim S8192x4096 (![0, 1] : Fin 2 → Fin S8192x4096.rank)
  shapeCasts_S8192x4096_S4x2048x4096 : S8192x4096.ShapeCasts S4x2048x4096
  gather_S32x256x128_S32x32x2_S32x32x128_2_01_n_n_01_2_11128_wf : GatherDims.WF S32x256x128 S32x32x2 S32x32x128 [2] [0, 1] [] [0, 1] [] 2 ![1, 1, 128]
  dot_S8192x4096_S4096x32_S8192x32_1_0_0_1_n_n_wf : DotDims.WF S8192x4096 S4096x32 S8192x32 [1] [0] [0] [1] [] []
  gather_S32x256x128_S32x4096x2_S32x4096x128_2_01_n_n_01_2_11128_wf : GatherDims.WF S32x256x128 S32x4096x2 S32x4096x128 [2] [0, 1] [] [0, 1] [] 2 ![1, 1, 128]
  dot_S8192x4096_S4096x4096_S8192x4096_1_0_0_1_n_n_wf : DotDims.WF S8192x4096 S4096x4096 S8192x4096 [1] [0] [0] [1] [] []

variable [Facts₀]

def gather_S32x256x128_S32x32x2_S32x32x128_2_01_n_n_01_2_11128 : GatherDims S32x256x128 S32x32x2 S32x32x128 where
  offsetDims := [2]
  collapsedSliceDims := [0, 1]
  operandBatchingDims := []
  startIndicesBatchingDims := []
  startIndexMap := [0, 1]
  indexVectorDim := 2
  sliceSizes := ![1, 1, 128]
  wf := gather_S32x256x128_S32x32x2_S32x32x128_2_01_n_n_01_2_11128_wf
def dot_S8192x4096_S4096x32_S8192x32_1_0_0_1_n_n : DotDims S8192x4096 S4096x32 S8192x32 where
  lhsContracting := [1]
  rhsContracting := [0]
  lhsNonContracting := [0]
  rhsNonContracting := [1]
  lhsBatch := []
  rhsBatch := []
  wf := dot_S8192x4096_S4096x32_S8192x32_1_0_0_1_n_n_wf
def gather_S32x256x128_S32x4096x2_S32x4096x128_2_01_n_n_01_2_11128 : GatherDims S32x256x128 S32x4096x2 S32x4096x128 where
  offsetDims := [2]
  collapsedSliceDims := [0, 1]
  operandBatchingDims := []
  startIndicesBatchingDims := []
  startIndexMap := [0, 1]
  indexVectorDim := 2
  sliceSizes := ![1, 1, 128]
  wf := gather_S32x256x128_S32x4096x2_S32x4096x128_2_01_n_n_01_2_11128_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.K.Region0.lean ====
/-
  Region 0 of the program: the routing kernel, one call per block of 256 rows, 32 points. At a point the body
  computes, from the row block of x, the centroid matrix and the layer-norm weight row, the comparison mask
  "softmax of the normalised centroid scores exceeds one half" (a 256 x 32 array of bits), stores the per-row
  maximum of the mask as the point's block of the query mask, and folds the per-column maximum into a 1 x 32
  accumulator kept in a scratch buffer across points: at the first point the accumulator is reset to zero
  before the fold, at every point the accumulator is copied into the (single, revisited) block of the column
  mask. So the region invariant carries, after point n, the scratch at the fold of the first n + 1 blocks.
-/
import proofs.«116196_j17523466567937_1_alg».proof.Proof.Gen.Kernel.Launch
import proofs.«116196_j17523466567937_1_alg».proof.Proof.Gen.Kernel.Skeleton
import proofs.«116196_j17523466567937_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator as a whole memref. -/
abbrev scM0 : Memref sig .tc .vmem S1x32 .f32 := Memref.whole cc0_scratch0

/-- The comparison mask of a row block. -/
def msk0 (x0 : Vec F S256x4096 .f32) (x1 : Vec F S4096x32 .f32) (x2 : Vec F S1x32 .f32) : IVec S256x32 1 :=
  k0_pay5 x0 x1 x2

/-- The block of the query mask a point stores: the row maxima of the comparison mask as floats. -/
def qout0 (x0 : Vec F S256x4096 .f32) (x1 : Vec F S4096x32 .f32) (x2 : Vec F S1x32 .f32) : Vec F S256x1 .f32 :=
  k0_pay2 (msk0 x0 x1 x2)

/-- The accumulator after point `n`: the column maxima of the point's mask folded into what the point before
    left, starting from the zero row the first point stores. -/
def accAt0 (c : Dev nD) : (n : ℕ) → n < cfg0.N → Vec F S1x32 .f32
  | 0, h => k0_pay3 (msk0 (iblk0 V c 0 ⟨0, h⟩) (iblk0 V c 1 ⟨0, h⟩) (iblk0 V c 2 ⟨0, h⟩)) (k0_pay4 (F := F))
  | n + 1, h => k0_pay3 (msk0 (iblk0 V c 0 ⟨n + 1, h⟩) (iblk0 V c 1 ⟨n + 1, h⟩) (iblk0 V c 2 ⟨n + 1, h⟩)) (accAt0 c n (Nat.lt_of_succ_lt h))

theorem accAt0_zero (c : Dev nD) (h : 0 < cfg0.N) :
    accAt0 V c 0 h = k0_pay3 (msk0 (iblk0 V c 0 ⟨0, h⟩) (iblk0 V c 1 ⟨0, h⟩) (iblk0 V c 2 ⟨0, h⟩)) (k0_pay4 (F := F)) := rfl

theorem accAt0_succ (c : Dev nD) (n : ℕ) (h : n + 1 < cfg0.N) :
    accAt0 V c (n + 1) h = k0_pay3 (msk0 (iblk0 V c 0 ⟨n + 1, h⟩) (iblk0 V c 1 ⟨n + 1, h⟩) (iblk0 V c 2 ⟨n + 1, h⟩)) (accAt0 V c n (Nat.lt_of_succ_lt h)) := rfl

/-- The core's scoped buffers that are neither a staging buffer of this call nor its scratch, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region invariant before position `n`: before the first point the plain one (every scoped buffer at
    anything); afterwards the scratch at the accumulator the point before left, the other scoped buffers at
    anything, the generator register at some state. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ rest0 (F := F) c ∗ (∃ r, prngReg c r))

/-- The proof data of region 0 on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => qout0 (iblk0 V c 0 t) (iblk0 V c 1 t) (iblk0 V c 2 t)
    | ⟨4, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = qout0 (iblk0 V c 0 t) (iblk0 V c 1 t) (iblk0 V c 2 t) := by dsimp only [dat0]
theorem after0_4 (c : Dev nD) (t : Fin cfg0.N) : (dat0 V c).after 4 t = accAt0 V c t.val t.isLt := by dsimp only [dat0]

/-! ## The body's one conditional -/

/-- The offsets of a whole-buffer rectangle of rank two are zero. -/
theorem hz2 : (![0, 0] : Fin 2 → Nat) = fun _ => 0 := funext fun a => by fin_cases a <;> rfl

/-- The condition of the body's conditional, from the grid coordinate. -/
abbrev cond0 (i : grid0.Coords) : Prop := (Scalar.cmpi .ne (Scalar.extui (Scalar.cmpi .eq (BitVec.ofNat 32 (i 0).val) 0#32)) 0#32) = 1#1

/-- It holds at the first point and nowhere else. -/
theorem hcond0 : ∀ t : Fin cfg0.N, cond0 (grid0.coords t) ↔ t.val = 0 :=
  (by decide +kernel : ∀ t : Fin grid0.N, cond0 (grid0.coords t) ↔ t.val = 0)

/-! ## The body on any whole buffers

Both runs are stated over variables for the three input blocks and for what the output buffers and the scratch
hold on entry, on any six whole memrefs. Every load and store of the body goes through the whole-buffer rectangle
at zero offsets, so a load reads the buffer's contents and the last store into a buffer leaves its payload. -/

set_option maxHeartbeats 1000000 in
/-- The body at the first point: the conditional is taken, so the scratch is reset to the zero row and then folded
    with the column maxima of the mask; the scratch's contents on entry are never used. The query-mask buffer ends
    at the row maxima, the column-mask buffer and the scratch at the fold over the zero row. -/
theorem run_first (c : Dev nD) (i : grid0.Coords)
    (arg1 : Memref sig .tc .vmem S256x4096 .f32) (harg1 : arg1.IsWhole) (arg2 : Memref sig .tc .vmem S4096x32 .f32) (harg2 : arg2.IsWhole)
    (arg3 : Memref sig .tc .vmem S1x32 .f32) (harg3 : arg3.IsWhole) (arg4 : Memref sig .tc .vmem S256x1 .f32) (harg4 : arg4.IsWhole)
    (arg5 : Memref sig .tc .vmem S1x32 .f32) (harg5 : arg5.IsWhole) (arg6 : Memref sig .tc .vmem S1x32 .f32) (harg6 : arg6.IsWhole)
    (hc : cond0 i)
    (x0 : Vec F S256x4096 .f32) (x1 : Vec F S4096x32 .f32) (x2 : Vec F S1x32 .f32)
    (y3 : Vec F S256x1 .f32) (y4 : Vec F S1x32 .f32) (xs : Vec F S1x32 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y3 ∗ owns (c : Thread nD τ) arg5 fullShare y4 ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (qout0 x0 x1 x2) ∗ owns (c : Thread nD τ) arg5 fullShare (k0_pay3 (msk0 x0 x1 x2) (k0_pay4 (F := F)))
            ∗ owns (c : Thread nD τ) arg6 fullShare (k0_pay3 (msk0 x0 x1 x2) (k0_pay4 (F := F)))) -∗ K ⟨⟩))
      ⊢ wp frame (wpE (defs₀ (F := F)) Variants.none c none) E (cc0__routing_kernel i arg1 harg1 arg2 harg2 arg3 harg3 arg4 harg4 arg5 harg5 arg6 harg6) K := by
  unfold qout0 msk0
  simp only [cc0__routing_kernel_eq_skeleton]; unfold cc0__routing_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S256x1_S256x1_0_0 y⟩), View.canon_unit_zero hz2]
    simp only [View.readAt_eq_ld, harg1.read_unread, harg2.read_unread, harg3.read_unread, View.ld_unit_zero (S := S256x4096) hz2, View.ld_unit_zero (S := S4096x32) hz2, View.ld_unit_zero (S := S1x32) hz2]
  isplitl [H5]
  · iexists _; isplitr
    swap; · iexact H5
    ipureintro
    sl_unfold_run_names
    rw [View.read_writes_eq_canon _ _ _ (fun y => ⟨_, List.mem_singleton_self _, View.mem_set_unit_zero hz2 inb_S1x32_S1x32_0_0 y⟩), View.canon_unit_zero hz2]
    simp only [View.readCov_cons_toLoadRect, View.readCov_unit_zero (S := S1x32) _ hz2, View.readAt_eq_ld, harg1.read_unread, harg2.read_unread, harg3.read_unread, harg6.read_unread, View.ld_unit_zero (S := S256x4096) hz2, View.ld_unit_zero (S := S4096x32) hz2, View.ld_unit_zero (S := S1x32) hz2]
  iexists _; isplitr
  swap; · iexact H6
  ipureintro
  sl_unfold_run_names
  rw [View.read_writes_eq_canon _ _ _ (fun y => ⟨_, List.Mem.head _, View.mem_set_unit_zero hz2 inb_S1x32_S1x32_0_0 y⟩), View.canon_cons_unit_zero hz2]
  simp only [View.readCov_unit_zero (S := S1x32) _ hz2, View.readAt_eq_ld, harg1.read_unread, harg2.read_unread, harg3.read_unread, harg6.read_unread, View.ld_unit_zero (S := S256x4096) hz2, View.ld_unit_zero (S := S4096x32) hz2, View.ld_unit_zero (S := S1x32) hz2]

set_option maxHeartbeats 1000000 in
/-- The body at a later point: the conditional is skipped, so the column maxima of the mask are folded into what
    the scratch holds on entry. The query-mask buffer ends at the row maxima, the column-mask buffer and the scratch
    at the fold over the entry contents. -/
theorem run_later (c : Dev nD) (i : grid0.Coords)
    (arg1 : Memref sig .tc .vmem S256x4096 .f32) (harg1 : arg1.IsWhole) (arg2 : Memref sig .tc .vmem S4096x32 .f32) (harg2 : arg2.IsWhole)
    (arg3 : Memref sig .tc .vmem S1x32 .f32) (harg3 : arg3.IsWhole) (arg4 : Memref sig .tc .vmem S256x1 .f32) (harg4 : arg4.IsWhole)
    (arg5 : Memref sig .tc .vmem S1x32 .f32) (harg5 : arg5.IsWhole) (arg6 : Memref sig .tc .vmem S1x32 .f32) (harg6 : arg6.IsWhole)
    (hc : ¬cond0 i)
    (x0 : Vec F S256x4096 .f32) (x1 : Vec F S4096x32 .f32) (x2 : Vec F S1x32 .f32)
    (y3 : Vec F S256x1 .f32) (y4 : Vec F S1x32 .f32) (xs : Vec F S1x32 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y3 ∗ owns (c : Thread nD τ) arg5 fullShare y4 ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (qout0 x0 x1 x2) ∗ owns (c : Thread nD τ) arg5 fullShare (k0_pay3 (msk0 x0 x1 x2) xs)
            ∗ owns (c : Thread nD τ) arg6 fullShare (k0_pay3 (msk0 x0 x1 x2) xs)) -∗ K ⟨⟩))
      ⊢ wp frame (wpE (defs₀ (F := F)) Variants.none c none) E (cc0__routing_kernel i arg1 harg1 arg2 harg2 arg3 harg3 arg4 harg4 arg5 harg5 arg6 harg6) K := by
  unfold qout0 msk0
  simp only [cc0__routing_kernel_eq_skeleton]; unfold cc0__routing_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S256x1_S256x1_0_0 y⟩), View.canon_unit_zero hz2]
    simp only [View.readAt_eq_ld, harg1.read_unread, harg2.read_unread, harg3.read_unread, View.ld_unit_zero (S := S256x4096) hz2, View.ld_unit_zero (S := S4096x32) hz2, View.ld_unit_zero (S := S1x32) hz2]
  isplitl [H5]
  · iexists _; isplitr
    swap; · iexact H5
    ipureintro
    sl_unfold_run_names
    rw [View.read_writes_eq_canon _ _ _ (fun y => ⟨_, List.mem_singleton_self _, View.mem_set_unit_zero hz2 inb_S1x32_S1x32_0_0 y⟩), View.canon_unit_zero hz2]
    simp only [View.readCov_cons_toLoadRect, View.readCov_unit_zero (S := S1x32) _ hz2, View.readAt_eq_ld, harg1.read_unread, harg2.read_unread, harg3.read_unread, harg6.read_unread, View.ld_unit_zero (S := S256x4096) hz2, View.ld_unit_zero (S := S4096x32) hz2, View.ld_unit_zero (S := S1x32) hz2]
  iexists _; isplitr
  swap; · iexact H6
  ipureintro
  sl_unfold_run_names
  rw [View.read_writes_eq_canon _ _ _ (fun y => ⟨_, List.mem_singleton_self _, View.mem_set_unit_zero hz2 inb_S1x32_S1x32_0_0 y⟩), View.canon_unit_zero hz2]
  simp only [View.readAt_eq_ld, harg1.read_unread, harg2.read_unread, harg3.read_unread, harg6.read_unread, View.ld_unit_zero (S := S256x4096) hz2, View.ld_unit_zero (S := S4096x32) hz2, View.ld_unit_zero (S := S1x32) hz2]

/-! ## The accumulator and the invariant, point by point -/

/-- At the first point the accumulator is the fold of that point's mask over the zero row. -/
theorem accAt0_first (c : Dev nD) (t : Fin cfg0.N) (hz : t.val = 0) :
    accAt0 V c t.val t.isLt = k0_pay3 (msk0 (iblk0 V c 0 t) (iblk0 V c 1 t) (iblk0 V c 2 t)) (k0_pay4 (F := F)) := by
  obtain ⟨n, hn⟩ := t
  cases n with
  | zero => rfl
  | succ n => exact absurd hz (Nat.succ_ne_zero n)

/-- At a later point it is the fold of that point's mask over what the point before left. -/
theorem accAt0_later (c : Dev nD) (t : Fin cfg0.N) (hz : t.val ≠ 0) :
    accAt0 V c t.val t.isLt = k0_pay3 (msk0 (iblk0 V c 0 t) (iblk0 V c 1 t) (iblk0 V c 2 t)) (accAt0 V c (t.val - 1) (Nat.lt_of_le_of_lt (Nat.sub_le _ _) t.isLt)) := by
  obtain ⟨n, hn⟩ := t
  cases n with
  | zero => exact absurd rfl hz
  | succ n => rfl

/-- Before the first point the invariant is the plain one. -/
theorem PhiS0_zero (c : Dev nD) (n : ℕ) (h : n ≤ cfg0.N) (hz : n = 0) : PhiS0 V c n h = Pipeline.ΦA spec0 c := by
  subst hz; rfl

/-- After point `n` the scratch holds the accumulator of point `n`. -/
theorem PhiS0_succ (c : Dev nD) (n : ℕ) (hn : n < cfg0.N) :
    PhiS0 V c (n + 1) hn = iprop(owns (c : Thread nD τ) scM0 fullShare (accAt0 V c n hn) ∗ rest0 (F := F) c ∗ (∃ r, prngReg c r)) := rfl

/-- Before a point that is not the first the scratch holds the accumulator of the point before. -/
theorem PhiS0_pos (c : Dev nD) (n : ℕ) (h : n ≤ cfg0.N) (hz : n ≠ 0) :
    PhiS0 V c n h = iprop(owns (c : Thread nD τ) scM0 fullShare (accAt0 V c (n - 1) (by omega)) ∗ rest0 (F := F) c ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- The plain invariant, opened: the scratch at some contents, the other scoped buffers, the generator register. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-! ## What the body finds in the input windows -/

/-- Each input window's current buffer holds the window's block at the point, fetched there or not: the
    centroid matrix and the weight row are fetched once and their block index never moves. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation at a point -/

/-- Each window's current staging memref at point `t`, and its wholeness. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)

/-- What the body is handed at point `t`: the invariant, what the core owes, and every window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What it returns: the next invariant, the same debt, and every buffer at what the proof data names. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 4000000 in
/-- The body at any point. At the first point the plain invariant hands over the scratch at anything and the run
    that resets it applies; at a later point the invariant hands it over at the accumulator of the point before and
    the run that folds into it applies. The two output buffers are handed over at whatever they hold, since the
    body overwrites both whole. Either way the scratch and the column-mask buffer end at this point's accumulator
    and the query-mask buffer at this point's row maxima. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  by_cases hz : t.val = 0
  · rw [PhiS0_castSucc V c t, PhiS0_zero V c _ _ hz, PhiA0_eq, accAt0_first V c t hz]
    iintro ⟨⟨⟨⟨%xs, HS⟩, Hr⟩, Hg⟩, Ho, ⟨%d0, H0⟩, ⟨%d1, H1⟩, ⟨%d2, H2⟩, ⟨%d3, H3⟩, ⟨%d4, H4⟩⟩
    iapply (run_first (F := F) c (grid0.coords t) (ms0_0 t) (hs0_0 t) (ms0_1 t) (hs0_1 t) (ms0_2 t) (hs0_2 t) (ms0_3 t) (hs0_3 t) (ms0_4 t) (hs0_4 t) scM0 (Memref.isWhole_whole _)
      ((hcond0 t).mpr hz) (iblk0 V c 0 t) (iblk0 V c 1 t) (iblk0 V c 2 t) ((dat0 V c).before 3 t d3) ((dat0 V c).before 4 t d4) xs Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [PhiS0_castSucc V c t, PhiS0_pos V c _ _ hz, accAt0_later V c t hz]
    iintro ⟨⟨HS, Hr, Hg⟩, Ho, ⟨%d0, H0⟩, ⟨%d1, H1⟩, ⟨%d2, H2⟩, ⟨%d3, H3⟩, ⟨%d4, H4⟩⟩
    iapply (run_later (F := F) c (grid0.coords t) (ms0_0 t) (hs0_0 t) (ms0_1 t) (hs0_1 t) (ms0_2 t) (hs0_2 t) (ms0_3 t) (hs0_3 t) (ms0_4 t) (hs0_4 t) scM0 (Memref.isWhole_whole _)
      (fun h => hz ((hcond0 t).mp h)) (iblk0 V c 0 t) (iblk0 V c 1 t) (iblk0 V c 2 t) ((dat0 V c).before 3 t d3) ((dat0 V c).before 4 t d4)
      (accAt0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4

/-- The body obligation of region 0 at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the plain one back: the accumulator's contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ hN, PhiA0_eq]
  iintro ⟨HS, Hr, Hg⟩
  isplitl [HS Hr]
  · isplitl [HS]
    · iexists _; iexact HS
    iexact Hr
  iexact Hg

end Cert.Kernel.Hand

end
-- ==== Proof.K.Region1.lean ====
/-
  Region 1 of the program: the linear kernel, one call per block of 128 rows. At a grid point the body reads
  the row block of x, the whole transposed weight matrix, the bias row, the row block of the query mask and
  the column mask, and stores ONE whole block: (x_blk · W^T + bias) * qmask * kmask. Nothing is kept between
  points, so the region invariant is the plain one and the proof data name, per point, each input buffer at
  its block of the array the region was entered with and the output buffer at the body's single store.
-/
import proofs.«116196_j17523466567937_1_alg».proof.Proof.Gen.Kernel.Launch
import proofs.«116196_j17523466567937_1_alg».proof.Proof.Gen.Kernel.Skeleton
import proofs.«116196_j17523466567937_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rx1 : Rect S128x4096 := Rect.unit (s := S128x4096) ![0, 0] S128x4096.size inb_S128x4096_S128x4096_0_0
abbrev rw1 : Rect S4096x4096 := Rect.unit (s := S4096x4096) ![0, 0] S4096x4096.size inb_S4096x4096_S4096x4096_0_0
abbrev rb1 : Rect S1x4096 := Rect.unit (s := S1x4096) ![0, 0] S1x4096.size inb_S1x4096_S1x4096_0_0
abbrev rq1 : Rect S128x1 := Rect.unit (s := S128x1) ![0, 0] S128x1.size inb_S128x1_S128x1_0_0

/-- What the body leaves in the output buffer: its one store, the masked affine map of the five inputs. -/
def out1_5 (x0 : Vec F S128x4096 .f32) (x1 : Vec F S4096x4096 .bf16) (x2 : Vec F S1x4096 .f32) (x3 : Vec F S128x1 .f32) (x4 : Vec F S1x4096 .f32) : Vec F S128x4096 .f32 :=
  View.canon [⟨rx1, k1_pay1 (View.ld x0 rx1) (View.ld x1 rw1) (View.ld x2 rb1) (View.ld x3 rq1) (View.ld x4 rb1)⟩]

/-- The proof data of region 1 on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## What the body finds in the input buffers -/

/-- The row block of x sits in its current staging buffer at every point: the window is fetched at each
    point, and a fetch of an uncut window puts exactly the block there. -/
theorem before1_x (c : Dev nD) (t : Fin cfg1.N) (d) : (dat1 V c).before 0 t d = iblk1 V c 0 t :=
  ((dat1 V c).before_in_eq_fetched 0 rfl (fun _ => rfl) (fun _ _ _ => rfl)
      (fun s => by rw [after1_0]; unfold Dat.blockOf iblk1; rw [A_eq1]; try rfl) t d).trans
    (by unfold Dat.fetched Dat.blockOf iblk1; rw [A_eq1]; try rfl)

/-- The weight matrix has one block, fetched at the first point; the body never writes it, so at a later
    point the buffer still holds that block, which is this point's block because the index has not moved. -/
theorem before1_wt (c : Dev nD) (t : Fin cfg1.N) (d) : (dat1 V c).before 1 t d = iblk1 V c 1 t :=
  ((dat1 V c).before_in_eq_fetched 1 rfl (fun _ => rfl) (fun _ _ _ => rfl)
      (fun s => by rw [after1_1]; unfold Dat.blockOf iblk1; rw [A_eq1]; try rfl) t d).trans
    (by unfold Dat.fetched Dat.blockOf iblk1; rw [A_eq1]; try rfl)

/-- The bias row: one block, fetched once and left in place. -/
theorem before1_bias (c : Dev nD) (t : Fin cfg1.N) (d) : (dat1 V c).before 2 t d = iblk1 V c 2 t :=
  ((dat1 V c).before_in_eq_fetched 2 rfl (fun _ => rfl) (fun _ _ _ => rfl)
      (fun s => by rw [after1_2]; unfold Dat.blockOf iblk1; rw [A_eq1]; try rfl) t d).trans
    (by unfold Dat.fetched Dat.blockOf iblk1; rw [A_eq1]; try rfl)

/-- The row block of the query mask, fetched at each point. -/
theorem before1_qmask (c : Dev nD) (t : Fin cfg1.N) (d) : (dat1 V c).before 3 t d = iblk1 V c 3 t :=
  ((dat1 V c).before_in_eq_fetched 3 rfl (fun _ => rfl) (fun _ _ _ => rfl)
      (fun s => by rw [after1_3]; unfold Dat.blockOf iblk1; rw [A_eq1]; try rfl) t d).trans
    (by unfold Dat.fetched Dat.blockOf iblk1; rw [A_eq1]; try rfl)

/-- The column mask: one block, fetched once and left in place. -/
theorem before1_kmask (c : Dev nD) (t : Fin cfg1.N) (d) : (dat1 V c).before 4 t d = iblk1 V c 4 t :=
  ((dat1 V c).before_in_eq_fetched 4 rfl (fun _ => rfl) (fun _ _ _ => rfl)
      (fun s => by rw [after1_4]; unfold Dat.blockOf iblk1; rw [A_eq1]; try rfl) t d).trans
    (by unfold Dat.fetched Dat.blockOf iblk1; rw [A_eq1]; try rfl)

/-! ## The body's single store -/

/-- The store's rectangle is the whole 128 x 4096 buffer, so every index lies in it. -/
theorem store1_covers (p : Vec F S128x4096 .f32) (y : S128x4096.Idx) :
    ∃ pc ∈ ([⟨rx1, p⟩] : List (View.Piece (Elt F) S128x4096 .f32)), y ∈ pc.1.set :=
  View.cover_of_tiled [⟨rx1, p⟩] S128x4096.size (by rfl) y

/-! ## The kernel's triple -/

set_option maxHeartbeats 4000000 in
/-- The linear kernel on whole buffers. Given the five inputs at contents x0 .. x4 and the output buffer at anything,
    it runs to a state with the inputs as they were and the output buffer at `out1_5 x0 x1 x2 x3 x4`: the five
    loads return the whole contents, the sixth load (of the output buffer) is never used, and the one store
    overwrites every entry of the output buffer with the payload. -/
theorem linear_kernel_triple (c : Dev nD) (E : Set ℕ) (i : grid1.Coords)
    (a0 : Memref sig .tc .vmem S128x4096 .f32) (h0 : a0.IsWhole) (a1 : Memref sig .tc .vmem S4096x4096 .bf16) (h1 : a1.IsWhole)
    (a2 : Memref sig .tc .vmem S1x4096 .f32) (h2 : a2.IsWhole) (a3 : Memref sig .tc .vmem S128x1 .f32) (h3 : a3.IsWhole)
    (a4 : Memref sig .tc .vmem S1x4096 .f32) (h4 : a4.IsWhole) (a5 : Memref sig .tc .vmem S128x4096 .f32) (h5 : a5.IsWhole)
    (x0 : Vec F S128x4096 .f32) (x1 : Vec F S4096x4096 .bf16) (x2 : Vec F S1x4096 .f32) (x3 : Vec F S128x1 .f32)
    (x4 : Vec F S1x4096 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out1_5 x0 x1 x2 x3 x4)) -∗ K ⟨⟩))
      ⊢ wp frame (wpE (defs₀ (F := F)) Variants.none c none) E (cc1__linear_kernel i a0 h0 a1 h1 a2 h2 a3 h3 a4 h4 a5 h5) K := by
  simp only [cc1__linear_kernel_eq_skeleton]; unfold cc1__linear_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store1_covers _)

/-! ## The obligation at a point -/

/-- What the pipeline hands the body at point `t`: the region invariant, what the core owes, and each window's
    current staging buffer at what it then holds. -/
def pointPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body hands back: the same invariant and debt at the next point, and each buffer at what the body
    leaves in it. -/
def pointPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point. Each input buffer holds its block, so the kernel's triple applies at the five blocks;
    the invariant and the debt do not depend on the point and are not touched by the body. -/
theorem linear_body_at (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [before1_x, before1_wt, before1_bias, before1_qmask, before1_kmask]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (linear_kernel_triple c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 1 at every point. -/
theorem body_obligation1 (c : Dev nD) : BodyObligation (dat1 (F := F) V c) (defs₀ (F := F)) Variants.none () Set.univ := fun t => by
  rw [bigSep_W1, bigSep_W1]
  exact linear_body_at V c t

end Cert.Kernel.Hand

end
-- ==== Proof.K.Run.lean ====
/-
  The whole run of the program: @main is five segments — the host operations that build the operands, the
  routing kernel's region, two host operations that widen the column mask, the linear kernel's region, and the
  final reshape. The contents of the core's unscoped buffers at each boundary are a fold from the launch memory:
  a host stretch applies its operations, a region replaces its windows' arrays by what its write-backs leave.
  Every weakly fair execution terminates with every unscoped buffer at the last boundary's contents; the
  arguments are written by nothing, so they end as launched.
-/
import proofs.«116196_j17523466567937_1_alg».proof.Proof.K.Region0
import proofs.«116196_j17523466567937_1_alg».proof.Proof.K.Region1
import proofs.«116196_j17523466567937_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline's write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline's write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents the program ends with. -/
abbrev W5 : Dev nD → Valuation τ sig (Elt F) := fun c => StableHlo.after hostOps2 (W4 m ρ c)

/-! ## No segment writes an argument -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-- The plain region invariant of region 0 from the generator register, anything, and the scoped rest; and back. -/
theorem phiA_of_parts0 (c : Dev nD) (P : sProp 𝕄) :
    (iprop((∃ r, prngReg c r) ∗ P ∗ Pipeline.scopedRest spec0 c) : sProp 𝕄) ⊢ Pipeline.ΦA spec0 c := by
  unfold Pipeline.ΦA
  iintro ⟨Hp, -, Hr⟩
  isplitl [Hr]; · iexact Hr
  iexact Hp
theorem parts_of_phiA0 (c : Dev nD) :
    Pipeline.ΦA spec0 c ⊢ (iprop((∃ r, prngReg c r) ∗ BI.emp ∗ Pipeline.scopedRest spec0 c) : sProp 𝕄) := by
  unfold Pipeline.ΦA
  iintro ⟨Hr, Hp⟩
  isplitl [Hp]; · iexact Hp
  isplitr; · iempintro
  iexact Hr
/-- The last host stretch's exit is the last thread state beside nothing owed. -/
theorem last_chain (c : Dev nD) :
    (iprop(StableHlo.held (c : Thread nD τ) (Pipeline.ucRefs τ sig) (W5 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at `W1`, left at `W2`. Its arrays
    are split out of the unscoped buffers at entry and put back at their final contents at exit; the generator
    register goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (phiA_of_parts0 c _).trans (hin0 (V1 m ρ) c)
  hout c := by
    rw [Pipeline.ownSems0_none]
    exact (hout0 (V1 m ρ) c).trans (parts_of_phiA0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays
    are split out of the unscoped buffers at entry and put back at their final contents at exit; the generator
    register goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.Kernel.Hand

end
-- ==== Proof.KI.Region0.lean ====
/-
  Region 0 of the program: the routing kernel, one call per block of 256 rows, 32 points. At a point the body
  computes, from the row block of x, the centroid matrix and the layer-norm weight row, the comparison mask
  "softmax of the normalised centroid scores exceeds one half" (a 256 x 32 array of bits), stores the per-row
  maximum of the mask as the point's block of the query mask, and folds the per-column maximum into a 1 x 32
  accumulator kept in a scratch buffer across points: at the first point the accumulator is reset to zero
  before the fold, at every point the accumulator is copied into the (single, revisited) block of the column
  mask. So the region invariant carries, after point n, the scratch at the fold of the first n + 1 blocks.
-/
import proofs.«116196_j17523466567937_1_alg».proof.Proof.Gen.KernelIdeal.Launch
import proofs.«116196_j17523466567937_1_alg».proof.Proof.Gen.KernelIdeal.Skeleton
import proofs.«116196_j17523466567937_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator as a whole memref. -/
abbrev scM0 : Memref sig .tc .vmem S1x32 .f32 := Memref.whole cc0_scratch0

/-- The comparison mask of a row block. -/
def msk0 (x0 : Vec F S256x4096 .f32) (x1 : Vec F S4096x32 .f32) (x2 : Vec F S1x32 .f32) : IVec S256x32 1 :=
  k0_pay5 x0 x1 x2

/-- The block of the query mask a point stores: the row maxima of the comparison mask as floats. -/
def qout0 (x0 : Vec F S256x4096 .f32) (x1 : Vec F S4096x32 .f32) (x2 : Vec F S1x32 .f32) : Vec F S256x1 .f32 :=
  k0_pay2 (msk0 x0 x1 x2)

/-- The accumulator after point `n`: the column maxima of the point's mask folded into what the point before
    left, starting from the zero row the first point stores. -/
def accAt0 (c : Dev nD) : (n : ℕ) → n < cfg0.N → Vec F S1x32 .f32
  | 0, h => k0_pay3 (msk0 (iblk0 V c 0 ⟨0, h⟩) (iblk0 V c 1 ⟨0, h⟩) (iblk0 V c 2 ⟨0, h⟩)) (k0_pay4 (F := F))
  | n + 1, h => k0_pay3 (msk0 (iblk0 V c 0 ⟨n + 1, h⟩) (iblk0 V c 1 ⟨n + 1, h⟩) (iblk0 V c 2 ⟨n + 1, h⟩)) (accAt0 c n (Nat.lt_of_succ_lt h))

theorem accAt0_zero (c : Dev nD) (h : 0 < cfg0.N) :
    accAt0 V c 0 h = k0_pay3 (msk0 (iblk0 V c 0 ⟨0, h⟩) (iblk0 V c 1 ⟨0, h⟩) (iblk0 V c 2 ⟨0, h⟩)) (k0_pay4 (F := F)) := rfl

theorem accAt0_succ (c : Dev nD) (n : ℕ) (h : n + 1 < cfg0.N) :
    accAt0 V c (n + 1) h = k0_pay3 (msk0 (iblk0 V c 0 ⟨n + 1, h⟩) (iblk0 V c 1 ⟨n + 1, h⟩) (iblk0 V c 2 ⟨n + 1, h⟩)) (accAt0 V c n (Nat.lt_of_succ_lt h)) := rfl

/-- The core's scoped buffers that are neither a staging buffer of this call nor its scratch, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region invariant before position `n`: before the first point the plain one (every scoped buffer at
    anything); afterwards the scratch at the accumulator the point before left, the other scoped buffers at
    anything, the generator register at some state. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ rest0 (F := F) c ∗ (∃ r, prngReg c r))

/-- The proof data of region 0 on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => qout0 (iblk0 V c 0 t) (iblk0 V c 1 t) (iblk0 V c 2 t)
    | ⟨4, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = qout0 (iblk0 V c 0 t) (iblk0 V c 1 t) (iblk0 V c 2 t) := by dsimp only [dat0]
theorem after0_4 (c : Dev nD) (t : Fin cfg0.N) : (dat0 V c).after 4 t = accAt0 V c t.val t.isLt := by dsimp only [dat0]

/-! ## The body's one conditional -/

/-- The offsets of a whole-buffer rectangle of rank two are zero. -/
theorem hz2 : (![0, 0] : Fin 2 → Nat) = fun _ => 0 := funext fun a => by fin_cases a <;> rfl

/-- The condition of the body's conditional, from the grid coordinate. -/
abbrev cond0 (i : grid0.Coords) : Prop := (Scalar.cmpi .ne (Scalar.extui (Scalar.cmpi .eq (BitVec.ofNat 32 (i 0).val) 0#32)) 0#32) = 1#1

/-- It holds at the first point and nowhere else. -/
theorem hcond0 : ∀ t : Fin cfg0.N, cond0 (grid0.coords t) ↔ t.val = 0 :=
  (by decide +kernel : ∀ t : Fin grid0.N, cond0 (grid0.coords t) ↔ t.val = 0)

/-! ## The body on any whole buffers

Both runs are stated over variables for the three input blocks and for what the output buffers and the scratch
hold on entry, on any six whole memrefs. Every load and store of the body goes through the whole-buffer rectangle
at zero offsets, so a load reads the buffer's contents and the last store into a buffer leaves its payload. -/

set_option maxHeartbeats 1000000 in
/-- The body at the first point: the conditional is taken, so the scratch is reset to the zero row and then folded
    with the column maxima of the mask; the scratch's contents on entry are never used. The query-mask buffer ends
    at the row maxima, the column-mask buffer and the scratch at the fold over the zero row. -/
theorem run_first (c : Dev nD) (i : grid0.Coords)
    (arg1 : Memref sig .tc .vmem S256x4096 .f32) (harg1 : arg1.IsWhole) (arg2 : Memref sig .tc .vmem S4096x32 .f32) (harg2 : arg2.IsWhole)
    (arg3 : Memref sig .tc .vmem S1x32 .f32) (harg3 : arg3.IsWhole) (arg4 : Memref sig .tc .vmem S256x1 .f32) (harg4 : arg4.IsWhole)
    (arg5 : Memref sig .tc .vmem S1x32 .f32) (harg5 : arg5.IsWhole) (arg6 : Memref sig .tc .vmem S1x32 .f32) (harg6 : arg6.IsWhole)
    (hc : cond0 i)
    (x0 : Vec F S256x4096 .f32) (x1 : Vec F S4096x32 .f32) (x2 : Vec F S1x32 .f32)
    (y3 : Vec F S256x1 .f32) (y4 : Vec F S1x32 .f32) (xs : Vec F S1x32 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y3 ∗ owns (c : Thread nD τ) arg5 fullShare y4 ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (qout0 x0 x1 x2) ∗ owns (c : Thread nD τ) arg5 fullShare (k0_pay3 (msk0 x0 x1 x2) (k0_pay4 (F := F)))
            ∗ owns (c : Thread nD τ) arg6 fullShare (k0_pay3 (msk0 x0 x1 x2) (k0_pay4 (F := F)))) -∗ K ⟨⟩))
      ⊢ wp frame (wpE (defs₀ (F := F)) Variants.none c none) E (cc0__routing_kernel i arg1 harg1 arg2 harg2 arg3 harg3 arg4 harg4 arg5 harg5 arg6 harg6) K := by
  unfold qout0 msk0
  simp only [cc0__routing_kernel_eq_skeleton]; unfold cc0__routing_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S256x1_S256x1_0_0 y⟩), View.canon_unit_zero hz2]
    simp only [View.readAt_eq_ld, harg1.read_unread, harg2.read_unread, harg3.read_unread, View.ld_unit_zero (S := S256x4096) hz2, View.ld_unit_zero (S := S4096x32) hz2, View.ld_unit_zero (S := S1x32) hz2]
  isplitl [H5]
  · iexists _; isplitr
    swap; · iexact H5
    ipureintro
    sl_unfold_run_names
    rw [View.read_writes_eq_canon _ _ _ (fun y => ⟨_, List.mem_singleton_self _, View.mem_set_unit_zero hz2 inb_S1x32_S1x32_0_0 y⟩), View.canon_unit_zero hz2]
    simp only [View.readCov_cons_toLoadRect, View.readCov_unit_zero (S := S1x32) _ hz2, View.readAt_eq_ld, harg1.read_unread, harg2.read_unread, harg3.read_unread, harg6.read_unread, View.ld_unit_zero (S := S256x4096) hz2, View.ld_unit_zero (S := S4096x32) hz2, View.ld_unit_zero (S := S1x32) hz2]
  iexists _; isplitr
  swap; · iexact H6
  ipureintro
  sl_unfold_run_names
  rw [View.read_writes_eq_canon _ _ _ (fun y => ⟨_, List.Mem.head _, View.mem_set_unit_zero hz2 inb_S1x32_S1x32_0_0 y⟩), View.canon_cons_unit_zero hz2]
  simp only [View.readCov_unit_zero (S := S1x32) _ hz2, View.readAt_eq_ld, harg1.read_unread, harg2.read_unread, harg3.read_unread, harg6.read_unread, View.ld_unit_zero (S := S256x4096) hz2, View.ld_unit_zero (S := S4096x32) hz2, View.ld_unit_zero (S := S1x32) hz2]

set_option maxHeartbeats 1000000 in
/-- The body at a later point: the conditional is skipped, so the column maxima of the mask are folded into what
    the scratch holds on entry. The query-mask buffer ends at the row maxima, the column-mask buffer and the scratch
    at the fold over the entry contents. -/
theorem run_later (c : Dev nD) (i : grid0.Coords)
    (arg1 : Memref sig .tc .vmem S256x4096 .f32) (harg1 : arg1.IsWhole) (arg2 : Memref sig .tc .vmem S4096x32 .f32) (harg2 : arg2.IsWhole)
    (arg3 : Memref sig .tc .vmem S1x32 .f32) (harg3 : arg3.IsWhole) (arg4 : Memref sig .tc .vmem S256x1 .f32) (harg4 : arg4.IsWhole)
    (arg5 : Memref sig .tc .vmem S1x32 .f32) (harg5 : arg5.IsWhole) (arg6 : Memref sig .tc .vmem S1x32 .f32) (harg6 : arg6.IsWhole)
    (hc : ¬cond0 i)
    (x0 : Vec F S256x4096 .f32) (x1 : Vec F S4096x32 .f32) (x2 : Vec F S1x32 .f32)
    (y3 : Vec F S256x1 .f32) (y4 : Vec F S1x32 .f32) (xs : Vec F S1x32 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y3 ∗ owns (c : Thread nD τ) arg5 fullShare y4 ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (qout0 x0 x1 x2) ∗ owns (c : Thread nD τ) arg5 fullShare (k0_pay3 (msk0 x0 x1 x2) xs)
            ∗ owns (c : Thread nD τ) arg6 fullShare (k0_pay3 (msk0 x0 x1 x2) xs)) -∗ K ⟨⟩))
      ⊢ wp frame (wpE (defs₀ (F := F)) Variants.none c none) E (cc0__routing_kernel i arg1 harg1 arg2 harg2 arg3 harg3 arg4 harg4 arg5 harg5 arg6 harg6) K := by
  unfold qout0 msk0
  simp only [cc0__routing_kernel_eq_skeleton]; unfold cc0__routing_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S256x1_S256x1_0_0 y⟩), View.canon_unit_zero hz2]
    simp only [View.readAt_eq_ld, harg1.read_unread, harg2.read_unread, harg3.read_unread, View.ld_unit_zero (S := S256x4096) hz2, View.ld_unit_zero (S := S4096x32) hz2, View.ld_unit_zero (S := S1x32) hz2]
  isplitl [H5]
  · iexists _; isplitr
    swap; · iexact H5
    ipureintro
    sl_unfold_run_names
    rw [View.read_writes_eq_canon _ _ _ (fun y => ⟨_, List.mem_singleton_self _, View.mem_set_unit_zero hz2 inb_S1x32_S1x32_0_0 y⟩), View.canon_unit_zero hz2]
    simp only [View.readCov_cons_toLoadRect, View.readCov_unit_zero (S := S1x32) _ hz2, View.readAt_eq_ld, harg1.read_unread, harg2.read_unread, harg3.read_unread, harg6.read_unread, View.ld_unit_zero (S := S256x4096) hz2, View.ld_unit_zero (S := S4096x32) hz2, View.ld_unit_zero (S := S1x32) hz2]
  iexists _; isplitr
  swap; · iexact H6
  ipureintro
  sl_unfold_run_names
  rw [View.read_writes_eq_canon _ _ _ (fun y => ⟨_, List.mem_singleton_self _, View.mem_set_unit_zero hz2 inb_S1x32_S1x32_0_0 y⟩), View.canon_unit_zero hz2]
  simp only [View.readAt_eq_ld, harg1.read_unread, harg2.read_unread, harg3.read_unread, harg6.read_unread, View.ld_unit_zero (S := S256x4096) hz2, View.ld_unit_zero (S := S4096x32) hz2, View.ld_unit_zero (S := S1x32) hz2]

/-! ## The accumulator and the invariant, point by point -/

/-- At the first point the accumulator is the fold of that point's mask over the zero row. -/
theorem accAt0_first (c : Dev nD) (t : Fin cfg0.N) (hz : t.val = 0) :
    accAt0 V c t.val t.isLt = k0_pay3 (msk0 (iblk0 V c 0 t) (iblk0 V c 1 t) (iblk0 V c 2 t)) (k0_pay4 (F := F)) := by
  obtain ⟨n, hn⟩ := t
  cases n with
  | zero => rfl
  | succ n => exact absurd hz (Nat.succ_ne_zero n)

/-- At a later point it is the fold of that point's mask over what the point before left. -/
theorem accAt0_later (c : Dev nD) (t : Fin cfg0.N) (hz : t.val ≠ 0) :
    accAt0 V c t.val t.isLt = k0_pay3 (msk0 (iblk0 V c 0 t) (iblk0 V c 1 t) (iblk0 V c 2 t)) (accAt0 V c (t.val - 1) (Nat.lt_of_le_of_lt (Nat.sub_le _ _) t.isLt)) := by
  obtain ⟨n, hn⟩ := t
  cases n with
  | zero => exact absurd rfl hz
  | succ n => rfl

/-- Before the first point the invariant is the plain one. -/
theorem PhiS0_zero (c : Dev nD) (n : ℕ) (h : n ≤ cfg0.N) (hz : n = 0) : PhiS0 V c n h = Pipeline.ΦA spec0 c := by
  subst hz; rfl

/-- After point `n` the scratch holds the accumulator of point `n`. -/
theorem PhiS0_succ (c : Dev nD) (n : ℕ) (hn : n < cfg0.N) :
    PhiS0 V c (n + 1) hn = iprop(owns (c : Thread nD τ) scM0 fullShare (accAt0 V c n hn) ∗ rest0 (F := F) c ∗ (∃ r, prngReg c r)) := rfl

/-- Before a point that is not the first the scratch holds the accumulator of the point before. -/
theorem PhiS0_pos (c : Dev nD) (n : ℕ) (h : n ≤ cfg0.N) (hz : n ≠ 0) :
    PhiS0 V c n h = iprop(owns (c : Thread nD τ) scM0 fullShare (accAt0 V c (n - 1) (by omega)) ∗ rest0 (F := F) c ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- The plain invariant, opened: the scratch at some contents, the other scoped buffers, the generator register. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-! ## What the body finds in the input windows -/

/-- Each input window's current buffer holds the window's block at the point, fetched there or not: the
    centroid matrix and the weight row are fetched once and their block index never moves. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation at a point -/

/-- Each window's current staging memref at point `t`, and its wholeness. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)

/-- What the body is handed at point `t`: the invariant, what the core owes, and every window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What it returns: the next invariant, the same debt, and every buffer at what the proof data names. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 4000000 in
/-- The body at any point. At the first point the plain invariant hands over the scratch at anything and the run
    that resets it applies; at a later point the invariant hands it over at the accumulator of the point before and
    the run that folds into it applies. The two output buffers are handed over at whatever they hold, since the
    body overwrites both whole. Either way the scratch and the column-mask buffer end at this point's accumulator
    and the query-mask buffer at this point's row maxima. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  by_cases hz : t.val = 0
  · rw [PhiS0_castSucc V c t, PhiS0_zero V c _ _ hz, PhiA0_eq, accAt0_first V c t hz]
    iintro ⟨⟨⟨⟨%xs, HS⟩, Hr⟩, Hg⟩, Ho, ⟨%d0, H0⟩, ⟨%d1, H1⟩, ⟨%d2, H2⟩, ⟨%d3, H3⟩, ⟨%d4, H4⟩⟩
    iapply (run_first (F := F) c (grid0.coords t) (ms0_0 t) (hs0_0 t) (ms0_1 t) (hs0_1 t) (ms0_2 t) (hs0_2 t) (ms0_3 t) (hs0_3 t) (ms0_4 t) (hs0_4 t) scM0 (Memref.isWhole_whole _)
      ((hcond0 t).mpr hz) (iblk0 V c 0 t) (iblk0 V c 1 t) (iblk0 V c 2 t) ((dat0 V c).before 3 t d3) ((dat0 V c).before 4 t d4) xs Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [PhiS0_castSucc V c t, PhiS0_pos V c _ _ hz, accAt0_later V c t hz]
    iintro ⟨⟨HS, Hr, Hg⟩, Ho, ⟨%d0, H0⟩, ⟨%d1, H1⟩, ⟨%d2, H2⟩, ⟨%d3, H3⟩, ⟨%d4, H4⟩⟩
    iapply (run_later (F := F) c (grid0.coords t) (ms0_0 t) (hs0_0 t) (ms0_1 t) (hs0_1 t) (ms0_2 t) (hs0_2 t) (ms0_3 t) (hs0_3 t) (ms0_4 t) (hs0_4 t) scM0 (Memref.isWhole_whole _)
      (fun h => hz ((hcond0 t).mp h)) (iblk0 V c 0 t) (iblk0 V c 1 t) (iblk0 V c 2 t) ((dat0 V c).before 3 t d3) ((dat0 V c).before 4 t d4)
      (accAt0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4

/-- The body obligation of region 0 at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the plain one back: the accumulator's contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ hN, PhiA0_eq]
  iintro ⟨HS, Hr, Hg⟩
  isplitl [HS Hr]
  · isplitl [HS]
    · iexists _; iexact HS
    iexact Hr
  iexact Hg

end Cert.KernelIdeal.Hand

end
-- ==== Proof.KI.Region1.lean ====
/-
  Region 1 of the program: the linear kernel, one call per block of 128 rows. At a grid point the body reads
  the row block of x, the whole transposed weight matrix, the bias row, the row block of the query mask and
  the column mask, and stores ONE whole block: (x_blk · W^T + bias) * qmask * kmask. Nothing is kept between
  points, so the region invariant is the plain one and the proof data name, per point, each input buffer at
  its block of the array the region was entered with and the output buffer at the body's single store.
-/
import proofs.«116196_j17523466567937_1_alg».proof.Proof.Gen.KernelIdeal.Launch
import proofs.«116196_j17523466567937_1_alg».proof.Proof.Gen.KernelIdeal.Skeleton
import proofs.«116196_j17523466567937_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rx1 : Rect S128x4096 := Rect.unit (s := S128x4096) ![0, 0] S128x4096.size inb_S128x4096_S128x4096_0_0
abbrev rw1 : Rect S4096x4096 := Rect.unit (s := S4096x4096) ![0, 0] S4096x4096.size inb_S4096x4096_S4096x4096_0_0
abbrev rb1 : Rect S1x4096 := Rect.unit (s := S1x4096) ![0, 0] S1x4096.size inb_S1x4096_S1x4096_0_0
abbrev rq1 : Rect S128x1 := Rect.unit (s := S128x1) ![0, 0] S128x1.size inb_S128x1_S128x1_0_0

/-- What the body leaves in the output buffer: its one store, the masked affine map of the five inputs. -/
def out1_5 (x0 : Vec F S128x4096 .f32) (x1 : Vec F S4096x4096 .bf16) (x2 : Vec F S1x4096 .f32) (x3 : Vec F S128x1 .f32) (x4 : Vec F S1x4096 .f32) : Vec F S128x4096 .f32 :=
  View.canon [⟨rx1, k1_pay1 (View.ld x0 rx1) (View.ld x1 rw1) (View.ld x2 rb1) (View.ld x3 rq1) (View.ld x4 rb1)⟩]

/-- The proof data of region 1 on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## What the body finds in the input buffers -/

/-- The row block of x sits in its current staging buffer at every point: the window is fetched at each
    point, and a fetch of an uncut window puts exactly the block there. -/
theorem before1_x (c : Dev nD) (t : Fin cfg1.N) (d) : (dat1 V c).before 0 t d = iblk1 V c 0 t :=
  ((dat1 V c).before_in_eq_fetched 0 rfl (fun _ => rfl) (fun _ _ _ => rfl)
      (fun s => by rw [after1_0]; unfold Dat.blockOf iblk1; rw [A_eq1]; try rfl) t d).trans
    (by unfold Dat.fetched Dat.blockOf iblk1; rw [A_eq1]; try rfl)

/-- The weight matrix has one block, fetched at the first point; the body never writes it, so at a later
    point the buffer still holds that block, which is this point's block because the index has not moved. -/
theorem before1_wt (c : Dev nD) (t : Fin cfg1.N) (d) : (dat1 V c).before 1 t d = iblk1 V c 1 t :=
  ((dat1 V c).before_in_eq_fetched 1 rfl (fun _ => rfl) (fun _ _ _ => rfl)
      (fun s => by rw [after1_1]; unfold Dat.blockOf iblk1; rw [A_eq1]; try rfl) t d).trans
    (by unfold Dat.fetched Dat.blockOf iblk1; rw [A_eq1]; try rfl)

/-- The bias row: one block, fetched once and left in place. -/
theorem before1_bias (c : Dev nD) (t : Fin cfg1.N) (d) : (dat1 V c).before 2 t d = iblk1 V c 2 t :=
  ((dat1 V c).before_in_eq_fetched 2 rfl (fun _ => rfl) (fun _ _ _ => rfl)
      (fun s => by rw [after1_2]; unfold Dat.blockOf iblk1; rw [A_eq1]; try rfl) t d).trans
    (by unfold Dat.fetched Dat.blockOf iblk1; rw [A_eq1]; try rfl)

/-- The row block of the query mask, fetched at each point. -/
theorem before1_qmask (c : Dev nD) (t : Fin cfg1.N) (d) : (dat1 V c).before 3 t d = iblk1 V c 3 t :=
  ((dat1 V c).before_in_eq_fetched 3 rfl (fun _ => rfl) (fun _ _ _ => rfl)
      (fun s => by rw [after1_3]; unfold Dat.blockOf iblk1; rw [A_eq1]; try rfl) t d).trans
    (by unfold Dat.fetched Dat.blockOf iblk1; rw [A_eq1]; try rfl)

/-- The column mask: one block, fetched once and left in place. -/
theorem before1_kmask (c : Dev nD) (t : Fin cfg1.N) (d) : (dat1 V c).before 4 t d = iblk1 V c 4 t :=
  ((dat1 V c).before_in_eq_fetched 4 rfl (fun _ => rfl) (fun _ _ _ => rfl)
      (fun s => by rw [after1_4]; unfold Dat.blockOf iblk1; rw [A_eq1]; try rfl) t d).trans
    (by unfold Dat.fetched Dat.blockOf iblk1; rw [A_eq1]; try rfl)

/-! ## The body's single store -/

/-- The store's rectangle is the whole 128 x 4096 buffer, so every index lies in it. -/
theorem store1_covers (p : Vec F S128x4096 .f32) (y : S128x4096.Idx) :
    ∃ pc ∈ ([⟨rx1, p⟩] : List (View.Piece (Elt F) S128x4096 .f32)), y ∈ pc.1.set :=
  View.cover_of_tiled [⟨rx1, p⟩] S128x4096.size (by rfl) y

/-! ## The kernel's triple -/

set_option maxHeartbeats 4000000 in
/-- The linear kernel on whole buffers. Given the five inputs at contents x0 .. x4 and the output buffer at anything,
    it runs to a state with the inputs as they were and the output buffer at `out1_5 x0 x1 x2 x3 x4`: the five
    loads return the whole contents, the sixth load (of the output buffer) is never used, and the one store
    overwrites every entry of the output buffer with the payload. -/
theorem linear_kernel_triple (c : Dev nD) (E : Set ℕ) (i : grid1.Coords)
    (a0 : Memref sig .tc .vmem S128x4096 .f32) (h0 : a0.IsWhole) (a1 : Memref sig .tc .vmem S4096x4096 .bf16) (h1 : a1.IsWhole)
    (a2 : Memref sig .tc .vmem S1x4096 .f32) (h2 : a2.IsWhole) (a3 : Memref sig .tc .vmem S128x1 .f32) (h3 : a3.IsWhole)
    (a4 : Memref sig .tc .vmem S1x4096 .f32) (h4 : a4.IsWhole) (a5 : Memref sig .tc .vmem S128x4096 .f32) (h5 : a5.IsWhole)
    (x0 : Vec F S128x4096 .f32) (x1 : Vec F S4096x4096 .bf16) (x2 : Vec F S1x4096 .f32) (x3 : Vec F S128x1 .f32)
    (x4 : Vec F S1x4096 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out1_5 x0 x1 x2 x3 x4)) -∗ K ⟨⟩))
      ⊢ wp frame (wpE (defs₀ (F := F)) Variants.none c none) E (cc1__linear_kernel i a0 h0 a1 h1 a2 h2 a3 h3 a4 h4 a5 h5) K := by
  simp only [cc1__linear_kernel_eq_skeleton]; unfold cc1__linear_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store1_covers _)

/-! ## The obligation at a point -/

/-- What the pipeline hands the body at point `t`: the region invariant, what the core owes, and each window's
    current staging buffer at what it then holds. -/
def pointPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body hands back: the same invariant and debt at the next point, and each buffer at what the body
    leaves in it. -/
def pointPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point. Each input buffer holds its block, so the kernel's triple applies at the five blocks;
    the invariant and the debt do not depend on the point and are not touched by the body. -/
theorem linear_body_at (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [before1_x, before1_wt, before1_bias, before1_qmask, before1_kmask]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (linear_kernel_triple c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 1 at every point. -/
theorem body_obligation1 (c : Dev nD) : BodyObligation (dat1 (F := F) V c) (defs₀ (F := F)) Variants.none () Set.univ := fun t => by
  rw [bigSep_W1, bigSep_W1]
  exact linear_body_at V c t

end Cert.KernelIdeal.Hand

end
-- ==== Proof.KI.Run.lean ====
/-
  The whole run of the program: @main is five segments — the host operations that build the operands, the
  routing kernel's region, two host operations that widen the column mask, the linear kernel's region, and the
  final reshape. The contents of the core's unscoped buffers at each boundary are a fold from the launch memory:
  a host stretch applies its operations, a region replaces its windows' arrays by what its write-backs leave.
  Every weakly fair execution terminates with every unscoped buffer at the last boundary's contents; the
  arguments are written by nothing, so they end as launched.
-/
import proofs.«116196_j17523466567937_1_alg».proof.Proof.KI.Region0
import proofs.«116196_j17523466567937_1_alg».proof.Proof.KI.Region1
import proofs.«116196_j17523466567937_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline's write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline's write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents the program ends with. -/
abbrev W5 : Dev nD → Valuation τ sig (Elt F) := fun c => StableHlo.after hostOps2 (W4 m ρ c)

/-! ## No segment writes an argument -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-- The plain region invariant of region 0 from the generator register, anything, and the scoped rest; and back. -/
theorem phiA_of_parts0 (c : Dev nD) (P : sProp 𝕄) :
    (iprop((∃ r, prngReg c r) ∗ P ∗ Pipeline.scopedRest spec0 c) : sProp 𝕄) ⊢ Pipeline.ΦA spec0 c := by
  unfold Pipeline.ΦA
  iintro ⟨Hp, -, Hr⟩
  isplitl [Hr]; · iexact Hr
  iexact Hp
theorem parts_of_phiA0 (c : Dev nD) :
    Pipeline.ΦA spec0 c ⊢ (iprop((∃ r, prngReg c r) ∗ BI.emp ∗ Pipeline.scopedRest spec0 c) : sProp 𝕄) := by
  unfold Pipeline.ΦA
  iintro ⟨Hr, Hp⟩
  isplitl [Hp]; · iexact Hp
  isplitr; · iempintro
  iexact Hr
/-- The last host stretch's exit is the last thread state beside nothing owed. -/
theorem last_chain (c : Dev nD) :
    (iprop(StableHlo.held (c : Thread nD τ) (Pipeline.ucRefs τ sig) (W5 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at `W1`, left at `W2`. Its arrays
    are split out of the unscoped buffers at entry and put back at their final contents at exit; the generator
    register goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (phiA_of_parts0 c _).trans (hin0 (V1 m ρ) c)
  hout c := by
    rw [Pipeline.ownSems0_none]
    exact (hout0 (V1 m ρ) c).trans (parts_of_phiA0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays
    are split out of the unscoped buffers at entry and put back at their final contents at exit; the generator
    register goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.KernelIdeal.Hand

end
-- ==== Proof.Spec.lean ====
/-
  The mathematics both programs compute, index by index over the extended reals.
  For a row x_r of the flattened input (4096 entries), the centroid matrix C (4096 x 32) and the weight row ln:
    d_j   = sum_k x_r[k] * C[k, j]                         (the 32 centroid scores)
    mu    = (sum_j d_j) / 32,   var = (sum_j (d_j - mu)^2) / 32
    z_j   = (d_j - mu) * rsqrt(var + eps) * ln_j           (layer norm without bias)
    s_j   = exp(z_j - max_j z_j) / sum_j exp(z_j - max_j z_j)   (softmax)
    bit_j = [s_j > 1/2]
  A row is SELECTED when some bit_j is set; a cluster j is SELECTED when some row has bit_j set. The result at
  (r, o) is (sum_k x_r[k] * W^T[k, o] + bias_o) when row r and the cluster o / 128 of column o are both
  selected, and 0 otherwise.
-/
import Idealize.ShloMosaic.PureOps.Ideal
import Idealize.ShloMosaic.PureOps.Ideal.Laws

noncomputable section

namespace Cert.Spec

open Idealize.ShloMosaic

/-- The literals of the two programs, as the extended reals their words denote. -/
def c32 : EReal := Ideal.ofBits .f32 0x42000000#32
def ceps : EReal := Ideal.ofBits .f32 0x3727C5AC#32
def chalf : EReal := Ideal.ofBits .f32 0x3F000000#32
def cninf : EReal := Ideal.ofBits .f32 0xFF800000#32

/-- The 32 centroid scores of a row. -/
def dotsR (xr : Fin 4096 → EReal) (C : Fin 4096 → Fin 32 → EReal) (j : Fin 32) : EReal :=
  ∑ k : Fin 4096, xr k * C k j

/-- Their mean and (biased) variance. -/
def muR (d : Fin 32 → EReal) : EReal := Ideal.div (∑ j : Fin 32, d j) c32
def varR (d : Fin 32 → EReal) : EReal := Ideal.div (∑ j : Fin 32, (d j - muR d) * (d j - muR d)) c32

/-- The normalised, weighted scores. -/
def znR (d : Fin 32 → EReal) (ln : Fin 32 → EReal) (j : Fin 32) : EReal :=
  (d j - muR d) * Ideal.rsqrt (varR d + ceps) * ln j

/-- Their maximum (the fold of max from minus infinity), the shifted exponentials, the softmax. -/
def zmaxR (z : Fin 32 → EReal) : EReal := (Finset.univ : Finset (Fin 32)).fold max cninf z
def exR (z : Fin 32 → EReal) (j : Fin 32) : EReal := Ideal.exp (z j - zmaxR z)
def softR (z : Fin 32 → EReal) (j : Fin 32) : EReal := Ideal.div (exR z j) (∑ j' : Fin 32, exR z j')

/-- The routing bit of row `xr` at cluster `j`: the softmax exceeds one half. -/
def bitR (xr : Fin 4096 → EReal) (C : Fin 4096 → Fin 32 → EReal) (ln : Fin 32 → EReal) (j : Fin 32) : BitVec 1 :=
  Ideal.cmp .ogt (softR (znR (dotsR xr C) ln) j) chalf

/-- A row is selected when one of its bits is set. -/
def rowSel (xr : Fin 4096 → EReal) (C : Fin 4096 → Fin 32 → EReal) (ln : Fin 32 → EReal) : Prop :=
  ∃ j : Fin 32, bitR xr C ln j = 1#1

/-- A cluster is selected when some row of the input has its bit set. -/
def colSel (X : Fin 8192 → Fin 4096 → EReal) (C : Fin 4096 → Fin 32 → EReal) (ln : Fin 32 → EReal) (j : Fin 32) : Prop :=
  ∃ r : Fin 8192, bitR (X r) C ln j = 1#1

/-- The indicator of a proposition as an extended real (decided classically, so that it is one function of the proposition). -/
def ind (p : Prop) : EReal := @ite _ p (Classical.propDecidable p) 1 0

theorem ind_of {p : Prop} (h : p) : ind p = 1 := by unfold ind; exact @if_pos _ (Classical.propDecidable p) h _ _ _
theorem ind_of_not {p : Prop} (h : ¬p) : ind p = 0 := by unfold ind; exact @if_neg _ (Classical.propDecidable p) h _ _ _

theorem ind_nonneg (p : Prop) : 0 ≤ ind p := by
  by_cases h : p
  · rw [ind_of h]; exact zero_le_one
  · rw [ind_of_not h]

/-- The maximum of two indicators is the indicator of the disjunction. -/
theorem max_ind (p q : Prop) : max (ind p) (ind q) = ind (p ∨ q) := by
  by_cases hp : p
  · rw [ind_of hp, ind_of (Or.inl hp)]
    by_cases hq : q
    · rw [ind_of hq, max_self]
    · rw [ind_of_not hq]; exact max_eq_left zero_le_one
  · by_cases hq : q
    · rw [ind_of_not hp, ind_of hq, ind_of (Or.inr hq)]; exact max_eq_right zero_le_one
    · rw [ind_of_not hp, ind_of_not hq, ind_of_not (p := p ∨ q) (fun h => h.elim hp hq), max_self]

/-- The product of two indicators is the indicator of the conjunction. -/
theorem ind_mul (p q : Prop) : ind p * ind q = ind (p ∧ q) := by
  by_cases hp : p
  · by_cases hq : q
    · rw [ind_of hp, ind_of hq, ind_of ⟨hp, hq⟩, one_mul]
    · rw [ind_of_not hq, ind_of_not (p := p ∧ q) (fun h => hq h.2), mul_zero]
  · rw [ind_of_not hp, ind_of_not (p := p ∧ q) (fun h => hp h.1), zero_mul]

theorem max_zero_ind (p : Prop) : max 0 (ind p) = ind p := max_eq_right (ind_nonneg p)

/-- The masked linear map: the result at row `r`, column `o`. -/
def G (X : Fin 8192 → Fin 4096 → EReal) (C : Fin 4096 → Fin 32 → EReal) (ln : Fin 32 → EReal)
    (WT : Fin 4096 → Fin 4096 → EReal) (b : Fin 4096 → EReal) (r : Fin 8192) (o : Fin 4096) : EReal :=
  ((∑ k : Fin 4096, X r k * WT k o) + b o)
    * ind (rowSel (X r) C ln ∧ colSel X C ln ⟨o.val / 128, by have := o.isLt; omega⟩)

end Cert.Spec

end
-- ==== Proof.KI.MaskVal.lean ====
/-
  The routing kernel's payloads read at an index, at the ideal values. The comparison mask of a 256-row block at
  (p, j) is the routing bit of the block's row p at cluster j; the block of the query mask at row p is the
  indicator that some bit of row p is set (a maximum of 0/1 values from minus infinity over 32 entries); the
  accumulator update at cluster j is the maximum of what was there and the indicator that some row of the block
  has bit j set; the reset row is zero.
-/
import proofs.«116196_j17523466567937_1_alg».proof.Proof.Gen.KernelIdeal.Skeleton
import proofs.«116196_j17523466567937_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen Cert.Spec

/-! ## Layout operations at explicit coordinates -/

section Layout
variable {α : Type}

/-- A vector of length a cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Minus infinity, indicators, and the maximum of indicators -/

/-- The word of minus infinity denotes the bottom of the extended reals. -/
theorem ofBits_ninf : Ideal.ofBits .f32 0xFF800000#32 = (⊥ : EReal) := by
  simp [Ideal.ofBits, Ideal.ieee]

/-- A bit widened and read as a signed integer, as a float: the indicator that the bit is set. -/
theorem bit_float (b : BitVec 1) : (((b.setWidth 32).toInt : ℝ) : EReal) = ind (b = 1#1) := by
  by_cases h : b = 1#1
  · subst h
    rw [ind_of rfl]
    have : ((1#1 : BitVec 1).setWidth 32).toInt = 1 := by decide
    rw [this]; norm_num
  · have h0 := eq_zero_of_ne_one h
    subst h0
    rw [ind_of_not h]
    have : ((0#1 : BitVec 1).setWidth 32).toInt = 0 := by decide
    rw [this]; norm_num

/-- The maximum, from minus infinity, of indicators over a nonempty finite range is the indicator that one of them holds. -/
theorem fold_max_ind {n : ℕ} (P : Fin (n + 1) → Prop) :
    (Finset.univ : Finset (Fin (n + 1))).fold max (⊥ : EReal) (fun k => ind (P k)) = ind (∃ k, P k) := by
  have key : ∀ s : Finset (Fin (n + 1)), max 0 (s.fold max (⊥ : EReal) (fun k => ind (P k))) = ind (∃ k ∈ s, P k) := by
    intro s
    induction s using Finset.induction_on with
    | empty =>
      rw [Finset.fold_empty, max_eq_left bot_le, ind_of_not]
      rintro ⟨k, hk, _⟩; exact absurd hk (Finset.notMem_empty k)
    | insert a s ha ih =>
      rw [Finset.fold_insert ha, max_left_comm, ih, Cert.Spec.max_ind]
      congr 1
      exact propext ⟨fun h => h.elim (fun h => ⟨a, Finset.mem_insert_self a s, h⟩)
          (fun ⟨k, hk, h⟩ => ⟨k, Finset.mem_insert_of_mem hk, h⟩),
        fun ⟨k, hk, h⟩ => (Finset.mem_insert.1 hk).elim (fun e => Or.inl (e ▸ h)) (fun hk => Or.inr ⟨k, hk, h⟩)⟩
  have h0 : (0 : EReal) ≤ (Finset.univ : Finset (Fin (n + 1))).fold max (⊥ : EReal) (fun k => ind (P k)) :=
    (Finset.le_fold_max (0 : EReal)).2 (Or.inr ⟨0, Finset.mem_univ _, ind_nonneg _⟩)
  rw [← max_eq_right h0, key]
  congr 1
  exact propext ⟨fun ⟨k, _, h⟩ => ⟨k, h⟩, fun ⟨k, h⟩ => ⟨k, Finset.mem_univ k, h⟩⟩

/-! ## The reductions of a [256, 32] block at explicit coordinates -/

/-- The sum of a row's 32 entries. -/
theorem rowSum_apply (src : FVec Ideal S256x32 .f32) (hφ : FTy.f32 = FTy.f32 ∨ FTy.f32 = FTy.bf16)
    (hacc : @Eq (BitVec (FTy.bits FTy.f32)) 0x00000000#32 0x00000000#32) (p : Fin 256) :
    multiReduction (F := Ideal) .add ([1] : List (Fin 2)) S256 src 0x00000000#32 reduces_S256x32_S256 hφ hacc (ix1 p)
      = ∑ k : Fin 32, src (ix2 p k) := by
  refine (Ideal.multiReduction_add_single src _ reduces_S256x32_S256 hφ hacc (ix1 p)).trans ?_
  refine Finset.sum_congr rfl fun k _ => congrArg src (funext fun a => Fin.ext ?_)
  match a with
  | ⟨0, _⟩ => rfl
  | ⟨1, _⟩ => rfl

/-- The maximum of a row's 32 entries, from minus infinity. -/
theorem rowMax_apply (src : FVec Ideal S256x32 .f32) (hφ : FTy.f32 = FTy.f32 ∨ FTy.f32 = FTy.bf16)
    (hacc : @Eq (BitVec (FTy.bits FTy.f32)) 0xFF800000#32 0xFF800000#32) (p : Fin 256) :
    multiReduction (F := Ideal) .maximumf ([1] : List (Fin 2)) S256 src 0xFF800000#32 reduces_S256x32_S256 hφ hacc (ix1 p)
      = (Finset.univ : Finset (Fin 32)).fold max (Ideal.ofBits .f32 0xFF800000#32) (fun k => src (ix2 p k)) := by
  refine (Ideal.multiReduction_maximumf_single src _ reduces_S256x32_S256 hφ hacc (ix1 p)).trans ?_
  refine congrArg (fun f => (Finset.univ : Finset (Fin 32)).fold max (Ideal.ofBits .f32 0xFF800000#32) f) (funext fun k => congrArg src (funext fun a => Fin.ext ?_))
  match a with
  | ⟨0, _⟩ => rfl
  | ⟨1, _⟩ => rfl

/-- The maximum of a column's 256 entries, from minus infinity. -/
theorem colMax_apply (src : FVec Ideal S256x32 .f32) (hφ : FTy.f32 = FTy.f32 ∨ FTy.f32 = FTy.bf16)
    (hacc : @Eq (BitVec (FTy.bits FTy.f32)) 0xFF800000#32 0xFF800000#32) (j : Fin 32) :
    multiReduction (F := Ideal) .maximumf ([0] : List (Fin 2)) S32 src 0xFF800000#32 reduces_S256x32_S32 hφ hacc (ix1 j)
      = (Finset.univ : Finset (Fin 256)).fold max (Ideal.ofBits .f32 0xFF800000#32) (fun p => src (ix2 p j)) := by
  refine (Ideal.multiReduction_maximumf_single src _ reduces_S256x32_S32 hφ hacc (ix1 j)).trans ?_
  refine congrArg (fun f => (Finset.univ : Finset (Fin 256)).fold max (Ideal.ofBits .f32 0xFF800000#32) f) (funext fun k => congrArg src (funext fun a => Fin.ext ?_))
  match a with
  | ⟨0, _⟩ => rfl
  | ⟨1, _⟩ => rfl

/-! ## The 0/1 mask of the routing bits -/

/-- The routing bit widened to a float is the indicator that it is set. -/
theorem k0_pay1_apply (v40 : IVec S256x32 1) (p : Fin 256) (j : Fin 32) :
    k0_pay1 (F := Ideal) v40 (ix2 p j) = ind (v40 (ix2 p j) = 1#1) := by
  unfold k0_pay1
  exact bit_float (v40 (ix2 p j))

/-! ## The products at explicit coordinates -/

theorem lhs_k1_0 (i : S128x4096.Idx) (q : dot_S128x4096_S4096x4096_S128x4096_1_0_0_1_n_n.contr.Idx) :
    (dot_S128x4096_S4096x4096_S128x4096_1_0_0_1_n_n.lhsIdx i q 0).val = (i 0).val := by
  unfold DotDims.lhsIdx
  rw [dif_neg (show ¬(0 : Fin S128x4096.rank) ∈ dot_S128x4096_S4096x4096_S128x4096_1_0_0_1_n_n.lhsBatch by decide), dif_pos (show (0 : Fin S128x4096.rank) ∈ dot_S128x4096_S4096x4096_S128x4096_1_0_0_1_n_n.lhsNonContracting by decide)]
  rfl
theorem lhs_k1_1 (i : S128x4096.Idx) (q : dot_S128x4096_S4096x4096_S128x4096_1_0_0_1_n_n.contr.Idx) :
    (dot_S128x4096_S4096x4096_S128x4096_1_0_0_1_n_n.lhsIdx i q 1).val = (q ⟨0, by decide⟩).val :=
  dot_S128x4096_S4096x4096_S128x4096_1_0_0_1_n_n.lhsIdx_val_of_single rfl i q
theorem rhs_k1_0 (i : S128x4096.Idx) (q : dot_S128x4096_S4096x4096_S128x4096_1_0_0_1_n_n.contr.Idx) :
    (dot_S128x4096_S4096x4096_S128x4096_1_0_0_1_n_n.rhsIdx i q 0).val = (q ⟨0, by decide⟩).val :=
  dot_S128x4096_S4096x4096_S128x4096_1_0_0_1_n_n.rhsIdx_val_of_single rfl i q
theorem rhs_k1_1 (i : S128x4096.Idx) (q : dot_S128x4096_S4096x4096_S128x4096_1_0_0_1_n_n.contr.Idx) :
    (dot_S128x4096_S4096x4096_S128x4096_1_0_0_1_n_n.rhsIdx i q 1).val = (i 1).val := by
  unfold DotDims.rhsIdx
  rw [dif_neg (show ¬(1 : Fin S4096x4096.rank) ∈ dot_S128x4096_S4096x4096_S128x4096_1_0_0_1_n_n.rhsBatch by decide), dif_pos (show (1 : Fin S4096x4096.rank) ∈ dot_S128x4096_S4096x4096_S128x4096_1_0_0_1_n_n.rhsNonContracting by decide)]
  rfl

/-- The linear kernel's product into the zero block, at (p, o): the sum over the 4096 contracted entries. -/
theorem matmul_k1_apply (lhs : FVec Ideal S128x4096 .bf16) (rhs : FVec Ideal S4096x4096 .bf16) (prec : Option ContractPrecision)
    (p : Fin 128) (o : Fin 4096) :
    matmul dot_S128x4096_S4096x4096_S128x4096_1_0_0_1_n_n prec lhs rhs (constant (F := Ideal) S128x4096 .f32 0x00000000#32) (ix2 p o)
      = ∑ k : Fin 4096, lhs (ix2 p k) * rhs (ix2 k o) := by
  simp only [matmul]
  rw [Ideal.matmul_constant_zero_apply, ← Equiv.sum_comp (contrEquiv1 dot_S128x4096_S4096x4096_S128x4096_1_0_0_1_n_n 4096 rfl rfl).symm]
  refine Finset.sum_congr rfl fun k _ => ?_
  have hk := contrEquiv1_symm_val dot_S128x4096_S4096x4096_S128x4096_1_0_0_1_n_n 4096 rfl rfl k
  have el : dot_S128x4096_S4096x4096_S128x4096_1_0_0_1_n_n.lhsIdx (ix2 p o) ((contrEquiv1 dot_S128x4096_S4096x4096_S128x4096_1_0_0_1_n_n 4096 rfl rfl).symm k) = ix2 p k := funext fun a => Fin.ext (by
    match a with
    | ⟨0, _⟩ => exact lhs_k1_0 _ _
    | ⟨1, _⟩ => exact (lhs_k1_1 _ _).trans hk)
  have er : dot_S128x4096_S4096x4096_S128x4096_1_0_0_1_n_n.rhsIdx (ix2 p o) ((contrEquiv1 dot_S128x4096_S4096x4096_S128x4096_1_0_0_1_n_n 4096 rfl rfl).symm k) = ix2 k o := funext fun a => Fin.ext (by
    match a with
    | ⟨0, _⟩ => exact (rhs_k1_0 _ _).trans hk
    | ⟨1, _⟩ => exact rhs_k1_1 _ _)
  rw [el, er]

theorem lhs_k0_0 (i : S256x32.Idx) (q : dot_S256x4096_S4096x32_S256x32_1_0_0_1_n_n.contr.Idx) :
    (dot_S256x4096_S4096x32_S256x32_1_0_0_1_n_n.lhsIdx i q 0).val = (i 0).val := by
  unfold DotDims.lhsIdx
  rw [dif_neg (show ¬(0 : Fin S256x4096.rank) ∈ dot_S256x4096_S4096x32_S256x32_1_0_0_1_n_n.lhsBatch by decide), dif_pos (show (0 : Fin S256x4096.rank) ∈ dot_S256x4096_S4096x32_S256x32_1_0_0_1_n_n.lhsNonContracting by decide)]
  rfl
theorem lhs_k0_1 (i : S256x32.Idx) (q : dot_S256x4096_S4096x32_S256x32_1_0_0_1_n_n.contr.Idx) :
    (dot_S256x4096_S4096x32_S256x32_1_0_0_1_n_n.lhsIdx i q 1).val = (q ⟨0, by decide⟩).val :=
  dot_S256x4096_S4096x32_S256x32_1_0_0_1_n_n.lhsIdx_val_of_single rfl i q
theorem rhs_k0_0 (i : S256x32.Idx) (q : dot_S256x4096_S4096x32_S256x32_1_0_0_1_n_n.contr.Idx) :
    (dot_S256x4096_S4096x32_S256x32_1_0_0_1_n_n.rhsIdx i q 0).val = (q ⟨0, by decide⟩).val :=
  dot_S256x4096_S4096x32_S256x32_1_0_0_1_n_n.rhsIdx_val_of_single rfl i q
theorem rhs_k0_1 (i : S256x32.Idx) (q : dot_S256x4096_S4096x32_S256x32_1_0_0_1_n_n.contr.Idx) :
    (dot_S256x4096_S4096x32_S256x32_1_0_0_1_n_n.rhsIdx i q 1).val = (i 1).val := by
  unfold DotDims.rhsIdx
  rw [dif_neg (show ¬(1 : Fin S4096x32.rank) ∈ dot_S256x4096_S4096x32_S256x32_1_0_0_1_n_n.rhsBatch by decide), dif_pos (show (1 : Fin S4096x32.rank) ∈ dot_S256x4096_S4096x32_S256x32_1_0_0_1_n_n.rhsNonContracting by decide)]
  rfl

/-- The routing kernel's product into the zero block, at (p, j): the 4096-term score of row p against centroid j. -/
theorem matmul_k0_apply (lhs : FVec Ideal S256x4096 .f32) (rhs : FVec Ideal S4096x32 .f32) (prec : Option ContractPrecision)
    (p : Fin 256) (j : Fin 32) :
    matmul dot_S256x4096_S4096x32_S256x32_1_0_0_1_n_n prec lhs rhs (constant (F := Ideal) S256x32 .f32 0x00000000#32) (ix2 p j)
      = ∑ k : Fin 4096, lhs (ix2 p k) * rhs (ix2 k j) := by
  simp only [matmul]
  rw [Ideal.matmul_constant_zero_apply, ← Equiv.sum_comp (contrEquiv1 dot_S256x4096_S4096x32_S256x32_1_0_0_1_n_n 4096 rfl rfl).symm]
  refine Finset.sum_congr rfl fun k _ => ?_
  have hk := contrEquiv1_symm_val dot_S256x4096_S4096x32_S256x32_1_0_0_1_n_n 4096 rfl rfl k
  have el : dot_S256x4096_S4096x32_S256x32_1_0_0_1_n_n.lhsIdx (ix2 p j) ((contrEquiv1 dot_S256x4096_S4096x32_S256x32_1_0_0_1_n_n 4096 rfl rfl).symm k) = ix2 p k := funext fun a => Fin.ext (by
    match a with
    | ⟨0, _⟩ => exact lhs_k0_0 _ _
    | ⟨1, _⟩ => exact (lhs_k0_1 _ _).trans hk)
  have er : dot_S256x4096_S4096x32_S256x32_1_0_0_1_n_n.rhsIdx (ix2 p j) ((contrEquiv1 dot_S256x4096_S4096x32_S256x32_1_0_0_1_n_n 4096 rfl rfl).symm k) = ix2 k j := funext fun a => Fin.ext (by
    match a with
    | ⟨0, _⟩ => exact (rhs_k0_0 _ _).trans hk
    | ⟨1, _⟩ => exact rhs_k0_1 _ _)
  rw [el, er]

/-- The exponential and the reciprocal square root act entry by entry. -/
theorem exp_apply {s : Shape} {φ : FTy} (a : FVec Ideal s φ) (i : s.Idx) : exp a i = Ideal.exp (a i) := rfl
theorem rsqrt_apply {s : Shape} {φ : FTy} (a : FVec Ideal s φ) (i : s.Idx) : rsqrt a i = Ideal.rsqrt (a i) := rfl

/-! ## The five payloads at an index -/

/-- The comparison mask at (p, j) is the routing bit of row p of the block at cluster j. -/
theorem k0_pay5_apply (x0 : Vec Ideal S256x4096 .f32) (x1 : Vec Ideal S4096x32 .f32) (x2 : Vec Ideal S1x32 .f32)
    (p : Fin 256) (j : Fin 32) :
    k0_pay5 (F := Ideal) x0 x1 x2 (ix2 p j)
      = bitR (fun k => x0 (ix2 p k)) (fun k j' => x1 (ix2 k j')) (fun j' => x2 (ix2 (0 : Fin 1) j')) j := by
  unfold k0_pay5
  simp only [shapeCast_self, cmpf_apply, divf_apply, subf_apply, mulf_apply, addf_apply, broadcast_apply, exp_apply, rsqrt_apply,
    broadcastTo_a1_ab_apply, broadcastTo_1b_ab_apply, shapeCast_a_a1_apply, rowSum_apply, rowMax_apply, matmul_k0_apply,
    Ideal.cmpf_def, Ideal.ofBits_def, Scalar.ofBits]
  unfold bitR softR exR zmaxR znR varR muR dotsR c32 ceps chalf cninf
  rfl

/-- The block of the query mask at row p: whether some bit of the row is set. -/
theorem k0_pay2_apply (v40 : IVec S256x32 1) (p : Fin 256) :
    k0_pay2 (F := Ideal) v40 (ix2 p (0 : Fin 1)) = ind (∃ j : Fin 32, v40 (ix2 p j) = 1#1) := by
  unfold k0_pay2
  refine (shapeCast_a_a1_apply _ _ p (0 : Fin 1)).trans ?_
  refine (rowMax_apply _ _ _ p).trans ?_
  rw [ofBits_ninf]
  simp only [k0_pay1_apply]
  exact fold_max_ind (n := 31) fun j => v40 (ix2 p j) = 1#1

/-- The accumulator update at cluster j: what was there, or some row of the block has bit j set. -/
theorem k0_pay3_apply (v40 : IVec S256x32 1) (v48 : Vec Ideal S1x32 .f32) (j : Fin 32) :
    k0_pay3 (F := Ideal) v40 v48 (ix2 (0 : Fin 1) j)
      = max (v48 (ix2 (0 : Fin 1) j)) (ind (∃ p : Fin 256, v40 (ix2 p j) = 1#1)) := by
  unfold k0_pay3
  rw [shapeCast_self]
  refine congrArg (max (v48 (ix2 (0 : Fin 1) j))) ?_
  refine (shapeCast_a_1a_apply _ _ (0 : Fin 1) j).trans ?_
  refine (colMax_apply _ _ _ j).trans ?_
  rw [ofBits_ninf]
  simp only [k0_pay1_apply]
  exact fold_max_ind (n := 255) fun p => v40 (ix2 p j) = 1#1

/-- The reset row is zero. -/
theorem k0_pay4_apply (j : Fin 32) : k0_pay4 (F := Ideal) (ix2 (0 : Fin 1) j) = 0 := by
  unfold k0_pay4
  rw [shapeCast_self]
  exact Ideal.ofBits_zero_f32

/-- The linear kernel's one store at (p, o): the affine map of row p, times the row's query-mask entry, times the
    column-mask entry. -/
theorem k1_pay1_apply (v0 : Vec Ideal S128x4096 .f32) (v3 : Vec Ideal S4096x4096 .bf16) (v6 : Vec Ideal S1x4096 .f32)
    (v10 : Vec Ideal S128x1 .f32) (v14 : Vec Ideal S1x4096 .f32) (p : Fin 128) (o : Fin 4096) :
    k1_pay1 (F := Ideal) v0 v3 v6 v10 v14 (ix2 p o)
      = ((∑ k : Fin 4096, v0 (ix2 p k) * v3 (ix2 k o)) + v6 (ix2 (0 : Fin 1) o))
          * v10 (ix2 p (0 : Fin 1)) * v14 (ix2 (0 : Fin 1) o) := by
  unfold k1_pay1
  simp only [shapeCast_self]
  rw [mulf_apply, mulf_apply, addf_apply, matmul_k1_apply, broadcastTo_1b_ab_apply, broadcastTo_1b_ab_apply, broadcastTo_a1_ab_apply]
  rfl

end Cert.KernelIdeal.Hand

end
-- ==== Proof.KI.ArrVal0.lean ====
/-
  What region 0 leaves in its two output arrays, read at an index at the ideal values. The query mask is
  written back block by block: block t holds, at row p, whether row 256 t + p of x is selected. The column mask
  is one block written back once, after the last point: the accumulator, which after point n holds at cluster j
  whether some row below 256 (n + 1) has bit j set — by induction on the point, the maximum of two indicators
  being the indicator of the disjunction.
-/
import proofs.«116196_j17523466567937_1_alg».proof.Proof.KI.Region0
import proofs.«116196_j17523466567937_1_alg».proof.Proof.KI.MaskVal
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The matrices region 0 reads, as plain functions: the rows of x, the centroid matrix, the weight row. -/
def X0 (c : Dev nD) : Fin 8192 → Fin 4096 → EReal := fun r k => (V c main_v0) (ix2 r k)
def C0 (c : Dev nD) : Fin 4096 → Fin 32 → EReal := fun k j => (V c main_v39) (ix2 k j)
def ln0 (c : Dev nD) : Fin 32 → EReal := fun j => (V c main_v42) (ix2 (0 : Fin 1) j)

/-- The block index of each window at a point: the row block of x and the query-mask block move with the point,
    the centroid matrix, the weight row and the column mask stay at their one block. -/
theorem index0_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0) :=
  (by decide +kernel : ∀ t : Fin grid0.N, _)

/-- Row p of block t is a row of x: 32 blocks of 256 rows. -/
theorem row0_lt (t : Fin cfg0.N) (p : Fin 256) : 256 * t.val + p.val < 8192 := by
  have := t.isLt; have : cfg0.N = 32 := N_0; omega

/-- The row block of x at point t, at (p, k): row 256 t + p of x at k. -/
theorem x0_blk (c : Dev nD) (t : Fin cfg0.N) (p : Fin 256) (k : Fin 4096) :
    iblk0 V c 0 t (ix2 p k) = X0 V c ⟨256 * t.val + p.val, row0_lt t p⟩ k := by
  obtain ⟨⟨e0, e1⟩, -⟩ := index0_facts t
  unfold iblk0 X0
  show V c main_v0 (((cfg0.win 0).blk t).view.emb (ix2 p k)) = V c main_v0 (ix2 ⟨256 * t.val + p.val, row0_lt t p⟩ k)
  congr 1
  funext a; apply Fin.ext
  match a with
  | ⟨0, _⟩ => show win0_0.index t (0 : Fin 2) * 256 + 1 * p.val = 256 * t.val + p.val; omega
  | ⟨1, _⟩ => show win0_0.index t (1 : Fin 2) * 4096 + 1 * k.val = k.val; omega

/-- The centroid block at any point is the whole centroid matrix. -/
theorem c0_blk (c : Dev nD) (t : Fin cfg0.N) (k : Fin 4096) (j : Fin 32) :
    iblk0 V c 1 t (ix2 k j) = C0 V c k j := by
  obtain ⟨-, ⟨e0, e1⟩, -⟩ := index0_facts t
  unfold iblk0 C0
  show V c main_v39 (((cfg0.win 1).blk t).view.emb (ix2 k j)) = V c main_v39 (ix2 k j)
  congr 1
  funext a; apply Fin.ext
  match a with
  | ⟨0, _⟩ => show win0_1.index t (0 : Fin 2) * 4096 + 1 * k.val = k.val; omega
  | ⟨1, _⟩ => show win0_1.index t (1 : Fin 2) * 32 + 1 * j.val = j.val; omega

/-- The weight block at any point is the whole weight row. -/
theorem ln0_blk (c : Dev nD) (t : Fin cfg0.N) (j : Fin 32) :
    iblk0 V c 2 t (ix2 (0 : Fin 1) j) = ln0 V c j := by
  obtain ⟨-, -, ⟨e0, e1⟩, -⟩ := index0_facts t
  unfold iblk0 ln0
  show V c main_v42 (((cfg0.win 2).blk t).view.emb (ix2 (0 : Fin 1) j)) = V c main_v42 (ix2 (0 : Fin 1) j)
  congr 1
  funext a; apply Fin.ext
  match a with
  | ⟨0, _⟩ => show win0_2.index t (0 : Fin 2) * 1 + 1 * (0 : Fin 1).val = (0 : Fin 1).val; omega
  | ⟨1, _⟩ => show win0_2.index t (1 : Fin 2) * 32 + 1 * j.val = j.val; omega

/-- The comparison mask of the blocks at point t, at (p, j): the routing bit of row 256 t + p of x at cluster j. -/
theorem msk0_apply (c : Dev nD) (t : Fin cfg0.N) (p : Fin 256) (j : Fin 32) :
    msk0 (iblk0 V c 0 t) (iblk0 V c 1 t) (iblk0 V c 2 t) (ix2 p j)
      = bitR (X0 V c ⟨256 * t.val + p.val, row0_lt t p⟩) (C0 V c) (ln0 V c) j := by
  unfold msk0
  refine (k0_pay5_apply (iblk0 V c 0 t) (iblk0 V c 1 t) (iblk0 V c 2 t) p j).trans ?_
  have hx : (fun k => iblk0 V c 0 t (ix2 p k)) = X0 V c ⟨256 * t.val + p.val, row0_lt t p⟩ := funext fun k => x0_blk V c t p k
  have hc : (fun k j' => iblk0 V c 1 t (ix2 k j')) = C0 V c := funext fun k => funext fun j' => c0_blk V c t k j'
  have hl : (fun j' => iblk0 V c 2 t (ix2 (0 : Fin 1) j')) = ln0 V c := funext fun j' => ln0_blk V c t j'
  rw [hx, hc, hl]

/-! ## The query mask: block t of one function of the row -/

/-- The query mask as one function of the index: at row r, whether row r of x is selected. -/
def Qmask0 (c : Dev nD) : S8192x1.Idx → EReal :=
  fun i => ind (rowSel (X0 V c ⟨(i 0).val, idx2_lt0 i⟩) (C0 V c) (ln0 V c))

/-- What point t writes back is block t of that function: at row p of the block, the maximum over the 32 clusters of
    the bits of row 256 t + p, which is the indicator that one of them is set. -/
theorem flushed0_3_eq (c : Dev nD) (t : Fin cfg0.N) :
    (dat0 V c).flushed 3 t = ((cfg0.win 3).blk t).view.read (Elt Ideal) (Qmask0 V c) := by
  show (cfg0.win 3).cut (grid0.coords t) ((dat0 V c).after 3 t) = _
  rw [after0_3]
  obtain ⟨-, -, -, ⟨e0, e1⟩, -⟩ := index0_facts t
  funext y
  obtain ⟨p, z, rfl⟩ : ∃ (p : Fin 256) (z : Fin 1), y = ix2 p z := ⟨y 0, y 1, eq_ix2 y⟩
  obtain rfl : z = 0 := Subsingleton.elim _ _
  have hemb : ((cfg0.win 3).blk t).view.emb (ix2 p (0 : Fin 1)) = ix2 (⟨256 * t.val + p.val, row0_lt t p⟩ : Fin 8192) (0 : Fin 1) := by
    funext a; apply Fin.ext
    match a with
    | ⟨0, _⟩ => show win0_3.index t (0 : Fin 2) * 256 + 1 * p.val = 256 * t.val + p.val; omega
    | ⟨1, _⟩ => show win0_3.index t (1 : Fin 2) * 1 + 1 * (0 : Fin 1).val = (0 : Fin 1).val; omega
  show qout0 (iblk0 V c 0 t) (iblk0 V c 1 t) (iblk0 V c 2 t) (ix2 p (0 : Fin 1)) = Qmask0 V c (((cfg0.win 3).blk t).view.emb (ix2 p (0 : Fin 1)))
  rw [hemb]
  unfold qout0
  refine (k0_pay2_apply (msk0 (iblk0 V c 0 t) (iblk0 V c 1 t) (iblk0 V c 2 t)) p).trans ?_
  show ind (∃ j : Fin 32, msk0 (iblk0 V c 0 t) (iblk0 V c 1 t) (iblk0 V c 2 t) (ix2 p j) = 1#1)
    = ind (∃ j : Fin 32, bitR (X0 V c ⟨256 * t.val + p.val, row0_lt t p⟩) (C0 V c) (ln0 V c) j = 1#1)
  exact congrArg ind (propext (exists_congr fun j => by rw [msk0_apply V c t p j]))

/-- An index of the query mask is in block t iff each coordinate is in the block's range on its axis. -/
theorem mem_blk0_3 (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v44_0).slice (win0_3.rect t)).set ↔ _
  rw [View.set_slice_whole, Rect.mem_set_unit]
  exact Iff.rfl

/-- Row r is in the block of point r / 256, and every point writes its block back. -/
theorem cover0_3 (i : S8192x1.Idx) : ∃ t : Fin cfg0.N, (cfg0.win 3).flush t = true ∧ i ∈ ((cfg0.win 3).blk t).view.set := by
  have hi0 : (i 0).val < 8192 := idx2_lt0 i
  have hi1 : (i 1).val < 1 := idx2_lt1 i
  have hN : cfg0.N = 32 := N_0
  refine ⟨⟨(i 0).val / 256, by omega⟩, flush0_3 _, ?_⟩
  rw [mem_blk0_3]
  obtain ⟨-, -, -, ⟨e0, e1⟩, -⟩ := index0_facts ⟨(i 0).val / 256, by omega⟩
  intro a
  match a with
  | ⟨0, _⟩ => show win0_3.index _ (0 : Fin 2) * 256 ≤ (i 0).val ∧ (i 0).val < win0_3.index _ (0 : Fin 2) * 256 + 256; rw [e0]; dsimp only; omega
  | ⟨1, _⟩ => show win0_3.index _ (1 : Fin 2) * 1 ≤ (i 1).val ∧ (i 1).val < win0_3.index _ (1 : Fin 2) * 1 + 1; rw [e1]; omega

/-- So the query mask ends as that function on the whole array. -/
theorem arr0_3_final (c : Dev nD) : (dat0 V c).arrAt 3 cfg0.N = Qmask0 V c :=
  (dat0 V c).arrAt_eq_of_cover 3 (Qmask0 V c) (fun t _ => flushed0_3_eq V c t) cover0_3

/-- The query mask after the region, at row r: whether the row is selected. -/
theorem qmask_final (c : Dev nD) (r : Fin 8192) :
    ((dat0 V c).arrAt 3 cfg0.N) (ix2 r (0 : Fin 1)) = ind (rowSel (X0 V c r) (C0 V c) (ln0 V c)) := by
  rw [arr0_3_final]
  rfl

/-! ## The column mask: the accumulator after the last point -/

/-- The rows of the block at point t with bit j set are the rows of x from 256 t up to 256 (t + 1) with bit j set. -/
theorem msk0_exists (c : Dev nD) (t : Fin cfg0.N) (j : Fin 32) :
    (∃ p : Fin 256, msk0 (iblk0 V c 0 t) (iblk0 V c 1 t) (iblk0 V c 2 t) (ix2 p j) = 1#1)
      ↔ ∃ r : Fin 8192, 256 * t.val ≤ r.val ∧ r.val < 256 * (t.val + 1) ∧ bitR (X0 V c r) (C0 V c) (ln0 V c) j = 1#1 := by
  constructor
  · rintro ⟨p, hp⟩
    rw [msk0_apply V c t p j] at hp
    have hpl := p.isLt
    exact ⟨⟨256 * t.val + p.val, row0_lt t p⟩, by dsimp only; omega, by dsimp only; omega, hp⟩
  · rintro ⟨r, h1, h2, hr⟩
    have hp : r.val - 256 * t.val < 256 := by omega
    refine ⟨⟨r.val - 256 * t.val, hp⟩, ?_⟩
    rw [msk0_apply V c t ⟨r.val - 256 * t.val, hp⟩ j]
    have key : ∀ r' : Fin 8192, r' = r → bitR (X0 V c r') (C0 V c) (ln0 V c) j = 1#1 := fun r' e => e ▸ hr
    exact key _ (Fin.ext (by dsimp only; omega))

/-- The accumulator after point n, at cluster j: whether some row below 256 (n + 1) has bit j set. At the first point
    the maximum of zero and an indicator is the indicator; afterwards the maximum of two indicators is the indicator of
    the disjunction, and a row below 256 (n + 2) is below 256 (n + 1) or in block n + 1. -/
theorem accAt0_apply (c : Dev nD) : ∀ (n : ℕ) (h : n < cfg0.N) (j : Fin 32),
    accAt0 V c n h (ix2 (0 : Fin 1) j)
      = ind (∃ r : Fin 8192, r.val < 256 * (n + 1) ∧ bitR (X0 V c r) (C0 V c) (ln0 V c) j = 1#1)
  | 0, h, j => by
    rw [accAt0_zero]
    refine (k0_pay3_apply (msk0 (iblk0 V c 0 ⟨0, h⟩) (iblk0 V c 1 ⟨0, h⟩) (iblk0 V c 2 ⟨0, h⟩)) (k0_pay4 (F := Ideal)) j).trans ?_
    rw [k0_pay4_apply, max_zero_ind]
    refine congrArg ind (propext ((msk0_exists V c ⟨0, h⟩ j).trans ?_))
    constructor
    · rintro ⟨r, h1, h2, hr⟩; exact ⟨r, by dsimp only at h2; omega, hr⟩
    · rintro ⟨r, h1, hr⟩; exact ⟨r, by dsimp only; omega, by dsimp only; omega, hr⟩
  | n + 1, h, j => by
    rw [accAt0_succ]
    refine (k0_pay3_apply (msk0 (iblk0 V c 0 ⟨n + 1, h⟩) (iblk0 V c 1 ⟨n + 1, h⟩) (iblk0 V c 2 ⟨n + 1, h⟩)) (accAt0 V c n (Nat.lt_of_succ_lt h)) j).trans ?_
    rw [accAt0_apply c n (Nat.lt_of_succ_lt h) j, Cert.Spec.max_ind]
    refine congrArg ind (propext ?_)
    rw [msk0_exists V c ⟨n + 1, h⟩ j]
    constructor
    · rintro (⟨r, h1, hr⟩ | ⟨r, h1, h2, hr⟩)
      · exact ⟨r, by omega, hr⟩
      · exact ⟨r, by dsimp only at h2; omega, hr⟩
    · rintro ⟨r, h1, hr⟩
      by_cases hlt : r.val < 256 * (n + 1)
      · exact Or.inl ⟨r, hlt, hr⟩
      · exact Or.inr ⟨r, by dsimp only; omega, by dsimp only; omega, hr⟩

/-- The last point of the grid. -/
theorem last0_lt : 31 < cfg0.N := by rw [show cfg0.N = 32 from N_0]; decide

/-- The one write-back of the column mask, after the last point, writes the accumulator: the block is the whole array. -/
theorem flushed0_4_eq (c : Dev nD) (t : Fin cfg0.N) (hf : (cfg0.win 4).flush t = true) :
    (dat0 V c).flushed 4 t = ((cfg0.win 4).blk t).view.read (Elt Ideal) (accAt0 V c 31 last0_lt) := by
  have hN : cfg0.N = 32 := N_0
  have h31 : t.val = 31 := by have := (flush0_4 t).mp hf; have := t.isLt; omega
  obtain rfl : t = ⟨31, last0_lt⟩ := Fin.ext h31
  show (cfg0.win 4).cut (grid0.coords ⟨31, last0_lt⟩) ((dat0 V c).after 4 ⟨31, last0_lt⟩) = _
  rw [after0_4]
  obtain ⟨-, -, -, -, ⟨e0, e1⟩⟩ := index0_facts ⟨31, last0_lt⟩
  funext y
  show accAt0 V c 31 last0_lt y = accAt0 V c 31 last0_lt (((cfg0.win 4).blk ⟨31, last0_lt⟩).view.emb y)
  congr 1
  funext a; apply Fin.ext
  match a with
  | ⟨0, _⟩ => show (y 0).val = win0_4.index ⟨31, last0_lt⟩ (0 : Fin 2) * 1 + 1 * (y 0).val; omega
  | ⟨1, _⟩ => show (y 1).val = win0_4.index ⟨31, last0_lt⟩ (1 : Fin 2) * 32 + 1 * (y 1).val; omega

/-- An index of the column mask is in the block iff each coordinate is in the block's range on its axis. -/
theorem mem_blk0_4 (t : Fin cfg0.N) (i : S1x32.Idx) :
    i ∈ ((cfg0.win 4).blk t).view.set ↔ ∀ a : Fin 2, win0_4.index t a * S1x32.size a ≤ (i a).val ∧ (i a).val < win0_4.index t a * S1x32.size a + S1x32.size a := by
  show i ∈ ((View.whole main_v44_1).slice (win0_4.rect t)).set ↔ _
  rw [View.set_slice_whole, Rect.mem_set_unit]
  exact Iff.rfl

/-- Every index of the column mask is in the block the last point writes back. -/
theorem cover0_4 (i : S1x32.Idx) : ∃ t : Fin cfg0.N, (cfg0.win 4).flush t = true ∧ i ∈ ((cfg0.win 4).blk t).view.set := by
  refine ⟨⟨31, last0_lt⟩, (flush0_4 _).mpr rfl, ?_⟩
  rw [mem_blk0_4]
  obtain ⟨-, -, -, -, ⟨e0, e1⟩⟩ := index0_facts ⟨31, last0_lt⟩
  have hi0 : (i 0).val < 1 := idx2_lt0 i
  have hi1 : (i 1).val < 32 := idx2_lt1 i
  intro a
  match a with
  | ⟨0, _⟩ => show win0_4.index ⟨31, last0_lt⟩ (0 : Fin 2) * 1 ≤ (i 0).val ∧ (i 0).val < win0_4.index ⟨31, last0_lt⟩ (0 : Fin 2) * 1 + 1; omega
  | ⟨1, _⟩ => show win0_4.index ⟨31, last0_lt⟩ (1 : Fin 2) * 32 ≤ (i 1).val ∧ (i 1).val < win0_4.index ⟨31, last0_lt⟩ (1 : Fin 2) * 32 + 32; omega

/-- So the column mask ends as the accumulator after the last point. -/
theorem arr0_4_final (c : Dev nD) : (dat0 V c).arrAt 4 cfg0.N = accAt0 V c 31 last0_lt :=
  (dat0 V c).arrAt_eq_of_cover 4 (accAt0 V c 31 last0_lt) (flushed0_4_eq V c) cover0_4

/-- The column mask after the region, at cluster j: whether the cluster is selected. -/
theorem cmask_final (c : Dev nD) (j : Fin 32) :
    ((dat0 V c).arrAt 4 cfg0.N) (ix2 (0 : Fin 1) j) = ind (colSel (X0 V c) (C0 V c) (ln0 V c) j) := by
  rw [arr0_4_final, accAt0_apply V c 31 last0_lt j]
  refine congrArg ind (propext ?_)
  unfold colSel
  constructor
  · rintro ⟨r, -, hr⟩; exact ⟨r, hr⟩
  · rintro ⟨r, hr⟩; exact ⟨r, by have := r.isLt; omega, hr⟩

end Cert.KernelIdeal.Hand

end
-- ==== Proof.KI.ArrVal1.lean ====
/-
  What region 1 leaves in its output array, read at an index at the ideal values: block t of the result holds,
  at (p, o), the affine map of row 128 t + p of x times that row's query-mask entry times column o's mask entry;
  the 64 blocks tile the 8192 rows, so the array after the last point is that function of (r, o) everywhere.
-/
import proofs.«116196_j17523466567937_1_alg».proof.Proof.KI.Region1
import proofs.«116196_j17523466567937_1_alg».proof.Proof.KI.MaskVal
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The arrays region 1 reads, each at its literal type: x, the transposed weights, the bias row, the query
    mask column, the column mask row. -/
abbrev xA (c : Dev nD) : S8192x4096.Idx → EReal := V c main_v0
abbrev wA (c : Dev nD) : S4096x4096.Idx → EReal := V c main_v41
abbrev bA (c : Dev nD) : S1x4096.Idx → EReal := V c main_v43
abbrev qA (c : Dev nD) : S8192x1.Idx → EReal := V c main_v44_0
abbrev kA (c : Dev nD) : S1x4096.Idx → EReal := V c main_v46

/-! ## The index maps -/

theorem zeroOff : (![0, 0] : Fin 2 → Nat) = fun _ => 0 :=
  funext fun a => match a with | ⟨0, _⟩ => rfl | ⟨1, _⟩ => rfl

/-- At each of the 64 points `t`: the windows over x, the query mask and the result sit at block `t` of rows;
    the windows over the weights, the bias row and the column mask sit at their single block. -/
theorem index1_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The closed form -/

/-- The masked affine map at row `r`, column `o`, of the arrays the region is entered with. -/
def rowcol (c : Dev nD) (r : Fin 8192) (o : Fin 4096) : EReal :=
  ((∑ k : Fin 4096, xA V c (ix2 r k) * wA V c (ix2 k o)) + bA V c (ix2 (0 : Fin 1) o))
      * qA V c (ix2 r (0 : Fin 1)) * kA V c (ix2 (0 : Fin 1) o)

/-- The same, as one function of the result array's index. -/
def Gout (c : Dev nD) : S8192x4096.Idx → EReal := fun i => rowcol V c (i 0) (i 1)

theorem Gout_ix2 (c : Dev nD) (r : Fin 8192) (o : Fin 4096) : Gout V c (ix2 r o) = rowcol V c r o := rfl

/-! ## Each input block, read where the result's block says -/

/-- Row `p` of block `t` of x is row `128 t + p` of x. -/
theorem x_blk (c : Dev nD) (t : Fin cfg1.N) (p : Fin 128) (k : Fin 4096) (r : Fin 8192) (hr : r.val = 128 * t.val + p.val) :
    (iblk1 V c 0 t : S128x4096.Idx → EReal) (ix2 p k) = xA V c (ix2 r k) := by
  show xA V c (((cfg1.win 0).blk t).view.emb (ix2 p k)) = xA V c (ix2 r k)
  congr 1
  funext a; apply Fin.ext
  obtain ⟨e0, e1, -⟩ := index1_facts t
  match a with
  | ⟨0, _⟩ => show win1_0.index t (0 : Fin 2) * 128 + 1 * p.val = r.val; omega
  | ⟨1, _⟩ => show win1_0.index t (1 : Fin 2) * 4096 + 1 * k.val = k.val; omega

/-- The weight window's one block is the whole matrix. -/
theorem w_blk (c : Dev nD) (t : Fin cfg1.N) (k o : Fin 4096) :
    (iblk1 V c 1 t : S4096x4096.Idx → EReal) (ix2 k o) = wA V c (ix2 k o) := by
  show wA V c (((cfg1.win 1).blk t).view.emb (ix2 k o)) = wA V c (ix2 k o)
  congr 1
  funext a; apply Fin.ext
  obtain ⟨-, -, e0, e1, -⟩ := index1_facts t
  match a with
  | ⟨0, _⟩ => show win1_1.index t (0 : Fin 2) * 4096 + 1 * k.val = k.val; omega
  | ⟨1, _⟩ => show win1_1.index t (1 : Fin 2) * 4096 + 1 * o.val = o.val; omega

/-- The bias window's one block is the whole row. -/
theorem b_blk (c : Dev nD) (t : Fin cfg1.N) (o : Fin 4096) :
    (iblk1 V c 2 t : S1x4096.Idx → EReal) (ix2 (0 : Fin 1) o) = bA V c (ix2 (0 : Fin 1) o) := by
  show bA V c (((cfg1.win 2).blk t).view.emb (ix2 (0 : Fin 1) o)) = bA V c (ix2 (0 : Fin 1) o)
  congr 1
  funext a; apply Fin.ext
  obtain ⟨-, -, -, -, e0, e1, -⟩ := index1_facts t
  match a with
  | ⟨0, _⟩ => show win1_2.index t (0 : Fin 2) * 1 + 1 * 0 = 0; omega
  | ⟨1, _⟩ => show win1_2.index t (1 : Fin 2) * 4096 + 1 * o.val = o.val; omega

/-- Row `p` of block `t` of the query mask is row `128 t + p` of the mask. -/
theorem q_blk (c : Dev nD) (t : Fin cfg1.N) (p : Fin 128) (r : Fin 8192) (hr : r.val = 128 * t.val + p.val) :
    (iblk1 V c 3 t : S128x1.Idx → EReal) (ix2 p (0 : Fin 1)) = qA V c (ix2 r (0 : Fin 1)) := by
  show qA V c (((cfg1.win 3).blk t).view.emb (ix2 p (0 : Fin 1))) = qA V c (ix2 r (0 : Fin 1))
  congr 1
  funext a; apply Fin.ext
  obtain ⟨-, -, -, -, -, -, e0, e1, -⟩ := index1_facts t
  match a with
  | ⟨0, _⟩ => show win1_3.index t (0 : Fin 2) * 128 + 1 * p.val = r.val; omega
  | ⟨1, _⟩ => show win1_3.index t (1 : Fin 2) * 1 + 1 * 0 = 0; omega

/-- The column mask window's one block is the whole row. -/
theorem m_blk (c : Dev nD) (t : Fin cfg1.N) (o : Fin 4096) :
    (iblk1 V c 4 t : S1x4096.Idx → EReal) (ix2 (0 : Fin 1) o) = kA V c (ix2 (0 : Fin 1) o) := by
  show kA V c (((cfg1.win 4).blk t).view.emb (ix2 (0 : Fin 1) o)) = kA V c (ix2 (0 : Fin 1) o)
  congr 1
  funext a; apply Fin.ext
  obtain ⟨-, -, -, -, -, -, -, -, e0, e1, -⟩ := index1_facts t
  match a with
  | ⟨0, _⟩ => show win1_4.index t (0 : Fin 2) * 1 + 1 * 0 = 0; omega
  | ⟨1, _⟩ => show win1_4.index t (1 : Fin 2) * 4096 + 1 * o.val = o.val; omega

/-! ## What a point writes back -/

/-- The body's store at point `t`, at (p, o), is the closed form at row `128 t + p`, column `o`. -/
theorem block_at (c : Dev nD) (t : Fin cfg1.N) (p : Fin 128) (o : Fin 4096) (r : Fin 8192) (hr : r.val = 128 * t.val + p.val) :
    k1_pay1 (F := Ideal) (iblk1 V c 0 t) (iblk1 V c 1 t) (iblk1 V c 2 t) (iblk1 V c 3 t) (iblk1 V c 4 t) (ix2 p o)
      = rowcol V c r o := by
  rw [k1_pay1_apply]
  unfold rowcol
  have hx : ∀ k : Fin 4096, (iblk1 V c 0 t : S128x4096.Idx → EReal) (ix2 p k) = xA V c (ix2 r k) := fun k => x_blk V c t p k r hr
  have hw : ∀ k : Fin 4096, (iblk1 V c 1 t : S4096x4096.Idx → EReal) (ix2 k o) = wA V c (ix2 k o) := fun k => w_blk V c t k o
  simp only [hx, hw, b_blk V c t o, q_blk V c t p r hr, m_blk V c t o]

/-- Point `t` writes back block `t` of the closed form. -/
theorem flushed1_eq (c : Dev nD) (t : Fin cfg1.N) :
    (dat1 V c).flushed 5 t = ((cfg1.win 5).blk t).view.read (Elt Ideal) (Gout V c) := by
  show (cfg1.win 5).cut (grid1.coords t) ((dat1 V c).after 5 t) = _
  rw [after1_5]
  unfold out1_5
  rw [View.canon_unit_zero zeroOff]
  simp only [View.ld_unit_zero (S := S128x4096) zeroOff, View.ld_unit_zero (S := S4096x4096) zeroOff,
    View.ld_unit_zero (S := S1x4096) zeroOff, View.ld_unit_zero (S := S128x1) zeroOff]
  funext j
  have ht : t.val < 64 := lt_of_lt_of_eq t.isLt N_1
  have hj0 : (j 0).val < 128 := (j 0).isLt
  have hj1 : (j 1).val < 4096 := (j 1).isLt
  obtain ⟨-, -, -, -, -, -, -, -, -, -, e0, e1⟩ := index1_facts t
  have hemb : ((cfg1.win 5).blk t).view.emb j
      = ix2 (⟨128 * t.val + (j 0).val, by omega⟩ : Fin 8192) (⟨(j 1).val, hj1⟩ : Fin 4096) := by
    funext a; apply Fin.ext
    match a with
    | ⟨0, _⟩ => show win1_5.index t (0 : Fin 2) * 128 + 1 * (j 0).val = 128 * t.val + (j 0).val; omega
    | ⟨1, _⟩ => show win1_5.index t (1 : Fin 2) * 4096 + 1 * (j 1).val = (j 1).val; omega
  show k1_pay1 (F := Ideal) (iblk1 V c 0 t) (iblk1 V c 1 t) (iblk1 V c 2 t) (iblk1 V c 3 t) (iblk1 V c 4 t) j
      = Gout V c (((cfg1.win 5).blk t).view.emb j)
  rw [hemb, Gout_ix2]
  exact block_at V c t ⟨(j 0).val, hj0⟩ ⟨(j 1).val, hj1⟩ _ rfl

/-! ## The blocks tile the array -/

/-- An index of the result array lies in point `t`'s block exactly when each coordinate lies in the block's range. -/
theorem mem_blk5 (t : Fin cfg1.N) (i : S8192x4096.Idx) :
    i ∈ ((cfg1.win 5).blk t).view.set ↔ ∀ a : Fin 2, win1_5.index t a * S128x4096.size a ≤ (i a).val
      ∧ (i a).val < win1_5.index t a * S128x4096.size a + S128x4096.size a := by
  show i ∈ ((View.whole main_v47).slice (win1_5.rect t)).set ↔ _
  rw [View.set_slice_whole, Rect.mem_set_unit]
  exact Iff.rfl

/-- Row `r` lies in the block of point `r / 128`, and every point writes its block back. -/
theorem cover5 (i : S8192x4096.Idx) :
    ∃ t : Fin cfg1.N, (cfg1.win 5).flush t = true ∧ i ∈ ((cfg1.win 5).blk t).view.set := by
  have hi0 : (i 0).val < 8192 := (i 0).isLt
  have hi1 : (i 1).val < 4096 := (i 1).isLt
  obtain ⟨t, ht⟩ : ∃ t : Fin cfg1.N, t.val = (i 0).val / 128 :=
    ⟨⟨(i 0).val / 128, lt_of_lt_of_eq (by omega : (i 0).val / 128 < 64) N_1.symm⟩, rfl⟩
  refine ⟨t, flush1_5 t, ?_⟩
  rw [mem_blk5]
  obtain ⟨-, -, -, -, -, -, -, -, -, -, e0, e1⟩ := index1_facts t
  intro a
  match a with
  | ⟨0, _⟩ =>
    show win1_5.index t (0 : Fin 2) * 128 ≤ (i 0).val ∧ (i 0).val < win1_5.index t (0 : Fin 2) * 128 + 128
    omega
  | ⟨1, _⟩ =>
    show win1_5.index t (1 : Fin 2) * 4096 ≤ (i 1).val ∧ (i 1).val < win1_5.index t (1 : Fin 2) * 4096 + 4096
    omega

/-- The result array after the last point is the closed form. -/
theorem arr_final (c : Dev nD) : (dat1 V c).arrAt 5 cfg1.N = Gout V c :=
  (dat1 V c).arrAt_eq_of_cover 5 (Gout V c) (fun t _ => flushed1_eq V c t) cover5

/-- The result array after the region, at (r, o). -/
theorem out_final (c : Dev nD) (r : Fin 8192) (o : Fin 4096) :
    ((dat1 V c).arrAt 5 cfg1.N : S8192x4096.Idx → EReal) (ix2 r o)
      = ((∑ k : Fin 4096, xA V c (ix2 r k) * wA V c (ix2 k o)) + bA V c (ix2 (0 : Fin 1) o))
          * qA V c (ix2 r (0 : Fin 1)) * kA V c (ix2 (0 : Fin 1) o) :=
  (congrFun (arr_final V c) (ix2 r o)).trans (Gout_ix2 V c r o)

end Cert.KernelIdeal.Hand

end
-- ==== Proof.KI.HostTerm.lean ====
/-
  The operands the first host stretch builds for the two kernels, as functions of the arguments: x as an
  8192 x 4096 matrix, and the two expanded weight matrices read out of the codebooks (entry (n, 128 c + k) is
  codebook c's sub-vector number code(c, n), component k; a negative code i stands for i + 256), transposed.
  Each definition is the program's own operations in the program's order.
-/
import proofs.«116196_j17523466567937_1_alg».proof.KernelIdeal

set_option synthInstance.maxSize 4096

noncomputable section

namespace Cert.KernelIdeal.HostTerm

open Idealize.ShloMosaic Idealize.SL.Sem
open Cert.KernelIdeal.Facts₀ Cert.KernelIdeal.Facts

variable {F : FTy → Type} [FloatOps F] [Facts]

def x2 (a0 : FVec F S4x2048x4096 .f32) : FVec F S8192x4096 .f32 :=
  shapeCast S8192x4096 a0 shapeCasts_S4x2048x4096_S8192x4096

def rowIdx : IVec S32x1 32 :=
  select
    (cmpi .slt (broadcastInDim S32x1 ![0] bcast_S32_S32x1_0 (iotaInDim S32 32 0))
      (broadcastInDim S32x1 ![] bcast_S_S32x1 (constantI S_ 32 0#32)))
    (addi (broadcastInDim S32x1 ![0] bcast_S32_S32x1_0 (iotaInDim S32 32 0))
      (broadcastInDim S32x1 ![] bcast_S_S32x1 (constantI S_ 32 32#32)))
    (broadcastInDim S32x1 ![0] bcast_S32_S32x1_0 (iotaInDim S32 32 0))

def wrapA (a5 : IVec S32x32 32) : IVec S32x32 32 :=
  select (cmpi .slt a5 (broadcastInDim S32x32 ![] bcast_S_S32x32 (constantI S_ 32 0#32)))
    (addi a5 (broadcastInDim S32x32 ![] bcast_S_S32x32 (constantI S_ 32 256#32)))
    a5

def idxA (a5 : IVec S32x32 32) : IVec S32x32x2 32 :=
  concatenate S32x32x2 2
    [⟨S32x32x1, broadcastInDim S32x32x1 ![0, 1] bcast_S32x32_S32x32x1_0_1
        (broadcastInDim S32x32 ![0, 1] bcast_S32x1_S32x32_0_1 rowIdx)⟩,
     ⟨S32x32x1, broadcastInDim S32x32x1 ![0, 1] bcast_S32x32_S32x32x1_0_1 (wrapA a5)⟩]
    concatenates_S32x32x1_S32x32x1_S32x32x2_d2

def cw (a1 : FVec F S32x256x128 .f32) (a5 : IVec S32x32 32) : FVec F S32x4096 .f32 :=
  shapeCast S32x4096
    (transpose S32x32x128 [1, 0, 2]
      (Host.gather gather_S32x256x128_S32x32x2_S32x32x128_2_01_n_n_01_2_11128 a1 (idxA a5))
      transposes_S32x32x128_S32x32x128_1_0_2)
    shapeCasts_S32x32x128_S32x4096

def cwT (cwv : FVec F S32x4096 .f32) : FVec F S4096x32 .f32 :=
  transpose S4096x32 [1, 0] cwv transposes_S32x4096_S4096x32_1_0

def wrapB (a4 : IVec S32x4096 32) : IVec S32x4096 32 :=
  select (cmpi .slt a4 (broadcastInDim S32x4096 ![] bcast_S_S32x4096 (constantI S_ 32 0#32)))
    (addi a4 (broadcastInDim S32x4096 ![] bcast_S_S32x4096 (constantI S_ 32 256#32)))
    a4

def idxB (a4 : IVec S32x4096 32) : IVec S32x4096x2 32 :=
  concatenate S32x4096x2 2
    [⟨S32x4096x1, broadcastInDim S32x4096x1 ![0, 1] bcast_S32x4096_S32x4096x1_0_1
        (broadcastInDim S32x4096 ![0, 1] bcast_S32x1_S32x4096_0_1 rowIdx)⟩,
     ⟨S32x4096x1, broadcastInDim S32x4096x1 ![0, 1] bcast_S32x4096_S32x4096x1_0_1 (wrapB a4)⟩]
    concatenates_S32x4096x1_S32x4096x1_S32x4096x2_d2

def wmat (a1 : FVec F S32x256x128 .f32) (a4 : IVec S32x4096 32) : FVec F S4096x4096 .f32 :=
  shapeCast S4096x4096
    (transpose S4096x32x128 [1, 0, 2]
      (Host.gather gather_S32x256x128_S32x4096x2_S32x4096x128_2_01_n_n_01_2_11128 a1 (idxB a4))
      transposes_S32x4096x128_S4096x32x128_1_0_2)
    shapeCasts_S4096x32x128_S4096x4096

def wT (w : FVec F S4096x4096 .f32) : FVec F S4096x4096 .f32 :=
  transpose S4096x4096 [1, 0] w transposes_S4096x4096_S4096x4096_1_0

end Cert.KernelIdeal.HostTerm

end
-- ==== Proof.KI.HostVal.lean ====
/-
  Three of the operands the first host stretch builds, read by name from the contents region 0 is entered with:
  x as an 8192 x 4096 matrix is the reshape of the first argument; the layer-norm weight row and the bias row are
  the fourth and the third argument with a unit axis in front. Each is one operation of the stretch applied to an
  argument no operation of the stretch writes.
-/
import proofs.«116196_j17523466567937_1_alg».proof.Proof.KI.Run
import proofs.«116196_j17523466567937_1_alg».proof.Proof.KI.HostTerm
import Idealize.ShloMosaic.Lib.StableHlo.Run
import Idealize.ShloMosaic.PureOps.Ideal

set_option maxRecDepth 16384

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-- x as a matrix: the first argument reshaped. -/
theorem V1_v0 (c : Dev nD) :
    (V1 m ρ c main_v0 : S8192x4096.Idx → EReal)
      = HostTerm.x2 (F := Ideal) (m ((c.tc : Thread nD τ).loc main_arg0) : FVec Ideal S4x2048x4096 .f32) := by
  show StableHlo.after hostOps0 _ (Proc.devRef .tc main_v0) = _
  after_results
  rfl

/-- The layer-norm weight row: the fourth argument as a one-row matrix. -/
theorem V1_v42 (c : Dev nD) :
    (V1 m ρ c main_v42 : S1x32.Idx → EReal)
      = shapeCast S1x32 (m ((c.tc : Thread nD τ).loc main_arg3) : FVec Ideal S32 .f32) shapeCasts_S32_S1x32 := by
  show StableHlo.after hostOps0 _ (Proc.devRef .tc main_v42) = _
  after_results
  rfl

/-- The bias row: the third argument as a one-row matrix. -/
theorem V1_v43 (c : Dev nD) :
    (V1 m ρ c main_v43 : S1x4096.Idx → EReal)
      = shapeCast S1x4096 (m ((c.tc : Thread nD τ).loc main_arg2) : FVec Ideal S4096 .f32) shapeCasts_S4096_S1x4096 := by
  show StableHlo.after hostOps0 _ (Proc.devRef .tc main_v43) = _
  after_results
  rfl

end Cert.KernelIdeal.Hand

end
-- ==== Proof.KI.HostValC.lean ====
/-
  What the first host stretch leaves in the buffer the routing kernel reads its centroid matrix from: the
  centroids' codes wrapped, paired with the codebook numbers, gathered out of the codebooks, re-laid as a
  32 x 4096 matrix and transposed — the named composition of the program's own operations.
-/
import proofs.«116196_j17523466567937_1_alg».proof.Proof.KI.Run
import proofs.«116196_j17523466567937_1_alg».proof.Proof.KI.HostTerm
import Idealize.ShloMosaic.Lib.StableHlo.Run
import Idealize.ShloMosaic.PureOps.Ideal

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

set_option maxHeartbeats 4000000 in
theorem V1_v39 (c : Dev nD) :
    (V1 m ρ c main_v39 : S4096x32.Idx → EReal)
      = HostTerm.cwT (F := Ideal) (HostTerm.cw (F := Ideal) (m ((c.tc : Thread nD τ).loc main_arg1) : FVec Ideal S32x256x128 .f32)
          (m ((c.tc : Thread nD τ).loc main_arg5) : IVec S32x32 32)) := by
  show StableHlo.after hostOps0 _ (Proc.devRef .tc main_v39) = _
  after_results
  rfl

end Cert.KernelIdeal.Hand

end
-- ==== Proof.KI.HostValW.lean ====
/-
  What the first host stretch leaves in the buffer the linear kernel reads its weights from: the weights' codes
  wrapped, paired with the codebook numbers, gathered out of the codebooks, re-laid as a 4096 x 4096 matrix,
  transposed and converted to the narrower float format (the identity at the ideal values) — the named
  composition of the program's own operations.
-/
import proofs.«116196_j17523466567937_1_alg».proof.Proof.KI.Run
import proofs.«116196_j17523466567937_1_alg».proof.Proof.KI.HostTerm
import Idealize.ShloMosaic.Lib.StableHlo.Run
import Idealize.ShloMosaic.PureOps.Ideal

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

set_option maxHeartbeats 4000000 in
theorem V1_v41 (c : Dev nD) :
    (V1 m ρ c main_v41 : S4096x4096.Idx → EReal)
      = truncf (F := Ideal) .bf16 (HostTerm.wT (F := Ideal) (HostTerm.wmat (F := Ideal) (m ((c.tc : Thread nD τ).loc main_arg1) : FVec Ideal S32x256x128 .f32)
          (m ((c.tc : Thread nD τ).loc main_arg4) : IVec S32x4096 32))) bitsLt_bf16_f32 := by
  show StableHlo.after hostOps0 _ (Proc.devRef .tc main_v41) = _
  after_results
  rfl

end Cert.KernelIdeal.Hand

end
-- ==== Proof.KI.KVal.lean ====
/-
  The kernel program's result as a function of its arguments, at the ideal values. The first host stretch builds
  x as a matrix, the two expanded weight matrices, the weight row and the bias row; region 0 leaves the query
  mask (row r selected or not) and the column mask (cluster j selected or not); the second stretch repeats each
  cluster's entry over its 128 columns; region 1 leaves, at (r, o), the affine map of row r times the two mask
  entries; the last operation reshapes. The product of two indicators is the indicator of the conjunction, so the
  result before the reshape is the specification.
-/
import proofs.«116196_j17523466567937_1_alg».proof.Proof.KI.Run
import proofs.«116196_j17523466567937_1_alg».proof.Proof.KI.ArrVal0
import proofs.«116196_j17523466567937_1_alg».proof.Proof.KI.ArrVal1
import proofs.«116196_j17523466567937_1_alg».proof.Proof.KI.HostTerm
import proofs.«116196_j17523466567937_1_alg».proof.Proof.KI.HostVal
import proofs.«116196_j17523466567937_1_alg».proof.Proof.KI.HostValC
import proofs.«116196_j17523466567937_1_alg».proof.Proof.KI.HostValW
import Idealize.ShloMosaic.Lib.StableHlo.Run
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (m : (ℓ : Loc nD τ sig) → Buf (Elt Ideal) ℓ) (ρ : Dev nD → PrngReg)

/-- The six arguments as launched, each at its literal type. -/
abbrev arg0 (c : Dev nD) : FVec Ideal S4x2048x4096 .f32 := m ((c.tc : Thread nD τ).loc main_arg0)
abbrev arg1 (c : Dev nD) : FVec Ideal S32x256x128 .f32 := m ((c.tc : Thread nD τ).loc main_arg1)
abbrev arg2 (c : Dev nD) : FVec Ideal S4096 .f32 := m ((c.tc : Thread nD τ).loc main_arg2)
abbrev arg3 (c : Dev nD) : FVec Ideal S32 .f32 := m ((c.tc : Thread nD τ).loc main_arg3)
abbrev arg4 (c : Dev nD) : IVec S32x4096 32 := m ((c.tc : Thread nD τ).loc main_arg4)
abbrev arg5 (c : Dev nD) : IVec S32x32 32 := m ((c.tc : Thread nD τ).loc main_arg5)

/-- The result before the final reshape: what region 1 leaves in its output array. -/
abbrev K2D (c : Dev nD) : S8192x4096.Idx → EReal := W4 m ρ c (Proc.devRef .tc main_v47)

/-- The program's result is the reshape of that array. -/
theorem W5_out (c : Dev nD) :
    (W5 m ρ c (Proc.devRef .tc main_v48) : S4x2048x4096.Idx → EReal)
      = shapeCast S4x2048x4096 (K2D m ρ c) shapeCasts_S8192x4096_S4x2048x4096 := by
  show StableHlo.after hostOps2 _ (Proc.devRef .tc main_v48) = _
  after_results
  rfl

/-! ## What region 1 finds -/

/-- x is region 0's first input window: the region leaves it as entered, and the second stretch does not write it. -/
theorem V3_v0 (c : Dev nD) : V3 m ρ c main_v0 = V1 m ρ c main_v0 :=
  calc W3 m ρ c (Proc.devRef .tc main_v0)
    _ = W2 m ρ c (Proc.devRef .tc main_v0) := StableHlo.after_of_writes_sub hostOps1 _ hostOps1_writes (by decide)
    _ = W1 m ρ c (Proc.devRef .tc main_v0) :=
        (W2_arr m ρ c 0).trans (((dat0 (V1 m ρ) c).arrAt_in 0 rfl _).trans (A_eq0 (V1 m ρ) c 0))

/-- The transposed weights and the bias row are written by neither region 0 nor the second stretch. -/
theorem V3_v41 (c : Dev nD) : V3 m ρ c main_v41 = V1 m ρ c main_v41 :=
  calc W3 m ρ c (Proc.devRef .tc main_v41)
    _ = W2 m ρ c (Proc.devRef .tc main_v41) := StableHlo.after_of_writes_sub hostOps1 _ hostOps1_writes (by decide)
    _ = W1 m ρ c (Proc.devRef .tc main_v41) := W2_of_ne m ρ c main_v41 (by decide)
theorem V3_v43 (c : Dev nD) : V3 m ρ c main_v43 = V1 m ρ c main_v43 :=
  calc W3 m ρ c (Proc.devRef .tc main_v43)
    _ = W2 m ρ c (Proc.devRef .tc main_v43) := StableHlo.after_of_writes_sub hostOps1 _ hostOps1_writes (by decide)
    _ = W1 m ρ c (Proc.devRef .tc main_v43) := W2_of_ne m ρ c main_v43 (by decide)

/-- The query mask is region 0's fourth array as the region leaves it. -/
theorem V3_v44_0 (c : Dev nD) : V3 m ρ c main_v44_0 = (dat0 (V1 m ρ) c).arrAt 3 cfg0.N :=
  calc W3 m ρ c (Proc.devRef .tc main_v44_0)
    _ = W2 m ρ c (Proc.devRef .tc main_v44_0) := StableHlo.after_of_writes_sub hostOps1 _ hostOps1_writes (by decide)
    _ = (dat0 (V1 m ρ) c).arrAt 3 cfg0.N := W2_arr m ρ c 3

/-- A [1, 32] row repeated over 128 columns per entry and flattened to [1, 4096] reads, at column o, the row's
    entry o / 128: the flat position of (0, o / 128, o % 128) in [1, 32, 128] is o. -/
theorem widen_apply (x : S1x32.Idx → EReal) (o : Fin 4096) :
    shapeCast S1x4096 (broadcastInDim S1x32x128 ![0, 1] bcast_S1x32_S1x32x128_0_1 x) shapeCasts_S1x32x128_S1x4096
        (ix2 (0 : Fin 1) o)
      = x (ix2 (0 : Fin 1) (⟨o.val / 128, by have := o.isLt; omega⟩ : Fin 32)) := by
  have ho := o.isLt
  refine (shapeCast_apply _ _ (ix2 (0 : Fin 1) o)
    (ix3 (0 : Fin 1) (⟨o.val / 128, by omega⟩ : Fin 32) (⟨o.val % 128, Nat.mod_lt _ (by decide)⟩ : Fin 128)) ?_).trans ?_
  · rw [Shape.rowMajor_val_three, Shape.rowMajor_val_two]
    show (0 * 32 + o.val / 128) * 128 + o.val % 128 = 0 * 4096 + o.val
    omega
  · exact broadcastInDim_apply _ _ _ _ _ (fun a => match a with | ⟨0, _⟩ => rfl | ⟨1, _⟩ => rfl)

/-- The widened column mask: the second stretch's two operations over region 0's fifth array. -/
theorem V3_v46 (c : Dev nD) :
    (V3 m ρ c main_v46 : S1x4096.Idx → EReal)
      = shapeCast S1x4096 (broadcastInDim S1x32x128 ![0, 1] bcast_S1x32_S1x32x128_0_1
          ((dat0 (V1 m ρ) c).arrAt 4 cfg0.N : S1x32.Idx → EReal)) shapeCasts_S1x32x128_S1x4096 := by
  have e : (W2 m ρ c (Proc.devRef .tc main_v44_1) : S1x32.Idx → EReal) = (dat0 (V1 m ρ) c).arrAt 4 cfg0.N := W2_arr m ρ c 4
  rw [← e]
  show StableHlo.after hostOps1 _ (Proc.devRef .tc main_v46) = _
  after_results
  rfl

/-! ## The operands as region 1 finds them, read by name -/

theorem xA_eq (c : Dev nD) : xA (V3 m ρ) c = HostTerm.x2 (arg0 m c) :=
  (V3_v0 m ρ c).trans (V1_v0 m ρ c)

/-- Rounding to bf16 is the identity at the ideal values. -/
theorem wA_apply (c : Dev nD) (k o : Fin 4096) :
    wA (V3 m ρ) c (ix2 k o) = HostTerm.wT (HostTerm.wmat (arg1 m c) (arg4 m c)) (ix2 k o) := by
  have e : wA (V3 m ρ) c = truncf .bf16 (HostTerm.wT (HostTerm.wmat (arg1 m c) (arg4 m c))) bitsLt_bf16_f32 :=
    (V3_v41 m ρ c).trans (V1_v41 m ρ c)
  rw [e]; rfl

/-- The bias row is the bias vector with a unit axis in front. -/
theorem bA_apply (c : Dev nD) (o : Fin 4096) : bA (V3 m ρ) c (ix2 (0 : Fin 1) o) = arg2 m c (ix1 o) := by
  have e : bA (V3 m ρ) c = shapeCast S1x4096 (arg2 m c) shapeCasts_S4096_S1x4096 :=
    (V3_v43 m ρ c).trans (V1_v43 m ρ c)
  rw [e]; exact shapeCast_a_1a_apply _ _ 0 o

/-- The three matrices region 0 reads are the first stretch's operands. -/
theorem X0_eq (c : Dev nD) : X0 (V1 m ρ) c = fun r k => HostTerm.x2 (arg0 m c) (ix2 r k) := by
  funext r k; exact congrFun (V1_v0 m ρ c) (ix2 r k)
theorem C0_eq (c : Dev nD) :
    C0 (V1 m ρ) c = fun k j => HostTerm.cwT (HostTerm.cw (arg1 m c) (arg5 m c)) (ix2 k j) := by
  funext k j; exact congrFun (V1_v39 m ρ c) (ix2 k j)
theorem ln0_eq (c : Dev nD) : ln0 (V1 m ρ) c = fun j => arg3 m c (ix1 j) := by
  funext j
  refine (congrFun (V1_v42 m ρ c) (ix2 (0 : Fin 1) j)).trans ?_
  exact shapeCast_a_1a_apply _ _ 0 j

/-- The query mask entry of row r. -/
theorem qA_apply (c : Dev nD) (r : Fin 8192) :
    qA (V3 m ρ) c (ix2 r (0 : Fin 1)) = ind (rowSel (X0 (V1 m ρ) c r) (C0 (V1 m ρ) c) (ln0 (V1 m ρ) c)) :=
  (congrFun (V3_v44_0 m ρ c) (ix2 r (0 : Fin 1))).trans (qmask_final (V1 m ρ) c r)

/-- The widened column mask at column o is the column mask at cluster o / 128. -/
theorem kA_apply (c : Dev nD) (o : Fin 4096) :
    kA (V3 m ρ) c (ix2 (0 : Fin 1) o)
      = ind (colSel (X0 (V1 m ρ) c) (C0 (V1 m ρ) c) (ln0 (V1 m ρ) c) ⟨o.val / 128, by have := o.isLt; omega⟩) := by
  refine (congrFun (V3_v46 m ρ c) (ix2 (0 : Fin 1) o)).trans ?_
  refine (widen_apply _ o).trans ?_
  exact cmask_final (V1 m ρ) c _

/-- Before the reshape the result is the specification, over the operands the first host stretch builds. -/
theorem K2D_apply (c : Dev nD) (r : Fin 8192) (o : Fin 4096) :
    K2D m ρ c (ix2 r o)
      = G (fun r' k => HostTerm.x2 (arg0 m c) (ix2 r' k))
          (fun k j => HostTerm.cwT (HostTerm.cw (arg1 m c) (arg5 m c)) (ix2 k j))
          (fun j => arg3 m c (ix1 j))
          (fun k o' => HostTerm.wT (HostTerm.wmat (arg1 m c) (arg4 m c)) (ix2 k o'))
          (fun o' => arg2 m c (ix1 o')) r o := by
  have h47 : K2D m ρ c = (dat1 (V3 m ρ) c).arrAt 5 cfg1.N := W4_arr m ρ c 5
  refine (congrFun h47 (ix2 r o)).trans ?_
  refine (out_final (V3 m ρ) c r o).trans ?_
  rw [xA_eq, bA_apply, qA_apply, kA_apply, X0_eq, C0_eq, ln0_eq, mul_assoc, ind_mul]
  simp only [wA_apply]
  rfl

end Cert.KernelIdeal.Hand

end
-- ==== Proof.RefTerm.lean ====
/-
  The reference program's value, stage by stage.

  The reference is a product-quantised linear layer with a sparsity mask: the rows of x (flattened to
  8192 × 4096) are scored against 32 centroids, the scores are layer-normalised and soft-maxed, and the
  pairs (row, cluster) whose probability exceeds one half select the rows and the output columns of the dense
  product x · Wᵀ + bias that survive. Both weight matrices are read out of a table of 32 codebooks of 256
  sub-vectors of length 128: entry (n, 128·c + k) of an expanded matrix is codebook c's sub-vector number
  code(c, n), component k.

  Each definition below is one named value of that computation, written over the values it is computed
  from with the same operations, the same shape records and the same order of operands as the program's
  text; \`refOut\` composes them into the result as a function of the six arguments.
-/
import proofs.«116196_j17523466567937_1_alg».proof.ReferenceIdeal

set_option synthInstance.maxSize 4096

noncomputable section

namespace Cert.ReferenceIdeal.RefTerm

open Idealize.ShloMosaic Idealize.SL.Sem
open Cert.ReferenceIdeal.Facts₀ Cert.ReferenceIdeal.Facts

variable {F : FTy → Type} [FloatOps F] [Facts]

/-! ## The rows of x -/

/-- x as a matrix: its 4 × 2048 leading positions in row-major order are the 8192 rows. -/
def x2 (a0 : FVec F S4x2048x4096 .f32) : FVec F S8192x4096 .f32 :=
  shapeCast S8192x4096 a0 shapeCasts_S4x2048x4096_S8192x4096

/-! ## Reading the codebooks

A code is an index into a codebook's 256 sub-vectors, read the way an array index is: a negative
code i stands for i + 256. The codebook's own number c = 0 … 31 is wrapped the same way (c + 32 when
negative, which it never is). The pair (c, code) is the start of the slice of length 128 that is read. -/

/-- The codebook numbers 0 … 31 as a column, each wrapped (c < 0 ↦ c + 32). -/
def rowIdx : IVec S32x1 32 :=
  select
    (cmpi .slt (broadcastInDim S32x1 ![0] bcast_S32_S32x1_0 (iotaInDim S32 32 0))
      (broadcastInDim S32x1 ![] bcast_S_S32x1 (constantI S_ 32 0#32)))
    (addi (broadcastInDim S32x1 ![0] bcast_S32_S32x1_0 (iotaInDim S32 32 0))
      (broadcastInDim S32x1 ![] bcast_S_S32x1 (constantI S_ 32 32#32)))
    (broadcastInDim S32x1 ![0] bcast_S32_S32x1_0 (iotaInDim S32 32 0))

/-- The centroids' codes wrapped (i < 0 ↦ i + 256). -/
def wrapA (a5 : IVec S32x32 32) : IVec S32x32 32 :=
  select (cmpi .slt a5 (broadcastInDim S32x32 ![] bcast_S_S32x32 (constantI S_ 32 0#32)))
    (addi a5 (broadcastInDim S32x32 ![] bcast_S_S32x32 (constantI S_ 32 256#32)))
    a5

/-- The start indices of the centroids' slices: at (c, n) the pair (c, code(c, n)). -/
def idxA (a5 : IVec S32x32 32) : IVec S32x32x2 32 :=
  concatenate S32x32x2 2
    [⟨S32x32x1, broadcastInDim S32x32x1 ![0, 1] bcast_S32x32_S32x32x1_0_1
        (broadcastInDim S32x32 ![0, 1] bcast_S32x1_S32x32_0_1 rowIdx)⟩,
     ⟨S32x32x1, broadcastInDim S32x32x1 ![0, 1] bcast_S32x32_S32x32x1_0_1 (wrapA a5)⟩]
    concatenates_S32x32x1_S32x32x1_S32x32x2_d2

/-- The centroids expanded, 32 × 4096: row n is, codebook after codebook, the sub-vector its code names. -/
def cw (a1 : FVec F S32x256x128 .f32) (a5 : IVec S32x32 32) : FVec F S32x4096 .f32 :=
  shapeCast S32x4096
    (transpose S32x32x128 [1, 0, 2]
      (Host.gather gather_S32x256x128_S32x32x2_S32x32x128_2_01_n_n_01_2_11128 a1 (idxA a5))
      transposes_S32x32x128_S32x32x128_1_0_2)
    shapeCasts_S32x32x128_S32x4096

/-- The expanded centroids transposed, 4096 × 32. -/
def cwT (cwv : FVec F S32x4096 .f32) : FVec F S4096x32 .f32 :=
  transpose S4096x32 [1, 0] cwv transposes_S32x4096_S4096x32_1_0

/-! ## The scores and their normalisation -/

/-- The scores: every row of x against every centroid, 8192 × 32. -/
def dots (x2v : FVec F S8192x4096 .f32) (cwTv : FVec F S4096x32 .f32) : FVec F S8192x32 .f32 :=
  Host.dotGeneral (F := F) dot_S8192x4096_S4096x32_S8192x32_1_0_0_1_n_n none x2v cwTv

/-- The mean of each row of scores: the row's sum over the 32 centroids divided by 32, as a column. -/
def mu (d : FVec F S8192x32 .f32) : FVec F S8192x1 .f32 :=
  Host.divf (F := F)
    (broadcastInDim S8192x1 ![0] bcast_S8192_S8192x1_0
      (Host.reduceAdd (F := F) d (constant (F := F) S_ .f32 0x00000000#32) reducesTo_S8192x32_S8192_d1 h_S_))
    (broadcastInDim S8192x1 ![] bcast_S_S8192x1 (constant (F := F) S_ .f32 0x42000000#32))

/-- The centred squares whose row sums the variance divides: (d − mean d)², the mean being \`mu d\`
    (the program computes it a second time, by the same operations). -/
def varSq (d : FVec F S8192x32 .f32) : FVec F S8192x32 .f32 :=
  mulf (F := F)
    (subf (F := F) d (broadcastInDim S8192x32 ![0, 1] bcast_S8192x1_S8192x32_0_1 (mu d)))
    (subf (F := F) d (broadcastInDim S8192x32 ![0, 1] bcast_S8192x1_S8192x32_0_1 (mu d)))

/-- The variance's divisor, 32 − ddof with ddof the integer 0 converted to a float. -/
def varDen : FVec F S_ .f32 :=
  subf (F := F) (constant (F := F) S_ .f32 0x42000000#32) (sitofp (F := F) .f32 (constantI S_ 32 0#32))

/-- The variance of each row of scores, as a column: the row sum of the centred squares over the
    divisor where the divisor is positive, and not-a-number elsewhere. -/
def varr (d : FVec F S8192x32 .f32) : FVec F S8192x1 .f32 :=
  select
    (broadcastInDim S8192x1 ![] bcast_S_S8192x1
      (cmpf (F := F) .ogt (varDen (F := F)) (constant (F := F) S_ .f32 0x00000000#32)))
    (Host.divf (F := F)
      (broadcastInDim S8192x1 ![0] bcast_S8192_S8192x1_0
        (Host.reduceAdd (F := F) (varSq d) (constant (F := F) S_ .f32 0x00000000#32) reducesTo_S8192x32_S8192_d1 h_S_))
      (broadcastInDim S8192x1 ![] bcast_S_S8192x1 (varDen (F := F))))
    (broadcastInDim S8192x1 ![] bcast_S_S8192x1 (id (constant (F := F) S_ .f32 0x7FC00000#32)))

/-- The normalised scores: (d − mean) · rsqrt(variance + 1e-5) · weight, the weight along the centroids. -/
def zn (d : FVec F S8192x32 .f32) (muv varv : FVec F S8192x1 .f32) (a3 : FVec F S32 .f32) :
    FVec F S8192x32 .f32 :=
  mulf (F := F)
    (mulf (F := F)
      (subf (F := F) d (broadcastInDim S8192x32 ![0, 1] bcast_S8192x1_S8192x32_0_1 muv))
      (broadcastInDim S8192x32 ![0, 1] bcast_S8192x1_S8192x32_0_1
        (Host.rsqrt (F := F)
          (addf (F := F) varv
            (broadcastInDim S8192x1 ![] bcast_S_S8192x1 (constant (F := F) S_ .f32 0x3727C5AC#32))))))
    (broadcastInDim S8192x32 ![0, 1] bcast_S1x32_S8192x32_0_1
      (broadcastInDim S1x32 ![1] bcast_S32_S1x32_1 a3))

/-! ## The probabilities and the masks -/

/-- exp(z − max of z's row), the maximum taken against −∞ first. -/
def expz (z : FVec F S8192x32 .f32) : FVec F S8192x32 .f32 :=
  Host.exp (F := F)
    (subf (F := F) z
      (broadcastInDim S8192x32 ![0, 1] bcast_S8192x1_S8192x32_0_1
        (broadcastInDim S8192x1 ![0] bcast_S8192_S8192x1_0
          (maximumf (F := F)
            (broadcastInDim S8192 ![] bcast_S_S8192 (constant (F := F) S_ .f32 0xFF800000#32))
            (Host.reduce (FloatOps.maximumf (F := F)) z (constant (F := F) S_ .f32 0xFF800000#32)
              reducesTo_S8192x32_S8192_d1 h_S_)))))

/-- The soft-max of each row: the exponentials over their row sum. -/
def soft (z : FVec F S8192x32 .f32) : FVec F S8192x32 .f32 :=
  Host.divf (F := F) (expz z)
    (broadcastInDim S8192x32 ![0, 1] bcast_S8192x1_S8192x32_0_1
      (broadcastInDim S8192x1 ![0] bcast_S8192_S8192x1_0
        (Host.reduceAdd (F := F) (expz z) (constant (F := F) S_ .f32 0x00000000#32)
          reducesTo_S8192x32_S8192_d1 h_S_)))

/-- Where the probability exceeds one half. -/
def mask (s : FVec F S8192x32 .f32) : IVec S8192x32 1 :=
  cmpf (F := F) .ogt s (broadcastInDim S8192x32 ![] bcast_S_S8192x32 (constant (F := F) S_ .f32 0x3F000000#32))

/-- The selected rows: those with some cluster above one half. -/
def qm (mk : IVec S8192x32 1) : IVec S8192 1 :=
  Host.reduce IntOp.ori mk (constantI S_ 1 0#1) reducesTo_S8192x32_S8192_d1 h_S_

/-- The selected clusters: those with some row above one half. -/
def cm (mk : IVec S8192x32 1) : IVec S32 1 :=
  Host.reduce IntOp.ori mk (constantI S_ 1 0#1) reducesTo_S8192x32_S32_d0 h_S_

/-- The selected output columns: each cluster's bit repeated over its 128 columns. -/
def km (cmv : IVec S32 1) : IVec S4096 1 :=
  shapeCast S4096 (broadcastInDim S32x128 ![0] bcast_S32_S32x128_0 cmv) shapeCasts_S32x128_S4096

/-! ## The dense layer -/

/-- The weights' codes wrapped (i < 0 ↦ i + 256). -/
def wrapB (a4 : IVec S32x4096 32) : IVec S32x4096 32 :=
  select (cmpi .slt a4 (broadcastInDim S32x4096 ![] bcast_S_S32x4096 (constantI S_ 32 0#32)))
    (addi a4 (broadcastInDim S32x4096 ![] bcast_S_S32x4096 (constantI S_ 32 256#32)))
    a4

/-- The start indices of the weights' slices: at (c, n) the pair (c, code(c, n)). -/
def idxB (a4 : IVec S32x4096 32) : IVec S32x4096x2 32 :=
  concatenate S32x4096x2 2
    [⟨S32x4096x1, broadcastInDim S32x4096x1 ![0, 1] bcast_S32x4096_S32x4096x1_0_1
        (broadcastInDim S32x4096 ![0, 1] bcast_S32x1_S32x4096_0_1 rowIdx)⟩,
     ⟨S32x4096x1, broadcastInDim S32x4096x1 ![0, 1] bcast_S32x4096_S32x4096x1_0_1 (wrapB a4)⟩]
    concatenates_S32x4096x1_S32x4096x1_S32x4096x2_d2

/-- The weight matrix expanded, 4096 × 4096: row n is, codebook after codebook, the sub-vector its code names. -/
def wmat (a1 : FVec F S32x256x128 .f32) (a4 : IVec S32x4096 32) : FVec F S4096x4096 .f32 :=
  shapeCast S4096x4096
    (transpose S4096x32x128 [1, 0, 2]
      (Host.gather gather_S32x256x128_S32x4096x2_S32x4096x128_2_01_n_n_01_2_11128 a1 (idxB a4))
      transposes_S32x4096x128_S4096x32x128_1_0_2)
    shapeCasts_S4096x32x128_S4096x4096

/-- The weight matrix transposed. -/
def wT (w : FVec F S4096x4096 .f32) : FVec F S4096x4096 .f32 :=
  transpose S4096x4096 [1, 0] w transposes_S4096x4096_S4096x4096_1_0

/-- The dense layer: x · Wᵀ plus the bias along the columns. -/
def lin (x2v : FVec F S8192x4096 .f32) (wTv : FVec F S4096x4096 .f32) (a2 : FVec F S4096 .f32) :
    FVec F S8192x4096 .f32 :=
  addf (F := F)
    (Host.dotGeneral (F := F) dot_S8192x4096_S4096x4096_S8192x4096_1_0_0_1_n_n none x2v wTv)
    (broadcastInDim S8192x4096 ![0, 1] bcast_S1x4096_S8192x4096_0_1
      (broadcastInDim S1x4096 ![1] bcast_S4096_S1x4096_1 a2))

/-- The dense layer kept at (selected row, selected column) and zero elsewhere: times the mask as 0 / 1. -/
def out2 (linv : FVec F S8192x4096 .f32) (qmv : IVec S8192 1) (kmv : IVec S4096 1) : FVec F S8192x4096 .f32 :=
  mulf (F := F) linv
    (uitofp (F := F) .f32
      (andi
        (broadcastInDim S8192x4096 ![0, 1] bcast_S8192x1_S8192x4096_0_1
          (broadcastInDim S8192x1 ![0] bcast_S8192_S8192x1_0 qmv))
        (broadcastInDim S8192x4096 ![0, 1] bcast_S1x4096_S8192x4096_0_1
          (broadcastInDim S1x4096 ![1] bcast_S4096_S1x4096_1 kmv))))

/-! ## The whole value -/

/-- The scores of the arguments. -/
def dotsOf (a0 : FVec F S4x2048x4096 .f32) (a1 : FVec F S32x256x128 .f32) (a5 : IVec S32x32 32) :
    FVec F S8192x32 .f32 :=
  dots (x2 a0) (cwT (cw a1 a5))

/-- The mask of the arguments. -/
def maskOf (a0 : FVec F S4x2048x4096 .f32) (a1 : FVec F S32x256x128 .f32) (a3 : FVec F S32 .f32)
    (a5 : IVec S32x32 32) : IVec S8192x32 1 :=
  mask (soft (zn (dotsOf a0 a1 a5) (mu (dotsOf a0 a1 a5)) (varr (dotsOf a0 a1 a5)) a3))

/-- The reference's result, 4 × 2048 × 4096, as a function of its six arguments. -/
def refOut (a0 : FVec F S4x2048x4096 .f32) (a1 : FVec F S32x256x128 .f32) (a2 : FVec F S4096 .f32)
    (a3 : FVec F S32 .f32) (a4 : IVec S32x4096 32) (a5 : IVec S32x32 32) : FVec F S4x2048x4096 .f32 :=
  shapeCast S4x2048x4096
    (out2 (lin (x2 a0) (wT (wmat a1 a4)) a2) (qm (maskOf a0 a1 a3 a5)) (km (cm (maskOf a0 a1 a3 a5))))
    shapeCasts_S8192x4096_S4x2048x4096

end Cert.ReferenceIdeal.RefTerm

end
-- ==== Proof.RefRun.lean ====
/-
  The reference program's run.

  The program is a straight line of tensor operations: its one call, and the call inside that one, are the
  callee's operations over the records of buffers the call names. Listed in order they are 126 operations,
  cut here into five consecutive windows. What a buffer holds after a window is read off the window alone, for
  an arbitrary valuation before it: the buffer's own operation gives its value from its operands', an
  operation that writes another buffer leaves it alone. Chaining the windows' equations gives each live
  buffer as a stage of `RefTerm` applied to the arguments' launch contents, and the last buffer as
  `RefTerm.refOut`; the run theorem is then the library's statement for a line of operations.
-/
import proofs.«116196_j17523466567937_1_alg».proof.Proof.RefTerm
import proofs.«116196_j17523466567937_1_alg».proof.Proof.Gen.ReferenceIdeal
import Idealize.ShloMosaic.Lib.StableHlo.Run

set_option synthInstance.maxSize 4096

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-! ## The operations -/

/-- The variance function's first operand, the scores' buffer, at its tensor type. -/
abbrev tv21 : TRef sig ⟨S8192x32, .f32⟩ := .of main_v21
/-- Its second operand, the integer 0 of the divisor, at its tensor type. -/
abbrev tc4 : TRef sig ⟨S_, .i32⟩ := .of main_c_4

/-- Window 0: the rows of x, and the centroids expanded: the wrapped codebook numbers and codes, their pairing into start indices, the gather, and the re-layout to 32 × 4096. -/
abbrev w0 : List (HloOp τ sig (Elt F)) :=
  [
    StableHlo.reshape main_arg0 main_v0 rfl shapeCasts_S4x2048x4096_S8192x4096,
    StableHlo.nullary main_v1 (iotaInDim S32 32 0),
    StableHlo.unary main_v1 main_v2 (broadcastInDim S32x1 ![0] bcast_S32_S32x1_0 : (⟨S32, .i32⟩ : BufTy).Contents (Elt F) → (⟨S32x1, .i32⟩ : BufTy).Contents (Elt F)),
    StableHlo.nullary main_c (constantI S_ 32 0#32),
    StableHlo.unary main_c main_v3 (broadcastInDim S32x1 ![] bcast_S_S32x1 : (⟨S_, .i32⟩ : BufTy).Contents (Elt F) → (⟨S32x1, .i32⟩ : BufTy).Contents (Elt F)),
    StableHlo.binary main_v2 main_v3 main_v4 (cmpi .slt : (⟨S32x1, .i32⟩ : BufTy).Contents (Elt F) → (⟨S32x1, .i32⟩ : BufTy).Contents (Elt F) → (⟨S32x1, .i1⟩ : BufTy).Contents (Elt F)),
    StableHlo.nullary main_c_0 (constantI S_ 32 32#32),
    StableHlo.unary main_c_0 main_v5 (broadcastInDim S32x1 ![] bcast_S_S32x1 : (⟨S_, .i32⟩ : BufTy).Contents (Elt F) → (⟨S32x1, .i32⟩ : BufTy).Contents (Elt F)),
    StableHlo.binary main_v2 main_v5 main_v6 (addi : (⟨S32x1, .i32⟩ : BufTy).Contents (Elt F) → (⟨S32x1, .i32⟩ : BufTy).Contents (Elt F) → (⟨S32x1, .i32⟩ : BufTy).Contents (Elt F)),
    StableHlo.ternary main_v4 main_v6 main_v2 main_v7 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    StableHlo.nullary main_c_1 (constantI S_ 32 0#32),
    StableHlo.unary main_c_1 main_v8 (broadcastInDim S32x32 ![] bcast_S_S32x32 : (⟨S_, .i32⟩ : BufTy).Contents (Elt F) → (⟨S32x32, .i32⟩ : BufTy).Contents (Elt F)),
    StableHlo.binary main_arg5 main_v8 main_v9 (cmpi .slt : (⟨S32x32, .i32⟩ : BufTy).Contents (Elt F) → (⟨S32x32, .i32⟩ : BufTy).Contents (Elt F) → (⟨S32x32, .i1⟩ : BufTy).Contents (Elt F)),
    StableHlo.nullary main_c_2 (constantI S_ 32 256#32),
    StableHlo.unary main_c_2 main_v10 (broadcastInDim S32x32 ![] bcast_S_S32x32 : (⟨S_, .i32⟩ : BufTy).Contents (Elt F) → (⟨S32x32, .i32⟩ : BufTy).Contents (Elt F)),
    StableHlo.binary main_arg5 main_v10 main_v11 (addi : (⟨S32x32, .i32⟩ : BufTy).Contents (Elt F) → (⟨S32x32, .i32⟩ : BufTy).Contents (Elt F) → (⟨S32x32, .i32⟩ : BufTy).Contents (Elt F)),
    StableHlo.ternary main_v9 main_v11 main_arg5 main_v12 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
    StableHlo.unary main_v7 main_v13 (broadcastInDim S32x32 ![0, 1] bcast_S32x1_S32x32_0_1 : (⟨S32x1, .i32⟩ : BufTy).Contents (Elt F) → (⟨S32x32, .i32⟩ : BufTy).Contents (Elt F)),
    StableHlo.unary main_v13 main_v14 (broadcastInDim S32x32x1 ![0, 1] bcast_S32x32_S32x32x1_0_1 : (⟨S32x32, .i32⟩ : BufTy).Contents (Elt F) → (⟨S32x32x1, .i32⟩ : BufTy).Contents (Elt F)),
    StableHlo.unary main_v12 main_v15 (broadcastInDim S32x32x1 ![0, 1] bcast_S32x32_S32x32x1_0_1 : (⟨S32x32, .i32⟩ : BufTy).Contents (Elt F) → (⟨S32x32x1, .i32⟩ : BufTy).Contents (Elt F)),
    StableHlo.binary main_v14 main_v15 main_v16 ((fun a b => concatenate S32x32x2 2 [⟨S32x32x1, a⟩, ⟨S32x32x1, b⟩] concatenates_S32x32x1_S32x32x1_S32x32x2_d2) : (⟨S32x32x1, .i32⟩ : BufTy).Contents (Elt F) → (⟨S32x32x1, .i32⟩ : BufTy).Contents (Elt F) → (⟨S32x32x2, .i32⟩ : BufTy).Contents (Elt F)),
    StableHlo.binary main_arg1 main_v16 main_v17 ((fun x i => Host.gather gather_S32x256x128_S32x32x2_S32x32x128_2_01_n_n_01_2_11128 x i) : (⟨S32x256x128, .f32⟩ : BufTy).Contents (Elt F) → (⟨S32x32x2, .i32⟩ : BufTy).Contents (Elt F) → (⟨S32x32x128, .f32⟩ : BufTy).Contents (Elt F)),
    StableHlo.unary main_v17 main_v18 ((transpose S32x32x128 [1, 0, 2] · transposes_S32x32x128_S32x32x128_1_0_2) : (⟨S32x32x128, .f32⟩ : BufTy).Contents (Elt F) → (⟨S32x32x128, .f32⟩ : BufTy).Contents (Elt F)),
    StableHlo.reshape main_v18 main_v19 rfl shapeCasts_S32x32x128_S32x4096 ]

/-- The buffers window 0 writes. -/
abbrev W0 : List (Ref sig .tc) := [main_v0, main_v1, main_v2, main_c, main_v3, main_v4, main_c_0, main_v5, main_v6, main_v7, main_c_1, main_v8, main_v9, main_c_2, main_v10, main_v11, main_v12, main_v13, main_v14, main_v15, main_v16, main_v17, main_v18, main_v19]

/-- Window 1: the scores x · cwᵀ, their row means, and the row variances (the variance function's values over its own record, its inner select over the innermost record). -/
abbrev w1 : List (HloOp τ sig (Elt F)) :=
  [
    StableHlo.unary main_v19 main_v20 ((transpose S4096x32 [1, 0] · transposes_S32x4096_S4096x32_1_0) : (⟨S32x4096, .f32⟩ : BufTy).Contents (Elt F) → (⟨S4096x32, .f32⟩ : BufTy).Contents (Elt F)),
    StableHlo.binary main_v0 main_v20 main_v21 ((fun l r => Host.dotGeneral dot_S8192x4096_S4096x32_S8192x32_1_0_0_1_n_n none l r) : (⟨S8192x4096, .f32⟩ : BufTy).Contents (Elt F) → (⟨S4096x32, .f32⟩ : BufTy).Contents (Elt F) → (⟨S8192x32, .f32⟩ : BufTy).Contents (Elt F)),
    StableHlo.nullary main_cst (constant S_ .f32 0x00000000#32),
    StableHlo.binary main_v21 main_cst main_v22 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    StableHlo.unary main_v22 main_v23 (broadcastInDim S8192x1 ![0] bcast_S8192_S8192x1_0 : (⟨S8192, .f32⟩ : BufTy).Contents (Elt F) → (⟨S8192x1, .f32⟩ : BufTy).Contents (Elt F)),
    StableHlo.nullary main_cst_3 (constant S_ .f32 0x42000000#32),
    StableHlo.unary main_cst_3 main_v24 (broadcastInDim S8192x1 ![] bcast_S_S8192x1 : (⟨S_, .f32⟩ : BufTy).Contents (Elt F) → (⟨S8192x1, .f32⟩ : BufTy).Contents (Elt F)),
    StableHlo.binary main_v23 main_v24 main_v25 (Host.divf : (⟨S8192x1, .f32⟩ : BufTy).Contents (Elt F) → (⟨S8192x1, .f32⟩ : BufTy).Contents (Elt F) → (⟨S8192x1, .f32⟩ : BufTy).Contents (Elt F)),
    StableHlo.nullary main_c_4 (constantI S_ 32 0#32),
    TRef.nullary main_call0.cst (constant S_ .f32 0x00000000#32),
    TRef.binary tv21 main_call0.cst main_call0.v0 (fun x v => Host.reduceAdd x v reducesTo_S8192x32_S8192_d1 h_S_),
    TRef.unary main_call0.v0 main_call0.v1 (broadcastInDim S8192x1 ![0] bcast_S8192_S8192x1_0),
    TRef.nullary main_call0.cst_0 (constant S_ .f32 0x42000000#32),
    TRef.unary main_call0.cst_0 main_call0.v2 (broadcastInDim S8192x1 ![] bcast_S_S8192x1),
    TRef.binary main_call0.v1 main_call0.v2 main_call0.v3 Host.divf,
    TRef.unary main_call0.v3 main_call0.v4 (broadcastInDim S8192x32 ![0, 1] bcast_S8192x1_S8192x32_0_1),
    TRef.binary tv21 main_call0.v4 main_call0.v5 subf,
    TRef.binary main_call0.v5 main_call0.v5 main_call0.v6 mulf,
    TRef.unary tc4 main_call0.v7 (sitofp .f32),
    TRef.nullary main_call0.cst_1 (constant S_ .f32 0x42000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8192x32_S8192_d1 h_S_),
    TRef.unary main_call0.v9 main_call0.v10 (broadcastInDim S8192x1 ![0] bcast_S8192_S8192x1_0),
    TRef.unary main_call0.v8 main_call0.v11 (broadcastInDim S8192x1 ![] bcast_S_S8192x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S8192x1 ![] bcast_S_S8192x1),
    TRef.ternary main_call0.v13 main_call0.v12 main_call0.call0.v1 main_call0.call0.v2 (fun p a b => select (broadcastInDim S8192x1 ![] bcast_S_S8192x1 p) a b) ]

/-- The buffers window 1 writes. -/
abbrev W1 : List (Ref sig .tc) := [main_v20, main_v21, main_cst, main_v22, main_v23, main_cst_3, main_v24, main_v25, main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v26]

/-- Window 2: the normalised scores, their soft-max, the threshold mask and its two or-reductions, the cluster bits spread over the columns. -/
abbrev w2 : List (HloOp τ sig (Elt F)) :=
  [
    StableHlo.unary main_v25 main_v27 (broadcastInDim S8192x32 ![0, 1] bcast_S8192x1_S8192x32_0_1 : (⟨S8192x1, .f32⟩ : BufTy).Contents (Elt F) → (⟨S8192x32, .f32⟩ : BufTy).Contents (Elt F)),
    StableHlo.binary main_v21 main_v27 main_v28 (subf : (⟨S8192x32, .f32⟩ : BufTy).Contents (Elt F) → (⟨S8192x32, .f32⟩ : BufTy).Contents (Elt F) → (⟨S8192x32, .f32⟩ : BufTy).Contents (Elt F)),
    StableHlo.nullary main_cst_5 (constant S_ .f32 0x3727C5AC#32),
    StableHlo.unary main_cst_5 main_v29 (broadcastInDim S8192x1 ![] bcast_S_S8192x1 : (⟨S_, .f32⟩ : BufTy).Contents (Elt F) → (⟨S8192x1, .f32⟩ : BufTy).Contents (Elt F)),
    StableHlo.binary main_v26 main_v29 main_v30 (addf : (⟨S8192x1, .f32⟩ : BufTy).Contents (Elt F) → (⟨S8192x1, .f32⟩ : BufTy).Contents (Elt F) → (⟨S8192x1, .f32⟩ : BufTy).Contents (Elt F)),
    StableHlo.unary main_v30 main_v31 (Host.rsqrt : (⟨S8192x1, .f32⟩ : BufTy).Contents (Elt F) → (⟨S8192x1, .f32⟩ : BufTy).Contents (Elt F)),
    StableHlo.unary main_v31 main_v32 (broadcastInDim S8192x32 ![0, 1] bcast_S8192x1_S8192x32_0_1 : (⟨S8192x1, .f32⟩ : BufTy).Contents (Elt F) → (⟨S8192x32, .f32⟩ : BufTy).Contents (Elt F)),
    StableHlo.binary main_v28 main_v32 main_v33 (mulf : (⟨S8192x32, .f32⟩ : BufTy).Contents (Elt F) → (⟨S8192x32, .f32⟩ : BufTy).Contents (Elt F) → (⟨S8192x32, .f32⟩ : BufTy).Contents (Elt F)),
    StableHlo.unary main_arg3 main_v34 (broadcastInDim S1x32 ![1] bcast_S32_S1x32_1 : (⟨S32, .f32⟩ : BufTy).Contents (Elt F) → (⟨S1x32, .f32⟩ : BufTy).Contents (Elt F)),
    StableHlo.unary main_v34 main_v35 (broadcastInDim S8192x32 ![0, 1] bcast_S1x32_S8192x32_0_1 : (⟨S1x32, .f32⟩ : BufTy).Contents (Elt F) → (⟨S8192x32, .f32⟩ : BufTy).Contents (Elt F)),
    StableHlo.binary main_v33 main_v35 main_v36 (mulf : (⟨S8192x32, .f32⟩ : BufTy).Contents (Elt F) → (⟨S8192x32, .f32⟩ : BufTy).Contents (Elt F) → (⟨S8192x32, .f32⟩ : BufTy).Contents (Elt F)),
    StableHlo.nullary main_cst_6 (constant S_ .f32 0xFF800000#32),
    StableHlo.binary main_v36 main_cst_6 main_v37 ((fun x v => Host.reduce FloatOps.maximumf x v reducesTo_S8192x32_S8192_d1 h_S_) : (⟨S8192x32, .f32⟩ : BufTy).Contents (Elt F) → (⟨S_, .f32⟩ : BufTy).Contents (Elt F) → (⟨S8192, .f32⟩ : BufTy).Contents (Elt F)),
    StableHlo.nullary main_cst_7 (constant S_ .f32 0xFF800000#32),
    StableHlo.unary main_cst_7 main_v38 (broadcastInDim S8192 ![] bcast_S_S8192 : (⟨S_, .f32⟩ : BufTy).Contents (Elt F) → (⟨S8192, .f32⟩ : BufTy).Contents (Elt F)),
    StableHlo.binary main_v38 main_v37 main_v39 (maximumf : (⟨S8192, .f32⟩ : BufTy).Contents (Elt F) → (⟨S8192, .f32⟩ : BufTy).Contents (Elt F) → (⟨S8192, .f32⟩ : BufTy).Contents (Elt F)),
    StableHlo.unary main_v39 main_v40 (broadcastInDim S8192x1 ![0] bcast_S8192_S8192x1_0 : (⟨S8192, .f32⟩ : BufTy).Contents (Elt F) → (⟨S8192x1, .f32⟩ : BufTy).Contents (Elt F)),
    StableHlo.unary main_v40 main_v41 (broadcastInDim S8192x32 ![0, 1] bcast_S8192x1_S8192x32_0_1 : (⟨S8192x1, .f32⟩ : BufTy).Contents (Elt F) → (⟨S8192x32, .f32⟩ : BufTy).Contents (Elt F)),
    StableHlo.binary main_v36 main_v41 main_v42 (subf : (⟨S8192x32, .f32⟩ : BufTy).Contents (Elt F) → (⟨S8192x32, .f32⟩ : BufTy).Contents (Elt F) → (⟨S8192x32, .f32⟩ : BufTy).Contents (Elt F)),
    StableHlo.unary main_v42 main_v43 (Host.exp : (⟨S8192x32, .f32⟩ : BufTy).Contents (Elt F) → (⟨S8192x32, .f32⟩ : BufTy).Contents (Elt F)),
    StableHlo.nullary main_cst_8 (constant S_ .f32 0x00000000#32),
    StableHlo.binary main_v43 main_cst_8 main_v44 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    StableHlo.unary main_v44 main_v45 (broadcastInDim S8192x1 ![0] bcast_S8192_S8192x1_0 : (⟨S8192, .f32⟩ : BufTy).Contents (Elt F) → (⟨S8192x1, .f32⟩ : BufTy).Contents (Elt F)),
    StableHlo.unary main_v45 main_v46 (broadcastInDim S8192x32 ![0, 1] bcast_S8192x1_S8192x32_0_1 : (⟨S8192x1, .f32⟩ : BufTy).Contents (Elt F) → (⟨S8192x32, .f32⟩ : BufTy).Contents (Elt F)),
    StableHlo.binary main_v43 main_v46 main_v47 (Host.divf : (⟨S8192x32, .f32⟩ : BufTy).Contents (Elt F) → (⟨S8192x32, .f32⟩ : BufTy).Contents (Elt F) → (⟨S8192x32, .f32⟩ : BufTy).Contents (Elt F)),
    StableHlo.nullary main_cst_9 (constant S_ .f32 0x3F000000#32),
    StableHlo.unary main_cst_9 main_v48 (broadcastInDim S8192x32 ![] bcast_S_S8192x32 : (⟨S_, .f32⟩ : BufTy).Contents (Elt F) → (⟨S8192x32, .f32⟩ : BufTy).Contents (Elt F)),
    StableHlo.binary main_v47 main_v48 main_v49 (cmpf .ogt : (⟨S8192x32, .f32⟩ : BufTy).Contents (Elt F) → (⟨S8192x32, .f32⟩ : BufTy).Contents (Elt F) → (⟨S8192x32, .i1⟩ : BufTy).Contents (Elt F)),
    StableHlo.nullary main_c_10 (constantI S_ 1 0#1),
    StableHlo.binary main_v49 main_c_10 main_v50 ((fun x v => Host.reduce IntOp.ori x v reducesTo_S8192x32_S8192_d1 h_S_) : (⟨S8192x32, .i1⟩ : BufTy).Contents (Elt F) → (⟨S_, .i1⟩ : BufTy).Contents (Elt F) → (⟨S8192, .i1⟩ : BufTy).Contents (Elt F)),
    StableHlo.nullary main_c_11 (constantI S_ 1 0#1),
    StableHlo.binary main_v49 main_c_11 main_v51 ((fun x v => Host.reduce IntOp.ori x v reducesTo_S8192x32_S32_d0 h_S_) : (⟨S8192x32, .i1⟩ : BufTy).Contents (Elt F) → (⟨S_, .i1⟩ : BufTy).Contents (Elt F) → (⟨S32, .i1⟩ : BufTy).Contents (Elt F)),
    StableHlo.unary main_v51 main_v52 (broadcastInDim S32x128 ![0] bcast_S32_S32x128_0 : (⟨S32, .i1⟩ : BufTy).Contents (Elt F) → (⟨S32x128, .i1⟩ : BufTy).Contents (Elt F)),
    StableHlo.reshape main_v52 main_v53 rfl shapeCasts_S32x128_S4096 ]

/-- The buffers window 2 writes. -/
abbrev W2 : List (Ref sig .tc) := [main_v27, main_v28, main_cst_5, main_v29, main_v30, main_v31, main_v32, main_v33, main_v34, main_v35, main_v36, main_cst_6, main_v37, main_cst_7, main_v38, main_v39, main_v40, main_v41, main_v42, main_v43, main_cst_8, main_v44, main_v45, main_v46, main_v47, main_cst_9, main_v48, main_v49, main_c_10, main_v50, main_c_11, main_v51, main_v52, main_v53]

/-- Window 3: the weight matrix expanded: the same index construction over the 4096 output rows, the gather, and the re-layout to 4096 × 4096. -/
abbrev w3 : List (HloOp τ sig (Elt F)) :=
  [
    StableHlo.nullary main_v54 (iotaInDim S32 32 0),
    StableHlo.unary main_v54 main_v55 (broadcastInDim S32x1 ![0] bcast_S32_S32x1_0 : (⟨S32, .i32⟩ : BufTy).Contents (Elt F) → (⟨S32x1, .i32⟩ : BufTy).Contents (Elt F)),
    StableHlo.nullary main_c_12 (constantI S_ 32 0#32),
    StableHlo.unary main_c_12 main_v56 (broadcastInDim S32x1 ![] bcast_S_S32x1 : (⟨S_, .i32⟩ : BufTy).Contents (Elt F) → (⟨S32x1, .i32⟩ : BufTy).Contents (Elt F)),
    StableHlo.binary main_v55 main_v56 main_v57 (cmpi .slt : (⟨S32x1, .i32⟩ : BufTy).Contents (Elt F) → (⟨S32x1, .i32⟩ : BufTy).Contents (Elt F) → (⟨S32x1, .i1⟩ : BufTy).Contents (Elt F)),
    StableHlo.nullary main_c_13 (constantI S_ 32 32#32),
    StableHlo.unary main_c_13 main_v58 (broadcastInDim S32x1 ![] bcast_S_S32x1 : (⟨S_, .i32⟩ : BufTy).Contents (Elt F) → (⟨S32x1, .i32⟩ : BufTy).Contents (Elt F)),
    StableHlo.binary main_v55 main_v58 main_v59 (addi : (⟨S32x1, .i32⟩ : BufTy).Contents (Elt F) → (⟨S32x1, .i32⟩ : BufTy).Contents (Elt F) → (⟨S32x1, .i32⟩ : BufTy).Contents (Elt F)),
    StableHlo.ternary main_v57 main_v59 main_v55 main_v60 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    StableHlo.nullary main_c_14 (constantI S_ 32 0#32),
    StableHlo.unary main_c_14 main_v61 (broadcastInDim S32x4096 ![] bcast_S_S32x4096 : (⟨S_, .i32⟩ : BufTy).Contents (Elt F) → (⟨S32x4096, .i32⟩ : BufTy).Contents (Elt F)),
    StableHlo.binary main_arg4 main_v61 main_v62 (cmpi .slt : (⟨S32x4096, .i32⟩ : BufTy).Contents (Elt F) → (⟨S32x4096, .i32⟩ : BufTy).Contents (Elt F) → (⟨S32x4096, .i1⟩ : BufTy).Contents (Elt F)),
    StableHlo.nullary main_c_15 (constantI S_ 32 256#32),
    StableHlo.unary main_c_15 main_v63 (broadcastInDim S32x4096 ![] bcast_S_S32x4096 : (⟨S_, .i32⟩ : BufTy).Contents (Elt F) → (⟨S32x4096, .i32⟩ : BufTy).Contents (Elt F)),
    StableHlo.binary main_arg4 main_v63 main_v64 (addi : (⟨S32x4096, .i32⟩ : BufTy).Contents (Elt F) → (⟨S32x4096, .i32⟩ : BufTy).Contents (Elt F) → (⟨S32x4096, .i32⟩ : BufTy).Contents (Elt F)),
    StableHlo.ternary main_v62 main_v64 main_arg4 main_v65 (select : (⟨S32x4096, .i1⟩ : BufTy).Contents (Elt F) → (⟨S32x4096, .i32⟩ : BufTy).Contents (Elt F) → (⟨S32x4096, .i32⟩ : BufTy).Contents (Elt F) → (⟨S32x4096, .i32⟩ : BufTy).Contents (Elt F)),
    StableHlo.unary main_v60 main_v66 (broadcastInDim S32x4096 ![0, 1] bcast_S32x1_S32x4096_0_1 : (⟨S32x1, .i32⟩ : BufTy).Contents (Elt F) → (⟨S32x4096, .i32⟩ : BufTy).Contents (Elt F)),
    StableHlo.unary main_v66 main_v67 (broadcastInDim S32x4096x1 ![0, 1] bcast_S32x4096_S32x4096x1_0_1 : (⟨S32x4096, .i32⟩ : BufTy).Contents (Elt F) → (⟨S32x4096x1, .i32⟩ : BufTy).Contents (Elt F)),
    StableHlo.unary main_v65 main_v68 (broadcastInDim S32x4096x1 ![0, 1] bcast_S32x4096_S32x4096x1_0_1 : (⟨S32x4096, .i32⟩ : BufTy).Contents (Elt F) → (⟨S32x4096x1, .i32⟩ : BufTy).Contents (Elt F)),
    StableHlo.binary main_v67 main_v68 main_v69 ((fun a b => concatenate S32x4096x2 2 [⟨S32x4096x1, a⟩, ⟨S32x4096x1, b⟩] concatenates_S32x4096x1_S32x4096x1_S32x4096x2_d2) : (⟨S32x4096x1, .i32⟩ : BufTy).Contents (Elt F) → (⟨S32x4096x1, .i32⟩ : BufTy).Contents (Elt F) → (⟨S32x4096x2, .i32⟩ : BufTy).Contents (Elt F)),
    StableHlo.binary main_arg1 main_v69 main_v70 ((fun x i => Host.gather gather_S32x256x128_S32x4096x2_S32x4096x128_2_01_n_n_01_2_11128 x i) : (⟨S32x256x128, .f32⟩ : BufTy).Contents (Elt F) → (⟨S32x4096x2, .i32⟩ : BufTy).Contents (Elt F) → (⟨S32x4096x128, .f32⟩ : BufTy).Contents (Elt F)),
    StableHlo.unary main_v70 main_v71 ((transpose S4096x32x128 [1, 0, 2] · transposes_S32x4096x128_S4096x32x128_1_0_2) : (⟨S32x4096x128, .f32⟩ : BufTy).Contents (Elt F) → (⟨S4096x32x128, .f32⟩ : BufTy).Contents (Elt F)),
    StableHlo.reshape main_v71 main_v72 rfl shapeCasts_S4096x32x128_S4096x4096 ]

/-- The buffers window 3 writes. -/
abbrev W3 : List (Ref sig .tc) := [main_v54, main_v55, main_c_12, main_v56, main_v57, main_c_13, main_v58, main_v59, main_v60, main_c_14, main_v61, main_v62, main_c_15, main_v63, main_v64, main_v65, main_v66, main_v67, main_v68, main_v69, main_v70, main_v71, main_v72]

/-- Window 4: the dense product with the bias, the outer and of the two masks as 0 / 1, the product, and the result's shape. -/
abbrev w4 : List (HloOp τ sig (Elt F)) :=
  [
    StableHlo.unary main_v72 main_v73 ((transpose S4096x4096 [1, 0] · transposes_S4096x4096_S4096x4096_1_0) : (⟨S4096x4096, .f32⟩ : BufTy).Contents (Elt F) → (⟨S4096x4096, .f32⟩ : BufTy).Contents (Elt F)),
    StableHlo.binary main_v0 main_v73 main_v74 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.unary main_arg2 main_v75 (broadcastInDim S1x4096 ![1] bcast_S4096_S1x4096_1 : (⟨S4096, .f32⟩ : BufTy).Contents (Elt F) → (⟨S1x4096, .f32⟩ : BufTy).Contents (Elt F)),
    StableHlo.unary main_v75 main_v76 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v74 main_v76 main_v77 (addf : (⟨S8192x4096, .f32⟩ : BufTy).Contents (Elt F) → (⟨S8192x4096, .f32⟩ : BufTy).Contents (Elt F) → (⟨S8192x4096, .f32⟩ : BufTy).Contents (Elt F)),
    StableHlo.unary main_v50 main_v78 (broadcastInDim S8192x1 ![0] bcast_S8192_S8192x1_0 : (⟨S8192, .i1⟩ : BufTy).Contents (Elt F) → (⟨S8192x1, .i1⟩ : BufTy).Contents (Elt F)),
    StableHlo.unary main_v53 main_v79 (broadcastInDim S1x4096 ![1] bcast_S4096_S1x4096_1 : (⟨S4096, .i1⟩ : BufTy).Contents (Elt F) → (⟨S1x4096, .i1⟩ : BufTy).Contents (Elt F)),
    StableHlo.unary main_v78 main_v80 (broadcastInDim S8192x4096 ![0, 1] bcast_S8192x1_S8192x4096_0_1 : (⟨S8192x1, .i1⟩ : BufTy).Contents (Elt F) → (⟨S8192x4096, .i1⟩ : BufTy).Contents (Elt F)),
    StableHlo.unary main_v79 main_v81 (broadcastInDim S8192x4096 ![0, 1] bcast_S1x4096_S8192x4096_0_1 : (⟨S1x4096, .i1⟩ : BufTy).Contents (Elt F) → (⟨S8192x4096, .i1⟩ : BufTy).Contents (Elt F)),
    StableHlo.binary main_v80 main_v81 main_v82 (andi : (⟨S8192x4096, .i1⟩ : BufTy).Contents (Elt F) → (⟨S8192x4096, .i1⟩ : BufTy).Contents (Elt F) → (⟨S8192x4096, .i1⟩ : BufTy).Contents (Elt F)),
    StableHlo.unary main_v82 main_v83 (uitofp .f32 : (⟨S8192x4096, .i1⟩ : BufTy).Contents (Elt F) → (⟨S8192x4096, .f32⟩ : BufTy).Contents (Elt F)),
    StableHlo.binary main_v77 main_v83 main_v84 (mulf : (⟨S8192x4096, .f32⟩ : BufTy).Contents (Elt F) → (⟨S8192x4096, .f32⟩ : BufTy).Contents (Elt F) → (⟨S8192x4096, .f32⟩ : BufTy).Contents (Elt F)),
    StableHlo.reshape main_v84 main_v85 rfl shapeCasts_S8192x4096_S4x2048x4096 ]

/-- The buffers window 4 writes. -/
abbrev W4 : List (Ref sig .tc) := [main_v73, main_v74, main_v75, main_v76, main_v77, main_v78, main_v79, main_v80, main_v81, main_v82, main_v83, main_v84, main_v85]

/-- The whole line. -/
abbrev ops : List (HloOp τ sig (Elt F)) := w0 ++ (w1 ++ (w2 ++ (w3 ++ w4)))

/-! ## The program is that line -/

/-- The fold over two lines run one after the other is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- @main runs its two halves in order, the first of which calls the variance function, which calls the
    select function; each is a chain of single operations, so with the calls opened and sequencing
    reassociated the program is the chain of all of them. -/
theorem main_eq (c : Dev nD) : main (F := F) c = seq ops := by
  simp only [main, main_part0, main_part1, fn_var.body, fn_where.body, ops, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem w0_sub : (w0 : List (HloOp τ sig (Elt F))).Forall fun op => op.bufs ⊆ tcRefs τ sig :=
  ⟨
    reshape_bufs_sub .., nullary_bufs_sub .., unary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., unary_bufs_sub .., binary_bufs_sub .., binary_bufs_sub .., unary_bufs_sub .., reshape_bufs_sub ..⟩
theorem w0_fresh : ∀ op ∈ (w0 : List (HloOp τ sig (Elt F))), op.fresh = ∅ := by
  intro _ h; (repeat (cases h with | head => rfl | tail _ h => ?_)); exact nomatch h

theorem w1_sub : (w1 : List (HloOp τ sig (Elt F))).Forall fun op => op.bufs ⊆ tcRefs τ sig :=
  ⟨
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub ..⟩
theorem w1_fresh : ∀ op ∈ (w1 : List (HloOp τ sig (Elt F))), op.fresh = ∅ := by
  intro _ h; (repeat (cases h with | head => rfl | tail _ h => ?_)); exact nomatch h

theorem w2_sub : (w2 : List (HloOp τ sig (Elt F))).Forall fun op => op.bufs ⊆ tcRefs τ sig :=
  ⟨
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., nullary_bufs_sub .., unary_bufs_sub .., binary_bufs_sub .., nullary_bufs_sub .., binary_bufs_sub ..,
    nullary_bufs_sub .., binary_bufs_sub .., unary_bufs_sub .., reshape_bufs_sub ..⟩
theorem w2_fresh : ∀ op ∈ (w2 : List (HloOp τ sig (Elt F))), op.fresh = ∅ := by
  intro _ h; (repeat (cases h with | head => rfl | tail _ h => ?_)); exact nomatch h

theorem w3_sub : (w3 : List (HloOp τ sig (Elt F))).Forall fun op => op.bufs ⊆ tcRefs τ sig :=
  ⟨
    nullary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    unary_bufs_sub .., binary_bufs_sub .., binary_bufs_sub .., unary_bufs_sub .., reshape_bufs_sub ..⟩
theorem w3_fresh : ∀ op ∈ (w3 : List (HloOp τ sig (Elt F))), op.fresh = ∅ := by
  intro _ h; (repeat (cases h with | head => rfl | tail _ h => ?_)); exact nomatch h

theorem w4_sub : (w4 : List (HloOp τ sig (Elt F))).Forall fun op => op.bufs ⊆ tcRefs τ sig :=
  ⟨
    unary_bufs_sub .., binary_bufs_sub .., unary_bufs_sub .., unary_bufs_sub .., binary_bufs_sub .., unary_bufs_sub ..,
    unary_bufs_sub .., unary_bufs_sub .., unary_bufs_sub .., binary_bufs_sub .., unary_bufs_sub .., binary_bufs_sub ..,
    reshape_bufs_sub ..⟩
theorem w4_fresh : ∀ op ∈ (w4 : List (HloOp τ sig (Elt F))), op.fresh = ∅ := by
  intro _ h; (repeat (cases h with | head => rfl | tail _ h => ?_)); exact nomatch h

/-- Every operation of the line touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h
    · exact List.forall_iff_forall_mem.mp w0_sub op h
    · exact List.forall_iff_forall_mem.mp w1_sub op h
    · exact List.forall_iff_forall_mem.mp w2_sub op h
    · exact List.forall_iff_forall_mem.mp w3_sub op h
    · exact List.forall_iff_forall_mem.mp w4_sub op h

/-- Every operation of the line determines what it writes. -/
theorem ops_fresh : ∀ op ∈ (ops : List (HloOp τ sig (Elt F))), op.fresh = ∅ := fun op h => by
  simp only [ops, List.mem_append] at h
  rcases h with h | h | h | h | h
  · exact w0_fresh op h
  · exact w1_fresh op h
  · exact w2_fresh op h
  · exact w3_fresh op h
  · exact w4_fresh op h

/-! ## What a window leaves alone -/

/-- One operation writes its result buffer, which is on the window's list. -/
local macro "writes_one" : tactic =>
  `(tactic| (simp only [nullary_writes, unary_writes, binary_writes, ternary_writes, reshape_writes,
      Finset.singleton_subset_iff, List.mem_toFinset]; exact List.mem_map_of_mem (by decide)))

theorem w0_writes : (w0 : List (HloOp τ sig (Elt F))).Forall fun op =>
    op.writes ⊆ (W0.map (Proc.devRef (τ := τ) .tc)).toFinset := by
  simp only [List.Forall]
  exact ⟨
    by writes_one, by writes_one, by writes_one, by writes_one, by writes_one, by writes_one, by writes_one, by writes_one,
    by writes_one, by writes_one, by writes_one, by writes_one, by writes_one, by writes_one, by writes_one, by writes_one,
    by writes_one, by writes_one, by writes_one, by writes_one, by writes_one, by writes_one, by writes_one, by writes_one⟩
/-- A buffer window 0 does not write keeps its contents through it. -/
theorem w0_keep (V : Valuation τ sig (Elt F)) (r : Ref sig .tc) (h : r ∉ W0) :
    after w0 V (Proc.devRef .tc r) = V (Proc.devRef .tc r) :=
  after_of_writes_sub w0 V w0_writes h

theorem w1_writes : (w1 : List (HloOp τ sig (Elt F))).Forall fun op =>
    op.writes ⊆ (W1.map (Proc.devRef (τ := τ) .tc)).toFinset := by
  simp only [List.Forall]
  exact ⟨
    by writes_one, by writes_one, by writes_one, by writes_one, by writes_one, by writes_one, by writes_one, by writes_one,
    by writes_one, by writes_one, by writes_one, by writes_one, by writes_one, by writes_one, by writes_one, by writes_one,
    by writes_one, by writes_one, by writes_one, by writes_one, by writes_one, by writes_one, by writes_one, by writes_one,
    by writes_one, by writes_one, by writes_one, by writes_one, by writes_one, by writes_one, by writes_one, by writes_one⟩
/-- A buffer window 1 does not write keeps its contents through it. -/
theorem w1_keep (V : Valuation τ sig (Elt F)) (r : Ref sig .tc) (h : r ∉ W1) :
    after w1 V (Proc.devRef .tc r) = V (Proc.devRef .tc r) :=
  after_of_writes_sub w1 V w1_writes h

theorem w2_writes : (w2 : List (HloOp τ sig (Elt F))).Forall fun op =>
    op.writes ⊆ (W2.map (Proc.devRef (τ := τ) .tc)).toFinset := by
  simp only [List.Forall]
  exact ⟨
    by writes_one, by writes_one, by writes_one, by writes_one, by writes_one, by writes_one, by writes_one, by writes_one,
    by writes_one, by writes_one, by writes_one, by writes_one, by writes_one, by writes_one, by writes_one, by writes_one,
    by writes_one, by writes_one, by writes_one, by writes_one, by writes_one, by writes_one, by writes_one, by writes_one,
    by writes_one, by writes_one, by writes_one, by writes_one, by writes_one, by writes_one, by writes_one, by writes_one,
    by writes_one, by writes_one⟩
/-- A buffer window 2 does not write keeps its contents through it. -/
theorem w2_keep (V : Valuation τ sig (Elt F)) (r : Ref sig .tc) (h : r ∉ W2) :
    after w2 V (Proc.devRef .tc r) = V (Proc.devRef .tc r) :=
  after_of_writes_sub w2 V w2_writes h

theorem w3_writes : (w3 : List (HloOp τ sig (Elt F))).Forall fun op =>
    op.writes ⊆ (W3.map (Proc.devRef (τ := τ) .tc)).toFinset := by
  simp only [List.Forall]
  exact ⟨
    by writes_one, by writes_one, by writes_one, by writes_one, by writes_one, by writes_one, by writes_one, by writes_one,
    by writes_one, by writes_one, by writes_one, by writes_one, by writes_one, by writes_one, by writes_one, by writes_one,
    by writes_one, by writes_one, by writes_one, by writes_one, by writes_one, by writes_one, by writes_one⟩
/-- A buffer window 3 does not write keeps its contents through it. -/
theorem w3_keep (V : Valuation τ sig (Elt F)) (r : Ref sig .tc) (h : r ∉ W3) :
    after w3 V (Proc.devRef .tc r) = V (Proc.devRef .tc r) :=
  after_of_writes_sub w3 V w3_writes h

theorem w4_writes : (w4 : List (HloOp τ sig (Elt F))).Forall fun op =>
    op.writes ⊆ (W4.map (Proc.devRef (τ := τ) .tc)).toFinset := by
  simp only [List.Forall]
  exact ⟨
    by writes_one, by writes_one, by writes_one, by writes_one, by writes_one, by writes_one, by writes_one, by writes_one,
    by writes_one, by writes_one, by writes_one, by writes_one, by writes_one⟩
/-- A buffer window 4 does not write keeps its contents through it. -/
theorem w4_keep (V : Valuation τ sig (Elt F)) (r : Ref sig .tc) (h : r ∉ W4) :
    after w4 V (Proc.devRef .tc r) = V (Proc.devRef .tc r) :=
  after_of_writes_sub w4 V w4_writes h

/-! ## What each window computes

For an arbitrary valuation V before the window: the buffer's value after it, over V at the buffers the
window reads from outside itself. -/

theorem w0_v0 (V : Valuation τ sig (Elt F)) :
    after w0 V (main_v0 : DevRef τ sig) = RefTerm.x2 (F := F) (V (main_arg0 : DevRef τ sig)) := by
  after_results <;> rfl

theorem w0_v19 (V : Valuation τ sig (Elt F)) :
    after w0 V (main_v19 : DevRef τ sig) = RefTerm.cw (F := F) (V (main_arg1 : DevRef τ sig)) (V (main_arg5 : DevRef τ sig)) := by
  after_results <;> rfl

theorem w1_v21 (V : Valuation τ sig (Elt F)) :
    after w1 V (main_v21 : DevRef τ sig)
      = RefTerm.dots (F := F) (V (main_v0 : DevRef τ sig)) (RefTerm.cwT (V (main_v19 : DevRef τ sig))) := by
  after_results_simp <;> rfl

theorem w1_v25 (V : Valuation τ sig (Elt F)) :
    after w1 V (main_v25 : DevRef τ sig)
      = RefTerm.mu (RefTerm.dots (F := F) (V (main_v0 : DevRef τ sig)) (RefTerm.cwT (V (main_v19 : DevRef τ sig)))) := by
  after_results_simp <;> rfl

theorem w1_v26 (V : Valuation τ sig (Elt F)) :
    after w1 V (main_v26 : DevRef τ sig)
      = RefTerm.varr (RefTerm.dots (F := F) (V (main_v0 : DevRef τ sig)) (RefTerm.cwT (V (main_v19 : DevRef τ sig)))) := by
  after_results_simp <;> rfl

theorem w2_v50 (V : Valuation τ sig (Elt F)) :
    after w2 V (main_v50 : DevRef τ sig)
      = RefTerm.qm (RefTerm.mask (RefTerm.soft (RefTerm.zn (F := F) (V (main_v21 : DevRef τ sig))
          (V (main_v25 : DevRef τ sig)) (V (main_v26 : DevRef τ sig)) (V (main_arg3 : DevRef τ sig))))) := by
  after_results_simp <;> rfl

theorem w2_v53 (V : Valuation τ sig (Elt F)) :
    after w2 V (main_v53 : DevRef τ sig)
      = RefTerm.km (RefTerm.cm (RefTerm.mask (RefTerm.soft (RefTerm.zn (F := F) (V (main_v21 : DevRef τ sig))
          (V (main_v25 : DevRef τ sig)) (V (main_v26 : DevRef τ sig)) (V (main_arg3 : DevRef τ sig)))))) := by
  after_results_simp <;> rfl

theorem w3_v72 (V : Valuation τ sig (Elt F)) :
    after w3 V (main_v72 : DevRef τ sig) = RefTerm.wmat (F := F) (V (main_arg1 : DevRef τ sig)) (V (main_arg4 : DevRef τ sig)) := by
  after_results <;> rfl

theorem w4_v85 (V : Valuation τ sig (Elt F)) :
    after w4 V (main_v85 : DevRef τ sig)
      = shapeCast S4x2048x4096
          (RefTerm.out2 (RefTerm.lin (F := F) (V (main_v0 : DevRef τ sig)) (RefTerm.wT (V (main_v72 : DevRef τ sig))) (V (main_arg2 : DevRef τ sig)))
            (V (main_v50 : DevRef τ sig)) (V (main_v53 : DevRef τ sig)))
          shapeCasts_S8192x4096_S4x2048x4096 := by
  after_results_simp <;> rfl

/-! ## The buffers after each window, from the contents before the line -/

/-- The contents after windows 0 … k − 1. -/
def val1 (V : Valuation τ sig (Elt F)) : Valuation τ sig (Elt F) := after w0 V
@[inherit_doc val1] def val2 (V : Valuation τ sig (Elt F)) : Valuation τ sig (Elt F) := after w1 (val1 V)
@[inherit_doc val1] def val3 (V : Valuation τ sig (Elt F)) : Valuation τ sig (Elt F) := after w2 (val2 V)
@[inherit_doc val1] def val4 (V : Valuation τ sig (Elt F)) : Valuation τ sig (Elt F) := after w3 (val3 V)
@[inherit_doc val1] def val5 (V : Valuation τ sig (Elt F)) : Valuation τ sig (Elt F) := after w4 (val4 V)

/-- The whole line's fold is the five windows' folds in turn. -/
theorem after_ops (V : Valuation τ sig (Elt F)) : after ops V = val5 V := by
  simp only [ops, after_app]
  rfl

/-- A buffer none of the first k windows writes holds what it held before the line. -/
theorem val1_keep (V : Valuation τ sig (Elt F)) (r : Ref sig .tc) (h0 : r ∉ W0) :
    val1 V (Proc.devRef .tc r) = V (Proc.devRef .tc r) := w0_keep V r h0
@[inherit_doc val1_keep] theorem val2_keep (V : Valuation τ sig (Elt F)) (r : Ref sig .tc) (h0 : r ∉ W0) (h1 : r ∉ W1) :
    val2 V (Proc.devRef .tc r) = V (Proc.devRef .tc r) := (w1_keep _ r h1).trans (val1_keep V r h0)
@[inherit_doc val1_keep] theorem val3_keep (V : Valuation τ sig (Elt F)) (r : Ref sig .tc) (h0 : r ∉ W0) (h1 : r ∉ W1) (h2 : r ∉ W2) :
    val3 V (Proc.devRef .tc r) = V (Proc.devRef .tc r) := (w2_keep _ r h2).trans (val2_keep V r h0 h1)
@[inherit_doc val1_keep] theorem val4_keep (V : Valuation τ sig (Elt F)) (r : Ref sig .tc) (h0 : r ∉ W0) (h1 : r ∉ W1) (h2 : r ∉ W2)
    (h3 : r ∉ W3) : val4 V (Proc.devRef .tc r) = V (Proc.devRef .tc r) :=
  (w3_keep _ r h3).trans (val3_keep V r h0 h1 h2)
@[inherit_doc val1_keep] theorem val5_keep (V : Valuation τ sig (Elt F)) (r : Ref sig .tc) (h0 : r ∉ W0) (h1 : r ∉ W1) (h2 : r ∉ W2)
    (h3 : r ∉ W3) (h4 : r ∉ W4) : val5 V (Proc.devRef .tc r) = V (Proc.devRef .tc r) :=
  (w4_keep _ r h4).trans (val4_keep V r h0 h1 h2 h3)

/-- After window 0: the rows of x and the expanded centroids. -/
theorem val1_v0 (V : Valuation τ sig (Elt F)) : val1 V (main_v0 : DevRef τ sig) = RefTerm.x2 (F := F) (V (main_arg0 : DevRef τ sig)) := w0_v0 V
@[inherit_doc val1_v0] theorem val1_v19 (V : Valuation τ sig (Elt F)) :
    val1 V (main_v19 : DevRef τ sig) = RefTerm.cw (F := F) (V (main_arg1 : DevRef τ sig)) (V (main_arg5 : DevRef τ sig)) := w0_v19 V

/-- After window 1: the rows of x still, the scores, their means and their variances. -/
theorem val2_v0 (V : Valuation τ sig (Elt F)) : val2 V (main_v0 : DevRef τ sig) = RefTerm.x2 (F := F) (V (main_arg0 : DevRef τ sig)) :=
  (w1_keep _ main_v0 (by decide)).trans (val1_v0 V)
@[inherit_doc val2_v0] theorem val2_v21 (V : Valuation τ sig (Elt F)) :
    val2 V (main_v21 : DevRef τ sig) = RefTerm.dotsOf (F := F) (V (main_arg0 : DevRef τ sig)) (V (main_arg1 : DevRef τ sig)) (V (main_arg5 : DevRef τ sig)) := by
  unfold val2
  rw [w1_v21, val1_v0, val1_v19]
  rfl
@[inherit_doc val2_v0] theorem val2_v25 (V : Valuation τ sig (Elt F)) :
    val2 V (main_v25 : DevRef τ sig) = RefTerm.mu (RefTerm.dotsOf (F := F) (V (main_arg0 : DevRef τ sig)) (V (main_arg1 : DevRef τ sig)) (V (main_arg5 : DevRef τ sig))) := by
  unfold val2
  rw [w1_v25, val1_v0, val1_v19]
  rfl
@[inherit_doc val2_v0] theorem val2_v26 (V : Valuation τ sig (Elt F)) :
    val2 V (main_v26 : DevRef τ sig) = RefTerm.varr (RefTerm.dotsOf (F := F) (V (main_arg0 : DevRef τ sig)) (V (main_arg1 : DevRef τ sig)) (V (main_arg5 : DevRef τ sig))) := by
  unfold val2
  rw [w1_v26, val1_v0, val1_v19]
  rfl

/-- After window 2: the rows of x still, the selected rows and the selected columns. -/
theorem val3_v0 (V : Valuation τ sig (Elt F)) : val3 V (main_v0 : DevRef τ sig) = RefTerm.x2 (F := F) (V (main_arg0 : DevRef τ sig)) :=
  (w2_keep _ main_v0 (by decide)).trans (val2_v0 V)
@[inherit_doc val3_v0] theorem val3_v50 (V : Valuation τ sig (Elt F)) :
    val3 V (main_v50 : DevRef τ sig) = RefTerm.qm (RefTerm.maskOf (F := F) (V (main_arg0 : DevRef τ sig)) (V (main_arg1 : DevRef τ sig)) (V (main_arg3 : DevRef τ sig)) (V (main_arg5 : DevRef τ sig))) := by
  unfold val3
  rw [w2_v50, val2_v21, val2_v25, val2_v26, val2_keep V main_arg3 (by decide) (by decide)]
  rfl
@[inherit_doc val3_v0] theorem val3_v53 (V : Valuation τ sig (Elt F)) :
    val3 V (main_v53 : DevRef τ sig)
      = RefTerm.km (RefTerm.cm (RefTerm.maskOf (F := F) (V (main_arg0 : DevRef τ sig)) (V (main_arg1 : DevRef τ sig)) (V (main_arg3 : DevRef τ sig)) (V (main_arg5 : DevRef τ sig)))) := by
  unfold val3
  rw [w2_v53, val2_v21, val2_v25, val2_v26, val2_keep V main_arg3 (by decide) (by decide)]
  rfl

/-- After window 3: those three still, and the expanded weight matrix. -/
theorem val4_v0 (V : Valuation τ sig (Elt F)) : val4 V (main_v0 : DevRef τ sig) = RefTerm.x2 (F := F) (V (main_arg0 : DevRef τ sig)) :=
  (w3_keep _ main_v0 (by decide)).trans (val3_v0 V)
@[inherit_doc val4_v0] theorem val4_v50 (V : Valuation τ sig (Elt F)) :
    val4 V (main_v50 : DevRef τ sig) = RefTerm.qm (RefTerm.maskOf (F := F) (V (main_arg0 : DevRef τ sig)) (V (main_arg1 : DevRef τ sig)) (V (main_arg3 : DevRef τ sig)) (V (main_arg5 : DevRef τ sig))) :=
  (w3_keep _ main_v50 (by decide)).trans (val3_v50 V)
@[inherit_doc val4_v0] theorem val4_v53 (V : Valuation τ sig (Elt F)) :
    val4 V (main_v53 : DevRef τ sig)
      = RefTerm.km (RefTerm.cm (RefTerm.maskOf (F := F) (V (main_arg0 : DevRef τ sig)) (V (main_arg1 : DevRef τ sig)) (V (main_arg3 : DevRef τ sig)) (V (main_arg5 : DevRef τ sig)))) :=
  (w3_keep _ main_v53 (by decide)).trans (val3_v53 V)
@[inherit_doc val4_v0] theorem val4_v72 (V : Valuation τ sig (Elt F)) :
    val4 V (main_v72 : DevRef τ sig) = RefTerm.wmat (F := F) (V (main_arg1 : DevRef τ sig)) (V (main_arg4 : DevRef τ sig)) := by
  unfold val4
  rw [w3_v72, val3_keep V main_arg1 (by decide) (by decide) (by decide),
    val3_keep V main_arg4 (by decide) (by decide) (by decide)]

/-- After the last window the result buffer holds the reference's value of the arguments. -/
theorem out_eq (V : Valuation τ sig (Elt F)) :
    after ops V (main_v85 : DevRef τ sig)
      = RefTerm.refOut (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [after_ops]
  unfold val5
  rw [w4_v85, val4_v0, val4_v72, val4_v50, val4_v53,
    val4_keep V main_arg2 (by decide) (by decide) (by decide) (by decide)]
  rfl

/-- No operation writes an argument's buffer. -/
theorem arg_eq (V : Valuation τ sig (Elt F)) (r : Ref sig .tc) (h0 : r ∉ W0) (h1 : r ∉ W1) (h2 : r ∉ W2) (h3 : r ∉ W3) (h4 : r ∉ W4) :
    after ops V (Proc.devRef .tc r) = V (Proc.devRef .tc r) := by
  rw [after_ops]
  exact val5_keep V r h0 h1 h2 h3 h4

/-! ## The run -/

/-- On the device, for any float values, from any memory with zero counters: every weakly fair execution of
    @main terminates with the result buffer at the reference's value of the arguments' launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v85)
        = RefTerm.refOut (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c main_v85).trans (out_eq _),
        (h c main_arg0).trans (arg_eq _ main_arg0 (by decide) (by decide) (by decide) (by decide) (by decide)),
        (h c main_arg1).trans (arg_eq _ main_arg1 (by decide) (by decide) (by decide) (by decide) (by decide)),
        (h c main_arg2).trans (arg_eq _ main_arg2 (by decide) (by decide) (by decide) (by decide) (by decide)),
        (h c main_arg3).trans (arg_eq _ main_arg3 (by decide) (by decide) (by decide) (by decide) (by decide)),
        (h c main_arg4).trans (arg_eq _ main_arg4 (by decide) (by decide) (by decide) (by decide) (by decide)),
        (h c main_arg5).trans (arg_eq _ main_arg5 (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RefLin.lean ====
/-
  The reference's dense layer and mask reductions read at an index, at the ideal values: the dense layer at (r, o)
  is the sum over k of x[r, k] * W^T[k, o] plus the bias; a row is selected when the OR of its 32 mask bits is
  set, a cluster when the OR over the 8192 rows is; each cluster's bit is repeated over its 128 columns; and the
  product with the 0/1 float of the AND of two bits is the product with the indicator of both being set.
-/
import proofs.«116196_j17523466567937_1_alg».proof.Proof.RefTerm
import proofs.«116196_j17523466567937_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefVal

open Idealize.ShloMosaic Idealize.ShloMosaic.ValueIdx
open Cert.ReferenceIdeal Cert.ReferenceIdeal.RefTerm Cert.Spec

open Cert.ReferenceIdeal.Facts₀ Cert.ReferenceIdeal.Facts

variable [Facts]

/-! ## The dense layer: a contraction over the 4096 entries of a row, plus the bias -/

theorem lhs_lin_0 (i : S8192x4096.Idx) (q : dot_S8192x4096_S4096x4096_S8192x4096_1_0_0_1_n_n.contr.Idx) :
    (dot_S8192x4096_S4096x4096_S8192x4096_1_0_0_1_n_n.lhsIdx i q 0).val = (i 0).val := by
  unfold DotDims.lhsIdx
  rw [dif_neg (show ¬(0 : Fin S8192x4096.rank) ∈ dot_S8192x4096_S4096x4096_S8192x4096_1_0_0_1_n_n.lhsBatch from List.not_mem_nil),
    dif_pos (show (0 : Fin S8192x4096.rank) ∈ dot_S8192x4096_S4096x4096_S8192x4096_1_0_0_1_n_n.lhsNonContracting from List.mem_singleton.mpr rfl)]
  rfl

theorem lhs_lin_1 (i : S8192x4096.Idx) (q : dot_S8192x4096_S4096x4096_S8192x4096_1_0_0_1_n_n.contr.Idx) :
    (dot_S8192x4096_S4096x4096_S8192x4096_1_0_0_1_n_n.lhsIdx i q 1).val = (q ⟨0, Nat.one_pos⟩).val :=
  dot_S8192x4096_S4096x4096_S8192x4096_1_0_0_1_n_n.lhsIdx_val_of_single rfl i q

theorem rhs_lin_0 (i : S8192x4096.Idx) (q : dot_S8192x4096_S4096x4096_S8192x4096_1_0_0_1_n_n.contr.Idx) :
    (dot_S8192x4096_S4096x4096_S8192x4096_1_0_0_1_n_n.rhsIdx i q 0).val = (q ⟨0, Nat.one_pos⟩).val :=
  dot_S8192x4096_S4096x4096_S8192x4096_1_0_0_1_n_n.rhsIdx_val_of_single rfl i q

theorem rhs_lin_1 (i : S8192x4096.Idx) (q : dot_S8192x4096_S4096x4096_S8192x4096_1_0_0_1_n_n.contr.Idx) :
    (dot_S8192x4096_S4096x4096_S8192x4096_1_0_0_1_n_n.rhsIdx i q 1).val = (i 1).val := by
  unfold DotDims.rhsIdx
  rw [dif_neg (show ¬(1 : Fin S4096x4096.rank) ∈ dot_S8192x4096_S4096x4096_S8192x4096_1_0_0_1_n_n.rhsBatch from List.not_mem_nil),
    dif_pos (show (1 : Fin S4096x4096.rank) ∈ dot_S8192x4096_S4096x4096_S8192x4096_1_0_0_1_n_n.rhsNonContracting from List.mem_singleton.mpr rfl)]
  rfl

/-- A vector along the 4096 columns repeated down the rows. -/
theorem bcolumns_apply {α : Type} (v : S4096.Idx → α) (r : Fin 8192) (o : Fin 4096) :
    broadcastInDim S8192x4096 ![0, 1] bcast_S1x4096_S8192x4096_0_1 (broadcastInDim S1x4096 ![1] bcast_S4096_S1x4096_1 v) (ix2 r o)
      = v (ix1 o) := by
  refine (broadcastInDim_apply _ _ _ (ix2 r o) (ix2 (0 : Fin 1) o)
    fun a => match a with | ⟨0, _⟩ => rfl | ⟨1, _⟩ => rfl).trans ?_
  exact broadcastInDim_apply _ _ v _ _ fun a => match a with | ⟨0, _⟩ => rfl

/-- A vector along the 8192 rows repeated along the columns. -/
theorem brows_apply {α : Type} (v : S8192.Idx → α) (r : Fin 8192) (o : Fin 4096) :
    broadcastInDim S8192x4096 ![0, 1] bcast_S8192x1_S8192x4096_0_1 (broadcastInDim S8192x1 ![0] bcast_S8192_S8192x1_0 v) (ix2 r o)
      = v (ix1 r) := by
  refine (broadcastInDim_apply _ _ _ (ix2 r o) (ix2 r (0 : Fin 1))
    fun a => match a with | ⟨0, _⟩ => rfl | ⟨1, _⟩ => rfl).trans ?_
  exact broadcastInDim_apply _ _ v _ _ fun a => match a with | ⟨0, _⟩ => rfl

/-- The dense layer at (r, o): the sum over k of x[r, k] · Wᵀ[k, o], plus the bias at o. -/
theorem lin_apply (x2v : FVec Ideal S8192x4096 .f32) (wTv : FVec Ideal S4096x4096 .f32) (a2 : FVec Ideal S4096 .f32)
    (r : Fin 8192) (o : Fin 4096) :
    lin (F := Ideal) x2v wTv a2 (ix2 r o) = (∑ k : Fin 4096, x2v (ix2 r k) * wTv (ix2 k o)) + a2 (ix1 o) := by
  unfold lin
  rw [addf_apply, bcolumns_apply]
  refine congrArg (· + a2 (ix1 o)) ?_
  simp only [Host.dotGeneral]
  rw [Ideal.dotGeneral_apply,
    ← Equiv.sum_comp (contrEquiv1 dot_S8192x4096_S4096x4096_S8192x4096_1_0_0_1_n_n 4096 rfl rfl).symm]
  refine Finset.sum_congr rfl fun k _ => ?_
  have hk := contrEquiv1_symm_val dot_S8192x4096_S4096x4096_S8192x4096_1_0_0_1_n_n 4096 rfl rfl k
  have el : dot_S8192x4096_S4096x4096_S8192x4096_1_0_0_1_n_n.lhsIdx (ix2 r o)
      ((contrEquiv1 dot_S8192x4096_S4096x4096_S8192x4096_1_0_0_1_n_n 4096 rfl rfl).symm k) = ix2 r k :=
    funext fun a => Fin.ext (by
      match a with
      | ⟨0, _⟩ => exact lhs_lin_0 _ _
      | ⟨1, _⟩ => exact (lhs_lin_1 _ _).trans hk)
  have er : dot_S8192x4096_S4096x4096_S8192x4096_1_0_0_1_n_n.rhsIdx (ix2 r o)
      ((contrEquiv1 dot_S8192x4096_S4096x4096_S8192x4096_1_0_0_1_n_n 4096 rfl rfl).symm k) = ix2 k o :=
    funext fun a => Fin.ext (by
      match a with
      | ⟨0, _⟩ => exact (rhs_lin_0 _ _).trans hk
      | ⟨1, _⟩ => exact rhs_lin_1 _ _)
  rw [el, er]

/-! ## An OR of bits is set exactly when one of the bits is -/

theorem ori_eq_one_iff (x y : BitVec 1) : IntOp.ori x y = 1#1 ↔ x = 1#1 ∨ y = 1#1 := by
  rcases BitVec.eq_zero_or_eq_one x with rfl | rfl <;> rcases BitVec.eq_zero_or_eq_one y with rfl | rfl <;> decide

theorem fold_ori_eq_one {ι : Type} (s : Finset ι) (f : ι → BitVec 1) :
    s.fold IntOp.ori 0#1 f = 1#1 ↔ ∃ i ∈ s, f i = 1#1 := by
  induction s using Finset.cons_induction with
  | empty => simp
  | cons a s ha ih =>
    rw [Finset.fold_cons, ori_eq_one_iff, ih]
    constructor
    · rintro (h | ⟨i, hi, h⟩)
      · exact ⟨a, Finset.mem_cons_self a s, h⟩
      · exact ⟨i, Finset.mem_cons.mpr (Or.inr hi), h⟩
    · rintro ⟨i, hi, h⟩
      rcases Finset.mem_cons.mp hi with rfl | hi'
      · exact Or.inl h
      · exact Or.inr ⟨i, hi', h⟩

theorem fold_univ_ori_eq_one {ι : Type} [Fintype ι] (f : ι → BitVec 1) :
    (Finset.univ : Finset ι).fold IntOp.ori 0#1 f = 1#1 ↔ ∃ i, f i = 1#1 := by
  rw [fold_ori_eq_one]
  exact ⟨fun ⟨i, _, h⟩ => ⟨i, h⟩, fun ⟨i, h⟩ => ⟨i, Finset.mem_univ i, h⟩⟩

/-! ## The selected rows and the selected clusters -/

/-- A row is selected when one of its 32 mask bits is set. -/
theorem qm_apply (mk : IVec S8192x32 1) (r : Fin 8192) : qm mk (ix1 r) = 1#1 ↔ ∃ j : Fin 32, mk (ix2 r j) = 1#1 := by
  unfold qm
  rw [Host.reduce_eq_fold_single IntOp.ori mk _ reducesTo_S8192x32_S8192_d1 (by decide) h_S_ (ix1 r)]
  refine (fold_univ_ori_eq_one _).trans (exists_congr fun k => ?_)
  exact iff_of_eq (congrArg (· = 1#1)
    (congrArg mk (funext fun a => Fin.ext (by match a with | ⟨0, _⟩ => rfl | ⟨1, _⟩ => rfl))))

/-- A cluster is selected when one of the 8192 rows has its mask bit set. -/
theorem cm_apply (mk : IVec S8192x32 1) (j : Fin 32) : cm mk (ix1 j) = 1#1 ↔ ∃ r : Fin 8192, mk (ix2 r j) = 1#1 := by
  unfold cm
  rw [Host.reduce_eq_fold_single IntOp.ori mk _ reducesTo_S8192x32_S32_d0 (by decide) h_S_ (ix1 j)]
  refine (fold_univ_ori_eq_one _).trans (exists_congr fun k => ?_)
  exact iff_of_eq (congrArg (· = 1#1)
    (congrArg mk (funext fun a => Fin.ext (by match a with | ⟨0, _⟩ => rfl | ⟨1, _⟩ => rfl))))

/-- Column o carries the bit of its cluster o / 128: the 32 bits, each repeated 128 times, laid out in row-major order. -/
theorem km_apply (cmv : IVec S32 1) (o : Fin 4096) :
    km cmv (ix1 o) = cmv (ix1 (⟨o.val / 128, by have := o.isLt; omega⟩ : Fin 32)) := by
  unfold km
  refine (shapeCast_apply _ shapeCasts_S32x128_S4096 (ix1 o)
    (ix2 (⟨o.val / 128, by have := o.isLt; omega⟩ : Fin 32) (⟨o.val % 128, Nat.mod_lt _ (by norm_num)⟩ : Fin 128)) ?_).trans ?_
  · rw [Shape.rowMajor_val_two, Shape.rowMajor_val_one]
    show o.val / 128 * 128 + o.val % 128 = o.val
    omega
  · exact broadcastInDim_apply _ _ cmv _ _ fun a => match a with | ⟨0, _⟩ => rfl

/-! ## The mask as 0 / 1 -/

/-- The AND of two bits, read as an unsigned integer, is the indicator of both being set. -/
theorem uitofp_andi (x y : BitVec 1) :
    FloatOps.uitofp (F := Ideal) .f32 (IntOp.andi x y) = ind (x = 1#1 ∧ y = 1#1) := by
  show (((IntOp.andi x y).toNat : ℝ) : EReal) = _
  rcases BitVec.eq_zero_or_eq_one x with rfl | rfl <;> rcases BitVec.eq_zero_or_eq_one y with rfl | rfl
  · rw [ind_of_not (by decide)]; simp [IntOp.andi]
  · rw [ind_of_not (by decide)]; simp [IntOp.andi]
  · rw [ind_of_not (by decide)]; simp [IntOp.andi]
  · rw [ind_of (by decide)]; simp [IntOp.andi]

theorem out2_mask_apply (linv : FVec Ideal S8192x4096 .f32) (qmv : IVec S8192 1) (kmv : IVec S4096 1) (r : Fin 8192) (o : Fin 4096) :
    out2 (F := Ideal) linv qmv kmv (ix2 r o) = linv (ix2 r o) * ind (qmv (ix1 r) = 1#1 ∧ kmv (ix1 o) = 1#1) := by
  unfold out2
  rw [mulf_apply]
  refine congrArg (linv (ix2 r o) * ·) ?_
  show FloatOps.uitofp (F := Ideal) .f32 (IntOp.andi
      (broadcastInDim S8192x4096 ![0, 1] bcast_S8192x1_S8192x4096_0_1
        (broadcastInDim S8192x1 ![0] bcast_S8192_S8192x1_0 qmv) (ix2 r o))
      (broadcastInDim S8192x4096 ![0, 1] bcast_S1x4096_S8192x4096_0_1
        (broadcastInDim S1x4096 ![1] bcast_S4096_S1x4096_1 kmv) (ix2 r o))) = _
  rw [brows_apply, bcolumns_apply]
  exact uitofp_andi _ _

end Cert.ReferenceIdeal.RefVal

end
-- ==== Proof.RefVal.lean ====
/-
  The reference's value is the specification: at row r and column o the reference's masked dense layer is
  (sum_k x_r[k] * W^T[k, o] + bias_o) when row r and the cluster of column o are selected, and 0 otherwise,
  with the selection read off the routing bits of the rows (Spec.lean).

  The routing bit is reached one stage at a time, each stage read at an index: the score of row r against centroid j
  is a sum over the 4096 entries of the row; the mean and the variance of the 32 scores of a row are their sum and the
  sum of their centred squares over 32 (the divisor 32 − 0 is positive, so the quotient is taken, never the
  not-a-number branch); the normalised score is the centred score times the reciprocal root of the variance plus
  epsilon times the weight; the maximum of a row taken against −∞ is the fold of max from −∞ over the row; the soft-max
  is the shifted exponential over the row's sum of them; the bit is the comparison with one half.
-/
import proofs.«116196_j17523466567937_1_alg».proof.Proof.RefTerm
import proofs.«116196_j17523466567937_1_alg».proof.Proof.Spec
import proofs.«116196_j17523466567937_1_alg».proof.Proof.RefLin
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.ReferenceIdeal.RefVal

open Idealize.ShloMosaic Idealize.ShloMosaic.ValueIdx
open Cert.ReferenceIdeal Cert.ReferenceIdeal.RefTerm Cert.Spec
open Cert.ReferenceIdeal.Facts₀ Cert.ReferenceIdeal.Facts

variable [Facts]

namespace Stage

/-! ## The scores: a contraction over the 4096 entries of a row -/

theorem lhs_dots_0 (i : S8192x32.Idx) (q : dot_S8192x4096_S4096x32_S8192x32_1_0_0_1_n_n.contr.Idx) :
    (dot_S8192x4096_S4096x32_S8192x32_1_0_0_1_n_n.lhsIdx i q 0).val = (i 0).val := by
  unfold DotDims.lhsIdx
  rw [dif_neg (show ¬(0 : Fin S8192x4096.rank) ∈ dot_S8192x4096_S4096x32_S8192x32_1_0_0_1_n_n.lhsBatch from List.not_mem_nil),
    dif_pos (show (0 : Fin S8192x4096.rank) ∈ dot_S8192x4096_S4096x32_S8192x32_1_0_0_1_n_n.lhsNonContracting from List.mem_singleton.mpr rfl)]
  rfl

theorem lhs_dots_1 (i : S8192x32.Idx) (q : dot_S8192x4096_S4096x32_S8192x32_1_0_0_1_n_n.contr.Idx) :
    (dot_S8192x4096_S4096x32_S8192x32_1_0_0_1_n_n.lhsIdx i q 1).val = (q ⟨0, Nat.one_pos⟩).val :=
  dot_S8192x4096_S4096x32_S8192x32_1_0_0_1_n_n.lhsIdx_val_of_single rfl i q

theorem rhs_dots_0 (i : S8192x32.Idx) (q : dot_S8192x4096_S4096x32_S8192x32_1_0_0_1_n_n.contr.Idx) :
    (dot_S8192x4096_S4096x32_S8192x32_1_0_0_1_n_n.rhsIdx i q 0).val = (q ⟨0, Nat.one_pos⟩).val :=
  dot_S8192x4096_S4096x32_S8192x32_1_0_0_1_n_n.rhsIdx_val_of_single rfl i q

theorem rhs_dots_1 (i : S8192x32.Idx) (q : dot_S8192x4096_S4096x32_S8192x32_1_0_0_1_n_n.contr.Idx) :
    (dot_S8192x4096_S4096x32_S8192x32_1_0_0_1_n_n.rhsIdx i q 1).val = (i 1).val := by
  unfold DotDims.rhsIdx
  rw [dif_neg (show ¬(1 : Fin S4096x32.rank) ∈ dot_S8192x4096_S4096x32_S8192x32_1_0_0_1_n_n.rhsBatch from List.not_mem_nil),
    dif_pos (show (1 : Fin S4096x32.rank) ∈ dot_S8192x4096_S4096x32_S8192x32_1_0_0_1_n_n.rhsNonContracting from List.mem_singleton.mpr rfl)]
  rfl

/-- The score of row r against centroid j is the sum over k of x[r, k] · C[k, j]. -/
theorem dots_apply (x2v : FVec Ideal S8192x4096 .f32) (cwTv : FVec Ideal S4096x32 .f32) (r : Fin 8192) (j : Fin 32) :
    dots (F := Ideal) x2v cwTv (ix2 r j) = ∑ k : Fin 4096, x2v (ix2 r k) * cwTv (ix2 k j) := by
  unfold dots
  simp only [Host.dotGeneral]
  rw [Ideal.dotGeneral_apply,
    ← Equiv.sum_comp (contrEquiv1 dot_S8192x4096_S4096x32_S8192x32_1_0_0_1_n_n 4096 rfl rfl).symm]
  refine Finset.sum_congr rfl fun k _ => ?_
  have hk := contrEquiv1_symm_val dot_S8192x4096_S4096x32_S8192x32_1_0_0_1_n_n 4096 rfl rfl k
  have el : dot_S8192x4096_S4096x32_S8192x32_1_0_0_1_n_n.lhsIdx (ix2 r j)
      ((contrEquiv1 dot_S8192x4096_S4096x32_S8192x32_1_0_0_1_n_n 4096 rfl rfl).symm k) = ix2 r k :=
    funext fun a => Fin.ext (by
      match a with
      | ⟨0, _⟩ => exact lhs_dots_0 _ _
      | ⟨1, _⟩ => exact (lhs_dots_1 _ _).trans hk)
  have er : dot_S8192x4096_S4096x32_S8192x32_1_0_0_1_n_n.rhsIdx (ix2 r j)
      ((contrEquiv1 dot_S8192x4096_S4096x32_S8192x32_1_0_0_1_n_n 4096 rfl rfl).symm k) = ix2 k j :=
    funext fun a => Fin.ext (by
      match a with
      | ⟨0, _⟩ => exact (rhs_dots_0 _ _).trans hk
      | ⟨1, _⟩ => exact rhs_dots_1 _ _)
  rw [el, er]

/-! ## A row's sum and a row's maximum -/

/-- The host's sum along the clusters, from the zero word, is the sum of the row. -/
theorem rowSum_apply (v : FVec Ideal S8192x32 .f32) (r : Fin 8192) :
    Host.reduceAdd (F := Ideal) v (constant (F := Ideal) S_ .f32 0x00000000#32) reducesTo_S8192x32_S8192_d1 h_S_ (ix1 r)
      = ∑ j : Fin 32, v (ix2 r j) := by
  rw [hostReduceAdd_apply, Ideal.hostReduceAdd_single reducesTo_S8192x32_S8192_d1 (by decide), constant_apply,
    Ideal.ofBits_zero_f32, zero_add]
  refine Finset.sum_congr rfl fun k _ => ?_
  exact congrArg v (funext fun a => Fin.ext (by match a with | ⟨0, _⟩ => rfl | ⟨1, _⟩ => rfl))

/-! ## Host operations read at an element -/

theorem hostRsqrt_apply {s : Shape} {φ : FTy} (x : FVec Ideal s φ) (i : s.Idx) : Host.rsqrt x i = Ideal.rsqrt (x i) := rfl
theorem hostExp_apply {s : Shape} {φ : FTy} (x : FVec Ideal s φ) (i : s.Idx) : Host.exp x i = Ideal.exp (x i) := rfl

/-! ## Broadcasts read at an index -/

/-- A vector of 8192 entries as a column. -/
theorem bcol_apply {α : Type} (v : S8192.Idx → α) (r : Fin 8192) (c : Fin 1) :
    broadcastInDim S8192x1 ![0] bcast_S8192_S8192x1_0 v (ix2 r c) = v (ix1 r) :=
  broadcastInDim_apply _ _ v _ _ fun a => match a with | ⟨0, _⟩ => rfl

/-- A column repeated along the 32 clusters. -/
theorem brow_apply {α : Type} (v : S8192x1.Idx → α) (r : Fin 8192) (j : Fin 32) :
    broadcastInDim S8192x32 ![0, 1] bcast_S8192x1_S8192x32_0_1 v (ix2 r j) = v (ix2 r (0 : Fin 1)) :=
  broadcastInDim_apply _ _ v _ _ fun a => match a with | ⟨0, _⟩ => rfl | ⟨1, _⟩ => rfl

/-- The weight, a vector along the clusters, repeated down the rows. -/
theorem bweight_apply {α : Type} (v : S32.Idx → α) (r : Fin 8192) (j : Fin 32) :
    broadcastInDim S8192x32 ![0, 1] bcast_S1x32_S8192x32_0_1 (broadcastInDim S1x32 ![1] bcast_S32_S1x32_1 v) (ix2 r j)
      = v (ix1 j) := by
  refine (broadcastInDim_apply _ _ _ (ix2 r j) (ix2 (0 : Fin 1) j)
    fun a => match a with | ⟨0, _⟩ => rfl | ⟨1, _⟩ => rfl).trans ?_
  exact broadcastInDim_apply _ _ v _ _ fun a => match a with | ⟨0, _⟩ => rfl

/-! ## The mean and the variance of a row of scores -/

theorem mu_apply (d : FVec Ideal S8192x32 .f32) (r : Fin 8192) (c : Fin 1) :
    mu (F := Ideal) d (ix2 r c) = muR (fun j => d (ix2 r j)) := by
  show _ = Ideal.div (∑ j : Fin 32, d (ix2 r j)) (Ideal.ofBits .f32 0x42000000#32)
  unfold mu
  rw [hostDivf_apply, bcol_apply, rowSum_apply, broadcastInDim_scalar_apply, constant_apply]

theorem varSq_apply (d : FVec Ideal S8192x32 .f32) (r : Fin 8192) (j : Fin 32) :
    varSq (F := Ideal) d (ix2 r j)
      = (d (ix2 r j) - muR (fun j' => d (ix2 r j'))) * (d (ix2 r j) - muR (fun j' => d (ix2 r j'))) := by
  unfold varSq
  rw [mulf_apply, subf_apply, brow_apply, mu_apply]

/-- The word 0x42000000 is the real number 32. -/
theorem c32_eq : c32 = ((32 : ℝ) : EReal) := by
  unfold c32
  simp [Ideal.ofBits, Ideal.ieee, -EReal.coe_mul]; norm_num

theorem c32_pos : (0 : EReal) < c32 := by
  rw [c32_eq]; exact EReal.coe_pos.mpr (by norm_num)

/-- The variance's divisor: 32 minus the integer 0 as a float. -/
theorem varDen_apply : varDen (F := Ideal) ix0 = c32 := by
  unfold varDen
  rw [subf_apply, constant_apply, sitofp_apply, constantI_apply]
  show Ideal.ofBits .f32 0x42000000#32 - (((0#32 : BitVec 32).toInt : ℝ) : EReal) = c32
  simp [c32]

/-- 32 > 0, so the variance is the quotient, never the not-a-number branch. -/
theorem cmp_c32_pos : Ideal.cmp .ogt c32 0 = 1#1 := by
  show BitVec.ofBool (decide ((0 : EReal) < c32)) = 1#1
  rw [decide_eq_true c32_pos]; rfl

theorem varr_apply (d : FVec Ideal S8192x32 .f32) (r : Fin 8192) (c : Fin 1) :
    varr (F := Ideal) d (ix2 r c) = varR (fun j => d (ix2 r j)) := by
  unfold varr
  rw [select_apply, broadcastInDim_scalar_apply, cmpf_apply, varDen_apply, constant_apply, Ideal.ofBits_zero_f32,
    Ideal.cmpf_def, cmp_c32_pos, select_one, hostDivf_apply, bcol_apply, rowSum_apply, broadcastInDim_scalar_apply,
    varDen_apply]
  unfold varR
  exact congrArg (fun t => Ideal.div t c32) (Finset.sum_congr rfl fun j _ => varSq_apply d r j)

/-! ## The normalised scores -/

theorem zn_apply (d : FVec Ideal S8192x32 .f32) (a3 : FVec Ideal S32 .f32) (r : Fin 8192) (j : Fin 32) :
    zn (F := Ideal) d (mu d) (varr d) a3 (ix2 r j) = znR (fun j' => d (ix2 r j')) (fun j' => a3 (ix1 j')) j := by
  unfold zn znR
  rw [mulf_apply, mulf_apply, subf_apply, brow_apply, mu_apply, brow_apply, bweight_apply, hostRsqrt_apply, addf_apply,
    varr_apply, broadcastInDim_scalar_apply, constant_apply]
  rfl

/-! ## The row maximum, the exponentials, the soft-max, the mask -/

theorem cninf_le_zmaxR (z : Fin 32 → EReal) : cninf ≤ zmaxR z :=
  (Finset.le_fold_max cninf).mpr (Or.inl le_rfl)

theorem rowMax_apply (z : FVec Ideal S8192x32 .f32) (r : Fin 8192) :
    Host.reduce (FloatOps.maximumf (F := Ideal)) z (constant (F := Ideal) S_ .f32 0xFF800000#32)
        reducesTo_S8192x32_S8192_d1 h_S_ (ix1 r)
      = zmaxR (fun j => z (ix2 r j)) := by
  rw [Host.reduce_eq_fold_single (FloatOps.maximumf (F := Ideal)) z _ reducesTo_S8192x32_S8192_d1 (by decide) h_S_ (ix1 r)]
  show Finset.univ.fold max (Ideal.ofBits .f32 0xFF800000#32) _ = Finset.univ.fold max (Ideal.ofBits .f32 0xFF800000#32) _
  congr 1
  funext k
  exact congrArg z (funext fun a => Fin.ext (by match a with | ⟨0, _⟩ => rfl | ⟨1, _⟩ => rfl))

theorem expz_apply (z : FVec Ideal S8192x32 .f32) (r : Fin 8192) (j : Fin 32) :
    expz (F := Ideal) z (ix2 r j) = exR (fun j' => z (ix2 r j')) j := by
  unfold expz exR
  rw [hostExp_apply, subf_apply, brow_apply, bcol_apply, maximumf_apply, broadcastInDim_scalar_apply, constant_apply,
    rowMax_apply]
  have h : Ideal.ofBits .f32 0xFF800000#32 ≤ zmaxR (fun j' => z (ix2 r j')) := cninf_le_zmaxR _
  rw [max_eq_right h]

theorem soft_apply (z : FVec Ideal S8192x32 .f32) (r : Fin 8192) (j : Fin 32) :
    soft (F := Ideal) z (ix2 r j) = softR (fun j' => z (ix2 r j')) j := by
  unfold soft softR
  rw [hostDivf_apply, expz_apply, brow_apply, bcol_apply, rowSum_apply]
  exact congrArg (Ideal.div _) (Finset.sum_congr rfl fun j' _ => expz_apply z r j')

theorem mask_at (s : FVec Ideal S8192x32 .f32) (r : Fin 8192) (j : Fin 32) :
    mask (F := Ideal) s (ix2 r j) = Ideal.cmp .ogt (s (ix2 r j)) chalf := by
  unfold mask
  rw [cmpf_apply, broadcastInDim_scalar_apply, constant_apply]
  rfl

end Stage

open Stage

/-- The reference's routing mask at (r, j) is the routing bit of row r of x at cluster j. -/
theorem mask_apply (x2v : FVec Ideal S8192x4096 .f32) (cwTv : FVec Ideal S4096x32 .f32) (a3 : FVec Ideal S32 .f32)
    (r : Fin 8192) (j : Fin 32) :
    mask (F := Ideal) (soft (zn (dots x2v cwTv) (mu (dots x2v cwTv)) (varr (dots x2v cwTv)) a3)) (ix2 r j)
      = bitR (fun k => x2v (ix2 r k)) (fun k j' => cwTv (ix2 k j')) (fun j' => a3 (ix1 j')) j := by
  have hd : (fun j' => dots (F := Ideal) x2v cwTv (ix2 r j'))
      = dotsR (fun k => x2v (ix2 r k)) (fun k j' => cwTv (ix2 k j')) := funext fun j' => dots_apply x2v cwTv r j'
  have hz : (fun j' => zn (F := Ideal) (dots x2v cwTv) (mu (dots x2v cwTv)) (varr (dots x2v cwTv)) a3 (ix2 r j'))
      = znR (dotsR (fun k => x2v (ix2 r k)) (fun k j' => cwTv (ix2 k j'))) (fun j' => a3 (ix1 j')) :=
    funext fun j' => by rw [zn_apply, hd]
  rw [mask_at, soft_apply, hz]
  rfl

theorem maskOf_apply (a0 : FVec Ideal S4x2048x4096 .f32) (a1 : FVec Ideal S32x256x128 .f32) (a3 : FVec Ideal S32 .f32)
    (a5 : IVec S32x32 32) (r : Fin 8192) (j : Fin 32) :
    maskOf (F := Ideal) a0 a1 a3 a5 (ix2 r j)
      = bitR (fun k => x2 a0 (ix2 r k)) (fun k j' => cwT (cw a1 a5) (ix2 k j')) (fun j' => a3 (ix1 j')) j :=
  mask_apply (x2 a0) (cwT (cw a1 a5)) a3 r j

/-- The reference's result before its final reshape, at (r, o), is the specification. -/
theorem out2_apply (a0 : FVec Ideal S4x2048x4096 .f32) (a1 : FVec Ideal S32x256x128 .f32) (a2 : FVec Ideal S4096 .f32)
    (a3 : FVec Ideal S32 .f32) (a4 : IVec S32x4096 32) (a5 : IVec S32x32 32) (r : Fin 8192) (o : Fin 4096) :
    out2 (F := Ideal) (lin (x2 a0) (wT (wmat a1 a4)) a2) (qm (maskOf a0 a1 a3 a5)) (km (cm (maskOf a0 a1 a3 a5))) (ix2 r o)
      = G (fun r' k => x2 a0 (ix2 r' k)) (fun k j => cwT (cw a1 a5) (ix2 k j)) (fun j => a3 (ix1 j))
          (fun k o' => wT (wmat a1 a4) (ix2 k o')) (fun o' => a2 (ix1 o')) r o := by
  rw [out2_mask_apply, lin_apply]
  unfold G
  refine congrArg (_ * ·) (congrArg ind (propext (and_congr ?_ ?_)))
  · rw [qm_apply]
    exact exists_congr fun j => by rw [maskOf_apply]
  · rw [km_apply, cm_apply]
    exact exists_congr fun r' => by rw [maskOf_apply]

end Cert.ReferenceIdeal.RefVal

end
-- ==== Proof.lean ====
/-
  The certificate's claim. Both idealized programs compute the masked dense layer of Spec.lean: the kernel
  program through its two regions (the routing masks, then the masked affine map block by block), the reference
  through its host operations; the operands both build from the arguments — x as a matrix and the two expanded
  weight matrices read out of the codebooks — are the same operations of the same arguments, so the two results
  agree index by index before their common final reshape. The frames: every unscoped buffer of the kernel
  program ends at a fold from the launch memory through which no argument is written; the reference's run
  leaves its arguments alone. The idealization rewrote nothing, so there is nothing to preserve.
-/
import proofs.«116196_j17523466567937_1_alg».proof.Defs
import proofs.«116196_j17523466567937_1_alg».proof.Proof.K.Run
import proofs.«116196_j17523466567937_1_alg».proof.Proof.KI.KVal
import proofs.«116196_j17523466567937_1_alg».proof.Proof.RefRun
import proofs.«116196_j17523466567937_1_alg».proof.Proof.RefVal
import proofs.«116196_j17523466567937_1_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The operands both programs build are the same functions of the arguments -/

section Operands

open Cert.KernelIdeal.HostTerm in
theorem x2_eq (a0 : FVec Ideal Cert.KernelIdeal.S4x2048x4096 .f32) :
    Cert.KernelIdeal.HostTerm.x2 (F := Ideal) a0 = Cert.ReferenceIdeal.RefTerm.x2 (F := Ideal) a0 := rfl

theorem cwT_eq (a1 : FVec Ideal Cert.KernelIdeal.S32x256x128 .f32) (a5 : IVec Cert.KernelIdeal.S32x32 32) :
    Cert.KernelIdeal.HostTerm.cwT (F := Ideal) (Cert.KernelIdeal.HostTerm.cw a1 a5)
      = Cert.ReferenceIdeal.RefTerm.cwT (F := Ideal) (Cert.ReferenceIdeal.RefTerm.cw a1 a5) := rfl

theorem wT_eq (a1 : FVec Ideal Cert.KernelIdeal.S32x256x128 .f32) (a4 : IVec Cert.KernelIdeal.S32x4096 32) :
    Cert.KernelIdeal.HostTerm.wT (F := Ideal) (Cert.KernelIdeal.HostTerm.wmat a1 a4)
      = Cert.ReferenceIdeal.RefTerm.wT (F := Ideal) (Cert.ReferenceIdeal.RefTerm.wmat a1 a4) := rfl

end Operands

/-! ## The claims -/

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.RefRun.run (F := Ideal) m ρ)

/-- The two results agree: before their final reshapes both are the specification at every (r, o), over operands
    that are the same functions of arguments that agree. -/
theorem results_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (b0 : FVec Ideal Cert.ReferenceIdeal.S4x2048x4096 .f32) (b1 : FVec Ideal Cert.ReferenceIdeal.S32x256x128 .f32)
    (b2 : FVec Ideal Cert.ReferenceIdeal.S4096 .f32) (b3 : FVec Ideal Cert.ReferenceIdeal.S32 .f32)
    (b4 : IVec Cert.ReferenceIdeal.S32x4096 32) (b5 : IVec Cert.ReferenceIdeal.S32x32 32)
    (h0 : b0 = Cert.KernelIdeal.Hand.arg0 m c) (h1 : b1 = Cert.KernelIdeal.Hand.arg1 m c)
    (h2 : b2 = Cert.KernelIdeal.Hand.arg2 m c) (h3 : b3 = Cert.KernelIdeal.Hand.arg3 m c)
    (h4 : b4 = Cert.KernelIdeal.Hand.arg4 m c) (h5 : b5 = Cert.KernelIdeal.Hand.arg5 m c) :
    Cert.ReferenceIdeal.RefTerm.refOut (F := Ideal) b0 b1 b2 b3 b4 b5
      = (Cert.KernelIdeal.Hand.W5 m ρ c (Proc.devRef .tc Cert.KernelIdeal.main_v48) : Cert.KernelIdeal.S4x2048x4096.Idx → EReal) := by
  subst h0 h1 h2 h3 h4 h5
  rw [Cert.KernelIdeal.Hand.W5_out m ρ c]
  unfold Cert.ReferenceIdeal.RefTerm.refOut
  refine congrArg (fun v => shapeCast Cert.KernelIdeal.S4x2048x4096 v Cert.KernelIdeal.Gen.shapeCasts_S8192x4096_S4x2048x4096) ?_
  funext i
  obtain ⟨r, o, rfl⟩ : ∃ (r : Fin 8192) (o : Fin 4096), i = ix2 r o := ⟨i 0, i 1, eq_ix2 i⟩
  rw [Cert.ReferenceIdeal.RefVal.out2_apply, Cert.KernelIdeal.Hand.K2D_apply m ρ c r o, x2_eq, cwT_eq, wT_eq]

theorem algebraic : Cert.algebraic_KernelIdeal_ReferenceIdeal := by
  intro m ρ m' ρ' _ hagree
  refine ⟨fun c => Cert.KernelIdeal.Hand.W5 m ρ c (Proc.devRef .tc Cert.KernelIdeal.main_v48), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v48 (by decide)),
      (h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c),
      (h c _ (Cert.KernelIdeal.Hand.mem_uc Cert.KernelIdeal.main_arg5 (by decide))).trans (Cert.KernelIdeal.Hand.W5_main_arg5 m ρ c)⟩
  · refine (θ_run Cert.ReferenceIdeal.defs _ _).mono (fun r h c => ⟨(h c).1.trans ?_, (h c).2⟩)
      (Cert.ReferenceIdeal.RefRun.run (F := Ideal) m' ρ')
    exact results_agree m ρ c _ _ _ _ _ _ (hagree c).1 (hagree c).2.1 (hagree c).2.2.1 (hagree c).2.2.2.1
      (hagree c).2.2.2.2.1 (hagree c).2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
